-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S3x256x256 : Shape := ⟨3, ![3, 256, 256]⟩
abbrev S256 : Shape := ⟨1, ![256]⟩
abbrev S3x256x128 : Shape := ⟨3, ![3, 256, 128]⟩
abbrev S128 : Shape := ⟨1, ![128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S256 : S_.BroadcastsInDim S256 (![] : Fin 0 → Fin S256.rank)
  reducesTo_S256_S_d0 : S256.ReducesTo [0] S_
  bcast_S_S3x256x128 : S_.BroadcastsInDim S3x256x128 (![] : Fin 0 → Fin S3x256x128.rank)
  reducesTo_S3x256x128_S_d0_1_2 : S3x256x128.ReducesTo [0, 1, 2] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg1 : IVec S2x320000 32) (main_arg5 : FVec F S128 .f32) (main_v13 : IVec S_ 1) (main_v16 : IVec S3x256x128 1) : IVec S_ 1 :=
  let main_c_5 : IVec S_ 1 := constantI S_ 1 1#1
  let main_v17 : IVec S_ 1 := (fun x v => Host.reduce IntOp.andi x v reducesTo_S3x256x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x320000 32 := broadcastInDim S2x320000 ![] bcast_S_S2x320000 main_c_8
  let main_v25 : IVec S2x320000 1 := cmpi .sge main_arg1 main_v24
  let main_c_9 : IVec S_ 32 := constantI S_ 32 10000#32
  let main_v26 : IVec S2x320000 32 := broadcastInDim S2x320000 ![] bcast_S_S2x320000 main_c_9
  let main_v27 : IVec S2x320000 1 := cmpi .slt main_arg1 main_v26
  let main_v28 : IVec S2x320000 1 := andi main_v25 main_v27
  let main_c_10 : IVec S_ 1 := constantI S_ 1 1#1
  let main_v29 : IVec S_ 1 := (fun x v => Host.reduce IntOp.andi x v reducesTo_S2x320000_S_d0_1 h_S_) main_v28 main_c_10
  let main_v30 : IVec S_ 1 := andi main_v23 main_v29
  main_v30

def fn {F : FTy → Type} [FloatOps F] (main_arg0 : FVec F S10000x256 .f32) (main_arg1 : IVec S2x320000 32) (main_arg2 : FVec F S3x256x256 .f32) (main_arg3 : FVec F S256 .f32) (main_arg4 : FVec F S3x256x128 .f32) (main_arg5 : FVec F S128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S3x256x256 .f32 := Host.absf main_arg2
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x128 .f32 := Host.absf main_arg4
  let main_cst_4 : FVec F S_ .f32 := constant S_ .f32 0x7F800000#32
  let main_v15 : FVec F S3x256x128 .f32 := broadcastInDim S3x256x128 ![] bcast_S_S3x256x128 main_cst_4
  let main_v16 : IVec S3x256x128 1 := cmpf .olt main_v14 main_v15
  fn_part1 (F := F) main_arg1 main_arg5 main_v13 main_v16
-- ==== Kernel.lean ====
abbrev S10000x256 : Shape := ⟨2, ![10000, 256]⟩
abbrev S2x320000 : Shape := ⟨2, ![2, 320000]⟩
abbrev S3x256x256 : Shape := ⟨3, ![3, 256, 256]⟩
abbrev S256 : Shape := ⟨1, ![256]⟩
abbrev S3x256x128 : Shape := ⟨3, ![3, 256, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S100000000 : Shape := ⟨1, ![100000000]⟩
abbrev S10000x10000 : Shape := ⟨2, ![10000, 10000]⟩
abbrev S400x10000 : Shape := ⟨2, ![400, 10000]⟩
abbrev S400x256 : Shape := ⟨2, ![400, 256]⟩
abbrev S1x256 : Shape := ⟨2, ![1, 256]⟩
abbrev S1x256x256 : Shape := ⟨3, ![1, 256, 256]⟩
abbrev S256x256 : Shape := ⟨2, ![256, 256]⟩
abbrev S1x128 : Shape := ⟨2, ![1, 128]⟩
abbrev S10000x128 : Shape := ⟨2, ![10000, 128]⟩
abbrev S400x128 : Shape := ⟨2, ![400, 128]⟩
abbrev S1x256x128 : Shape := ⟨3, ![1, 256, 128]⟩
abbrev S256x128 : Shape := ⟨2, ![256, 128]⟩

abbrev nBuf : Space → Nat
  | .hbm => 73
  | .vmem => 52
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S3x256x256, .f32⟩
  | .hbm, ⟨3, _⟩ => ⟨S256, .f32⟩
  | .hbm, ⟨4, _⟩ => ⟨S3x256x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .f32⟩
  | .hbm, ⟨11, _⟩ => ⟨S320000, .f32⟩
  | .hbm, ⟨12, _⟩ => ⟨S_, .f32⟩
  | .hbm, ⟨13, _⟩ => ⟨S10000, .f32⟩
  | .hbm, ⟨14, _⟩ => ⟨S320000x1, .i32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .i1⟩
  | .hbm, ⟨19, _⟩ => ⟨S_, .f32⟩
  | .hbm, ⟨20, _⟩ => ⟨S10000, .f32⟩
  | .hbm, ⟨21, _⟩ => ⟨S10000, .f32⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000, .f32⟩
  | .hbm, ⟨36, _⟩ => ⟨S320000, .f32⟩
  | .hbm, ⟨37, _⟩ => ⟨S_, .i32⟩
  | .hbm, ⟨38, _⟩ => ⟨S320000, .i32⟩
  | .hbm, ⟨39, _⟩ => ⟨S320000, .i1⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S320000, .i32⟩
  | .hbm, ⟨44, _⟩ => ⟨S320000x1, .i32⟩
  | .hbm, ⟨45, _⟩ => ⟨S320000, .f32⟩
  | .hbm, ⟨46, _⟩ => ⟨S320000, .f32⟩
  | .hbm, ⟨47, _⟩ => ⟨S_, .i32⟩
  | .hbm, ⟨48, _⟩ => ⟨S320000, .i32⟩
  | .hbm, ⟨49, _⟩ => ⟨S320000, .i32⟩
  | .hbm, ⟨50, _⟩ => ⟨S320000, .i32⟩
  | .hbm, ⟨51, _⟩ => ⟨S_, .f32⟩
  | .hbm, ⟨52, _⟩ => ⟨S100000000, .f32⟩
  | .hbm, ⟨53, _⟩ => ⟨S320000x1, .i32⟩
  | .hbm, ⟨54, _⟩ => ⟨S100000000, .f32⟩
  | .hbm, ⟨55, _⟩ => ⟨S10000x10000, .f32⟩
  | .hbm, ⟨56, _⟩ => ⟨S10000x10000, .bf16⟩
  | .hbm, ⟨57, _⟩ => ⟨S3x256x256, .bf16⟩
  | .hbm, ⟨58, _⟩ => ⟨S10000x256, .bf16⟩
  | .hbm, ⟨59, _⟩ => ⟨S10000x256, .f32⟩
  | .hbm, ⟨60, _⟩ => ⟨S10000x256, .bf16⟩
  | .hbm, ⟨61, _⟩ => ⟨S10000x256, .f32⟩
  | .hbm, ⟨62, _⟩ => ⟨S10000x256, .bf16⟩
  | .hbm, ⟨63, _⟩ => ⟨S1x256, .f32⟩
  | .hbm, ⟨64, _⟩ => ⟨S10000x256, .f32⟩
  | .hbm, ⟨65, _⟩ => ⟨S3x256x128, .bf16⟩
  | .hbm, ⟨66, _⟩ => ⟨S10000x256, .bf16⟩
  | .hbm, ⟨67, _⟩ => ⟨S10000x256, .f32⟩
  | .hbm, ⟨68, _⟩ => ⟨S10000x256, .bf16⟩
  | .hbm, ⟨69, _⟩ => ⟨S10000x256, .f32⟩
  | .hbm, ⟨70, _⟩ => ⟨S10000x256, .bf16⟩
  | .hbm, ⟨71, _⟩ => ⟨S1x128, .f32⟩
  | .hbm, ⟨72, _⟩ => ⟨S10000x128, .f32⟩
  | .local _ .vmem, ⟨0, _⟩ => ⟨S400x10000, .bf16⟩
  | .local _ .vmem, ⟨1, _⟩ => ⟨S400x10000, .bf16⟩
  | .local _ .vmem, ⟨2, _⟩ => ⟨S10000x256, .bf16⟩
  | .local _ .vmem, ⟨3, _⟩ => ⟨S400x256, .f32⟩
  | .local _ .vmem, ⟨4, _⟩ => ⟨S400x256, .f32⟩
  | .local _ .vmem, ⟨5, _⟩ => ⟨S400x256, .bf16⟩
  | .local _ .vmem, ⟨6, _⟩ => ⟨S400x256, .bf16⟩
  | .local _ .vmem, ⟨7, _⟩ => ⟨S400x10000, .bf16⟩
  | .local _ .vmem, ⟨8, _⟩ => ⟨S400x10000, .bf16⟩
  | .local _ .vmem, ⟨9, _⟩ => ⟨S10000x256, .bf16⟩
  | .local _ .vmem, ⟨10, _⟩ => ⟨S400x256, .f32⟩
  | .local _ .vmem, ⟨11, _⟩ => ⟨S400x256, .f32⟩
  | .local _ .vmem, ⟨12, _⟩ => ⟨S400x256, .f32⟩
  | .local _ .vmem, ⟨13, _⟩ => ⟨S400x256, .f32⟩
  | .local _ .vmem, ⟨14, _⟩ => ⟨S400x256, .bf16⟩
  | .local _ .vmem, ⟨15, _⟩ => ⟨S400x256, .bf16⟩
  | .local _ .vmem, ⟨16, _⟩ => ⟨S400x256, .bf16⟩
  | .local _ .vmem, ⟨17, _⟩ => ⟨S400x256, .bf16⟩
  | .local _ .vmem, ⟨18, _⟩ => ⟨S400x256, .bf16⟩
  | .local _ .vmem, ⟨19, _⟩ => ⟨S400x256, .bf16⟩
  | .local _ .vmem, ⟨20, _⟩ => ⟨S400x256, .bf16⟩
  | .local _ .vmem, ⟨21, _⟩ => ⟨S400x256, .bf16⟩
  | .local _ .vmem, ⟨22, _⟩ => ⟨S3x256x256, .bf16⟩
  | .local _ .vmem, ⟨23, _⟩ => ⟨S1x256, .f32⟩
  | .local _ .vmem, ⟨24, _⟩ => ⟨S400x256, .f32⟩
  | .local _ .vmem, ⟨25, _⟩ => ⟨S400x256, .f32⟩
  | .local _ .vmem, ⟨26, _⟩ => ⟨S400x10000, .bf16⟩
  | .local _ .vmem, ⟨27, _⟩ => ⟨S400x10000, .bf16⟩
  | .local _ .vmem, ⟨28, _⟩ => ⟨S10000x256, .bf16⟩
  | .local _ .vmem, ⟨29, _⟩ => ⟨S400x256, .f32⟩
  | .local _ .vmem, ⟨30, _⟩ => ⟨S400x256, .f32⟩
  | .local _ .vmem, ⟨31, _⟩ => ⟨S400x256, .bf16⟩
  | .local _ .vmem, ⟨32, _⟩ => ⟨S400x256, .bf16⟩
  | .local _ .vmem, ⟨33, _⟩ => ⟨S400x10000, .bf16⟩
  | .local _ .vmem, ⟨34, _⟩ => ⟨S400x10000, .bf16⟩
  | .local _ .vmem, ⟨35, _⟩ => ⟨S10000x256, .bf16⟩
  | .local _ .vmem, ⟨36, _⟩ => ⟨S400x256, .f32⟩
  | .local _ .vmem, ⟨37, _⟩ => ⟨S400x256, .f32⟩
  | .local _ .vmem, ⟨38, _⟩ => ⟨S400x256, .f32⟩
  | .local _ .vmem, ⟨39, _⟩ => ⟨S400x256, .f32⟩
  | .local _ .vmem, ⟨40, _⟩ => ⟨S400x256, .bf16⟩
  | .local _ .vmem, ⟨41, _⟩ => ⟨S400x256, .bf16⟩
  | .local _ .vmem, ⟨42, _⟩ => ⟨S400x256, .bf16⟩
  | .local _ .vmem, ⟨43, _⟩ => ⟨S400x256, .bf16⟩
  | .local _ .vmem, ⟨44, _⟩ => ⟨S400x256, .bf16⟩
  | .local _ .vmem, ⟨45, _⟩ => ⟨S400x256, .bf16⟩
  | .local _ .vmem, ⟨46, _⟩ => ⟨S400x256, .bf16⟩
  | .local _ .vmem, ⟨47, _⟩ => ⟨S400x256, .bf16⟩
  | .local _ .vmem, ⟨48, _⟩ => ⟨S3x256x128, .bf16⟩
  | .local _ .vmem, ⟨49, _⟩ => ⟨S1x128, .f32⟩
  | .local _ .vmem, ⟨50, _⟩ => ⟨S400x128, .f32⟩
  | .local _ .vmem, ⟨51, _⟩ => ⟨S400x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v41_0 : Ref sig .tc := ⟨.hbm, 61, rfl⟩
abbrev main_v41_1 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev main_v47_0 : Ref sig .tc := ⟨.hbm, 69, rfl⟩
abbrev main_v47_1 : Ref sig .tc := ⟨.hbm, 70, rfl⟩
abbrev main_v48 : Ref sig .tc := ⟨.hbm, 71, rfl⟩
abbrev main_v49 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem2_1 : DmaSem sig := 37
abbrev cc4_sem3_0 : DmaSem sig := 38
abbrev cc4_sem3_1 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem5_0 : DmaSem sig := 50
abbrev cc5_sem5_1 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S400x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S400x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S400x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S400x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S400x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S3x256x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S400x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S_S100000000 : S_.BroadcastsInDim S100000000 (![] : Fin 0 → Fin S100000000.rank)
  shapeCasts_S100000000_S10000x10000 : S100000000.ShapeCasts S10000x10000
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  shapeCasts_S256_S1x256 : S256.ShapeCasts S1x256
  shapeCasts_S400x256_S400x256 : S400x256.ShapeCasts S400x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_1_0_0 : ∀ a, (![1, 0, 0] : Fin 3 → Nat) a + S1x256x256.size a ≤ S3x256x256.size a
  inb_S3x256x256_S1x256x256_2_0_0 : ∀ a, (![2, 0, 0] : Fin 3 → Nat) a + S1x256x256.size a ≤ S3x256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  shapeCasts_S128_S1x128 : S128.ShapeCasts S1x128
  inb_S3x256x128_S1x256x128_0_0_0 : ∀ a, (![0, 0, 0] : Fin 3 → Nat) a + S1x256x128.size a ≤ S3x256x128.size a
  h_S1x256x128 : 0 < S1x256x128.numel
  shapeCasts_S1x256x128_S256x128 : S1x256x128.ShapeCasts S256x128
  inb_S3x256x128_S1x256x128_1_0_0 : ∀ a, (![1, 0, 0] : Fin 3 → Nat) a + S1x256x128.size a ≤ S3x256x128.size a
  inb_S3x256x128_S1x256x128_2_0_0 : ∀ a, (![2, 0, 0] : Fin 3 → Nat) a + S1x256x128.size a ≤ S3x256x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  scatter_S100000000_S320000x1_S320000_n_0_0_1_wf : ScatterDims.WF S100000000 S320000x1 S320000 [] [0] [0] 1
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S400x256_S256x128_S400x128_1_0_0_1_n_n_wf : DotDims.WF S400x256 S256x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .bf16 = 32 ∨ (Rect.block (s := S10000x10000) S400x10000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x256.size a ≤ S10000x256.size a
  hwx0_2 : ∀ i : grid0.Coords, EltTy.bits .f32 = 32 ∨ (Rect.block (s := S10000x256) S400x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x256.size a ≤ S10000x256.size a
  hwx0_3 : ∀ i : grid0.Coords, EltTy.bits .bf16 = 32 ∨ (Rect.block (s := S10000x256) S400x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x256.size a ≤ S10000x256.size a
  hwx1_2 : ∀ i : grid1.Coords, EltTy.bits .f32 = 32 ∨ (Rect.block (s := S10000x256) S400x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .f32 = 32 ∨ (Rect.block (s := S10000x256) S400x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x256.size a ≤ S10000x256.size a
  hwx1_4 : ∀ i : grid1.Coords, EltTy.bits .bf16 = 32 ∨ (Rect.block (s := S10000x256) S400x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x256.size a ≤ S10000x256.size a
  hwx2_0 : ∀ i : grid2.Coords, EltTy.bits .bf16 = 32 ∨ (Rect.block (s := S10000x256) S400x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x256.size a ≤ S10000x256.size a
  hwx2_1 : ∀ i : grid2.Coords, EltTy.bits .bf16 = 32 ∨ (Rect.block (s := S10000x256) S400x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x256.size a ≤ S10000x256.size a
  hwx2_2 : ∀ i : grid2.Coords, EltTy.bits .bf16 = 32 ∨ (Rect.block (s := S10000x256) S400x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x256x256.size a ≤ S3x256x256.size a
  hwx2_3 : ∀ i : grid2.Coords, EltTy.bits .bf16 = 32 ∨ (Rect.block (s := S3x256x256) S3x256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x256.size a ≤ S10000x256.size a
  hwx2_5 : ∀ i : grid2.Coords, EltTy.bits .f32 = 32 ∨ (Rect.block (s := S10000x256) S400x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x256.size a ≤ S10000x256.size a
  hwx3_2 : ∀ i : grid3.Coords, EltTy.bits .f32 = 32 ∨ (Rect.block (s := S10000x256) S400x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x256.size a ≤ S10000x256.size a
  hwx3_3 : ∀ i : grid3.Coords, EltTy.bits .bf16 = 32 ∨ (Rect.block (s := S10000x256) S400x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x256.size a ≤ S10000x256.size a
  hwx4_1 : ∀ i : grid4.Coords, EltTy.bits .bf16 = 32 ∨ (Rect.block (s := S10000x256) S10000x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x256.size a ≤ S10000x256.size a
  hwx4_2 : ∀ i : grid4.Coords, EltTy.bits .f32 = 32 ∨ (Rect.block (s := S10000x256) S400x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x256.size a ≤ S10000x256.size a
  hwx4_3 : ∀ i : grid4.Coords, EltTy.bits .f32 = 32 ∨ (Rect.block (s := S10000x256) S400x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x256.size a ≤ S10000x256.size a
  hwx4_4 : ∀ i : grid4.Coords, EltTy.bits .bf16 = 32 ∨ (Rect.block (s := S10000x256) S400x256.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x256.size a ≤ S10000x256.size a
  hwx5_0 : ∀ i : grid5.Coords, EltTy.bits .bf16 = 32 ∨ (Rect.block (s := S10000x256) S400x256.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S400x256.size a ≤ S10000x256.size a
  hwx5_1 : ∀ i : grid5.Coords, EltTy.bits .bf16 = 32 ∨ (Rect.block (s := S10000x256) S400x256.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x256.size a ≤ S10000x256.size a
  hwx5_2 : ∀ i : grid5.Coords, EltTy.bits .bf16 = 32 ∨ (Rect.block (s := S10000x256) S400x256.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S3x256x128.size a ≤ S3x256x128.size a
  hwx5_3 : ∀ i : grid5.Coords, EltTy.bits .bf16 = 32 ∨ (Rect.block (s := S3x256x128) S3x256x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S400x128.size a ≤ S10000x128.size a
  hwx5_5 : ∀ i : grid5.Coords, EltTy.bits .f32 = 32 ∨ (Rect.block (s := S10000x128) S400x128.size (cc5_transform_5 i) (hinb5_5 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def scatter_S100000000_S320000x1_S320000_n_0_0_1 : ScatterDims S100000000 S320000x1 S320000 where
  updateWindowDims := []
  insertedWindowDims := [0]
  scatterDimsToOperandDims := [0]
  indexVectorDim := 1
  wf := scatter_S100000000_S320000x1_S320000_n_0_0_1_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf

abbrev win0_0 : Pipeline.Window sig grid0 :=
  Pipeline.Window.ofSpec (Memref.whole main_v37) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40_0) S400x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40_1) S400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40_1) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S400x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41_0) S400x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v41_1) S400x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S400x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40_1) S400x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41_1) S400x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S3x256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S400x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v37) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46_0) S400x256.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46_1) S400x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v37) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46_1) S10000x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S400x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v47_0) S400x256.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v47_1) S400x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v45) S400x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46_1) S400x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v47_1) S400x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v44) S3x256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v48) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v49) S400x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S3x256x256 : Shape := ⟨3, ![3, 256, 256]⟩
abbrev S256 : Shape := ⟨1, ![256]⟩
abbrev S3x256x128 : Shape := ⟨3, ![3, 256, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S1x256x256 : Shape := ⟨3, ![1, 256, 256]⟩
abbrev S256x256 : Shape := ⟨2, ![256, 256]⟩
abbrev S320000x256 : Shape := ⟨2, ![320000, 256]⟩
abbrev S1x256 : Shape := ⟨2, ![1, 256]⟩
abbrev S1x256x128 : Shape := ⟨3, ![1, 256, 128]⟩
abbrev S256x128 : Shape := ⟨2, ![256, 128]⟩
abbrev S10000x128 : Shape := ⟨2, ![10000, 128]⟩
abbrev S1x128 : Shape := ⟨2, ![1, 128]⟩

abbrev nBuf : Space → Nat
  | .hbm => 150
  | .vmem => 0
  | .smem => 0
  | _ => 0

abbrev hbmTy0_0 (i : Nat) : BufTy := match i % 128 with
  | 0 => ⟨S10000x256, .f32⟩
  | 1 => ⟨S2x320000, .i32⟩
  | 2 => ⟨S3x256x256, .f32⟩
  | 3 => ⟨S256, .f32⟩
  | 4 => ⟨S3x256x128, .f32⟩
  | 5 => ⟨S128, .f32⟩
  | 6 => ⟨S1x320000, .i32⟩
  | 7 => ⟨S320000, .i32⟩
  | 8 => ⟨S1x320000, .i32⟩
  | 9 => ⟨S320000, .i32⟩
  | 10 => ⟨S_, .f32⟩
  | 11 => ⟨S320000, .f32⟩
  | 12 => ⟨S_, .f32⟩
  | 13 => ⟨S10000, .f32⟩
  | 14 => ⟨S320000x1, .i32⟩
  | 15 => ⟨S10000, .f32⟩
  | 16 => ⟨S_, .f32⟩
  | 17 => ⟨S10000, .f32⟩
  | 18 => ⟨S10000, .i1⟩
  | 19 => ⟨S_, .f32⟩
  | 20 => ⟨S10000, .f32⟩
  | 21 => ⟨S10000, .f32⟩
  | 22 => ⟨S10000, .f32⟩
  | 23 => ⟨S_, .f32⟩
  | 24 => ⟨S_, .f32⟩
  | 25 => ⟨S10000, .f32⟩
  | 26 => ⟨S10000, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000, .f32⟩
  | 36 => ⟨S320000, .f32⟩
  | 37 => ⟨S_, .i32⟩
  | 38 => ⟨S320000, .i32⟩
  | 39 => ⟨S320000, .i1⟩
  | 40 => ⟨S_, .i32⟩
  | 41 => ⟨S320000, .i32⟩
  | 42 => ⟨S320000, .i32⟩
  | 43 => ⟨S320000, .i32⟩
  | 44 => ⟨S320000x1, .i32⟩
  | 45 => ⟨S320000, .f32⟩
  | 46 => ⟨S320000, .f32⟩
  | 47 => ⟨S1x256x256, .f32⟩
  | 48 => ⟨S256x256, .f32⟩
  | 49 => ⟨S10000x256, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x256, .f32⟩
  | 59 => ⟨S320000x1, .f32⟩
  | 60 => ⟨S320000x256, .f32⟩
  | 61 => ⟨S320000x256, .f32⟩
  | 62 => ⟨S_, .f32⟩
  | 63 => ⟨S10000x256, .f32⟩
  | 64 => ⟨S320000x1, .i32⟩
  | 65 => ⟨S10000x256, .f32⟩
  | 66 => ⟨S1x256x256, .f32⟩
  | 67 => ⟨S256x256, .f32⟩
  | 68 => ⟨S10000x256, .f32⟩
  | 69 => ⟨S10000x256, .f32⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S320000x256, .f32⟩
  | 79 => ⟨S320000x1, .f32⟩
  | 80 => ⟨S320000x256, .f32⟩
  | 81 => ⟨S320000x256, .f32⟩
  | 82 => ⟨S_, .f32⟩
  | 83 => ⟨S10000x256, .f32⟩
  | 84 => ⟨S320000x1, .i32⟩
  | 85 => ⟨S10000x256, .f32⟩
  | 86 => ⟨S_, .f32⟩
  | 87 => ⟨S10000x256, .f32⟩
  | 88 => ⟨S10000x256, .f32⟩
  | 89 => ⟨S10000x256, .f32⟩
  | 90 => ⟨S1x256x256, .f32⟩
  | 91 => ⟨S256x256, .f32⟩
  | 92 => ⟨S10000x256, .f32⟩
  | 93 => ⟨S10000x256, .f32⟩
  | 94 => ⟨S1x256, .f32⟩
  | 95 => ⟨S10000x256, .f32⟩
  | 96 => ⟨S10000x256, .f32⟩
  | 97 => ⟨S_, .f32⟩
  | 98 => ⟨S10000x256, .f32⟩
  | 99 => ⟨S10000x256, .f32⟩
  | 100 => ⟨S1x256x128, .f32⟩
  | 101 => ⟨S256x128, .f32⟩
  | 102 => ⟨S10000x128, .f32⟩
  | 103 => ⟨S_, .i32⟩
  | 104 => ⟨S320000, .i32⟩
  | 105 => ⟨S320000, .i1⟩
  | 106 => ⟨S_, .i32⟩
  | 107 => ⟨S320000, .i32⟩
  | 108 => ⟨S320000, .i32⟩
  | 109 => ⟨S320000, .i32⟩
  | 110 => ⟨S320000x1, .i32⟩
  | 111 => ⟨S320000x256, .f32⟩
  | 112 => ⟨S320000x1, .f32⟩
  | 113 => ⟨S320000x256, .f32⟩
  | 114 => ⟨S320000x256, .f32⟩
  | 115 => ⟨S_, .f32⟩
  | 116 => ⟨S10000x256, .f32⟩
  | 117 => ⟨S320000x1, .i32⟩
  | 118 => ⟨S10000x256, .f32⟩
  | 119 => ⟨S1x256x128, .f32⟩
  | 120 => ⟨S256x128, .f32⟩
  | 121 => ⟨S10000x128, .f32⟩
  | 122 => ⟨S10000x128, .f32⟩
  | 123 => ⟨S_, .i32⟩
  | 124 => ⟨S320000, .i32⟩
  | 125 => ⟨S320000, .i1⟩
  | 126 => ⟨S_, .i32⟩
  | 127 => ⟨S320000, .i32⟩
  | _ => ⟨S10000x256, .f32⟩

abbrev hbmTy0_1 (i : Nat) : BufTy := match i % 128 with
  | 0 => ⟨S320000, .i32⟩
  | 1 => ⟨S320000, .i32⟩
  | 2 => ⟨S320000x1, .i32⟩
  | 3 => ⟨S320000x256, .f32⟩
  | 4 => ⟨S320000x1, .f32⟩
  | 5 => ⟨S320000x256, .f32⟩
  | 6 => ⟨S320000x256, .f32⟩
  | 7 => ⟨S_, .f32⟩
  | 8 => ⟨S10000x256, .f32⟩
  | 9 => ⟨S320000x1, .i32⟩
  | 10 => ⟨S10000x256, .f32⟩
  | 11 => ⟨S_, .f32⟩
  | 12 => ⟨S10000x256, .f32⟩
  | 13 => ⟨S10000x256, .f32⟩
  | 14 => ⟨S10000x256, .f32⟩
  | 15 => ⟨S1x256x128, .f32⟩
  | 16 => ⟨S256x128, .f32⟩
  | 17 => ⟨S10000x128, .f32⟩
  | 18 => ⟨S10000x128, .f32⟩
  | 19 => ⟨S1x128, .f32⟩
  | 20 => ⟨S10000x128, .f32⟩
  | 21 => ⟨S10000x128, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_14 : Ref sig .tc := ⟨.hbm, 103, rfl⟩
abbrev main_v77 : Ref sig .tc := ⟨.hbm, 104, rfl⟩
abbrev main_v78 : Ref sig .tc := ⟨.hbm, 105, rfl⟩
abbrev main_c_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_17 : Ref sig .tc := ⟨.hbm, 123, rfl⟩
abbrev main_v94 : Ref sig .tc := ⟨.hbm, 124, rfl⟩
abbrev main_v95 : Ref sig .tc := ⟨.hbm, 125, rfl⟩
abbrev main_c_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_19 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_20 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  slices_S3x256x256_S1x256x256_0_0_0 : S3x256x256.Slices ![0, 0, 0] S1x256x256
  shapeCasts_S1x256x256_S256x256 : S1x256x256.ShapeCasts S256x256
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  slices_S3x256x256_S1x256x256_1_0_0 : S3x256x256.Slices ![1, 0, 0] S1x256x256
  slices_S3x256x256_S1x256x256_2_0_0 : S3x256x256.Slices ![2, 0, 0] S1x256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  slices_S3x256x128_S1x256x128_0_0_0 : S3x256x128.Slices ![0, 0, 0] S1x256x128
  shapeCasts_S1x256x128_S256x128 : S1x256x128.ShapeCasts S256x128
  slices_S3x256x128_S1x256x128_1_0_0 : S3x256x128.Slices ![1, 0, 0] S1x256x128
  slices_S3x256x128_S1x256x128_2_0_0 : S3x256x128.Slices ![2, 0, 0] S1x256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x128_S10000x128_1_0_0_1_n_n_wf : DotDims.WF S10000x256 S256x128 S10000x128 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.LibAggAlgebra.lean ====
/-
  Extended-real algebra for a neighbourhood sum over a zero-one adjacency.

  On the extended reals products do not distribute over sums at the infinities, and a sum of
  coerced reals has to be shown to be the coerced sum. Every lemma here assumes its operands are
  (coercions of) real numbers, moves the whole identity into the reals, and proves it there.
-/
import Mathlib.Data.EReal.Inv
import Mathlib.Data.EReal.Operations
import Mathlib.Algebra.BigOperators.Group.Finset.Basic
import Mathlib.Algebra.BigOperators.Ring.Finset
import Mathlib.Analysis.SpecialFunctions.Sqrt
import Mathlib.Tactic.Ring
import Mathlib.Tactic.Linarith
import Mathlib.Tactic.NormNum
import Idealize.ShloMosaic.PureOps.Ideal

noncomputable section

namespace Cert.AggAlgebra

open Idealize.ShloMosaic

/-- An extended real that is (the coercion of) a real number. -/
abbrev IsReal (x : EReal) : Prop := ∃ r : ℝ, x = (r : EReal)

variable {ι : Type*}

/-! ### Reals are closed under the operations of the network -/

theorem isReal_coe (r : ℝ) : IsReal (r : EReal) := ⟨r, rfl⟩

theorem isReal_zero : IsReal (0 : EReal) := ⟨0, rfl⟩

theorem isReal_one : IsReal (1 : EReal) := ⟨1, rfl⟩

theorem isReal_of_zero_or_one {x : EReal} (h : x = 0 ∨ x = 1) : IsReal x := by
  rcases h with rfl | rfl
  · exact isReal_zero
  · exact isReal_one

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  obtain ⟨a, rfl⟩ := hx
  obtain ⟨b, rfl⟩ := hy
  exact ⟨max a b, (EReal.coe_strictMono.monotone.map_max).symm⟩

/-- The coercion of a finite sum of reals is the sum of the coercions. -/
theorem coe_sum (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem isReal_sum (s : Finset ι) (f : ι → EReal) (hf : ∀ i ∈ s, IsReal (f i)) :
    IsReal (∑ i ∈ s, f i) := by
  classical
  induction s using Finset.induction_on with
  | empty => exact ⟨0, by simp⟩
  | insert i s hi ih =>
    rw [Finset.sum_insert hi]
    exact isReal_add (hf i (Finset.mem_insert_self i s))
      (ih fun j hj => hf j (Finset.mem_insert_of_mem hj))

/-! ### (i) The scaled neighbourhood sum factors -/

/-- With a zero-one weight `a` and real `h`, `d`, `hj`, `dj`: summing `h i * (d i * dj)` over the
    indices where `a` is not zero, and adding the self term `hj * (dj * dj)`, is the weighted sum
    `∑ a i * (h i * d i)` plus `hj * dj`, all times `dj`. -/
theorem agg_factor [Fintype ι] (a h d : ι → EReal) (hj dj : EReal)
    [inst : ∀ i, Decidable (a i ≠ 0)]
    (ha : ∀ i, a i = 0 ∨ a i = 1) (hh : ∀ i, IsReal (h i)) (hd : ∀ i, IsReal (d i))
    (hhj : IsReal hj) (hdj : IsReal dj) :
    (∑ i, if a i ≠ 0 then h i * (d i * dj) else 0) + hj * (dj * dj)
      = ((∑ i, a i * (h i * d i)) + hj * dj) * dj := by
  choose hr hhr using hh
  choose dr hdr using hd
  obtain ⟨hjr, rfl⟩ := hhj
  obtain ⟨djr, rfl⟩ := hdj
  -- every summand on either side is the coercion of a real summand
  have hL : ∀ i, (if a i ≠ 0 then h i * (d i * (djr : EReal)) else 0)
      = ((if a i ≠ 0 then hr i * (dr i * djr) else 0 : ℝ) : EReal) := by
    intro i
    split_ifs
    · rw [hhr i, hdr i, ← EReal.coe_mul, ← EReal.coe_mul]
    · rfl
  have hR : ∀ i, a i * (h i * d i) = ((if a i ≠ 0 then hr i * dr i else 0 : ℝ) : EReal) := by
    intro i
    rcases ha i with h0 | h1
    · rw [if_neg (by simp [h0]), h0, zero_mul]; rfl
    · rw [if_pos (by simp [h1]), h1, one_mul, hhr i, hdr i, ← EReal.coe_mul]
  rw [Finset.sum_congr rfl (fun i _ => hL i), Finset.sum_congr rfl (fun i _ => hR i),
    ← coe_sum, ← coe_sum, ← EReal.coe_mul, ← EReal.coe_mul, ← EReal.coe_mul, ← EReal.coe_add,
    ← EReal.coe_add, ← EReal.coe_mul]
  congr 1
  -- the identity in the reals: distribute the last factor over the sum
  rw [add_mul, Finset.sum_mul]
  congr 1
  · refine Finset.sum_congr rfl fun i _ => ?_
    split_ifs <;> ring
  · ring

/-! ### (ii) The degree: a count, a real at least one, and its inverse square root -/

/-- Counting the indices where a zero-one weight is not zero is summing the weight. -/
theorem count_eq_sum [Fintype ι] (a : ι → EReal) [inst : ∀ i, Decidable (a i ≠ 0)]
    (ha : ∀ i, a i = 0 ∨ a i = 1) :
    (∑ i, if a i ≠ 0 then (1 : EReal) else 0) + 1 = (∑ i, a i) + 1 := by
  congr 1
  refine Finset.sum_congr rfl fun i _ => ?_
  rcases ha i with h0 | h1
  · rw [if_neg (by simp [h0]), h0]
  · rw [if_pos (by simp [h1]), h1]

/-- The sum of a zero-one weight, plus one, is a real number at least one. -/
theorem sum_add_one_real [Fintype ι] (a : ι → EReal) (ha : ∀ i, a i = 0 ∨ a i = 1) :
    ∃ r : ℝ, 1 ≤ r ∧ (∑ i, a i) + 1 = (r : EReal) := by
  classical
  -- the weight as a real zero-one function
  have hcoe : ∀ i, a i = ((if a i ≠ 0 then 1 else 0 : ℝ) : EReal) := by
    intro i
    rcases ha i with h0 | h1
    · rw [if_neg (by simp [h0]), h0]; rfl
    · rw [if_pos (by simp [h1]), h1]; rfl
  refine ⟨(∑ i, (if a i ≠ 0 then 1 else 0 : ℝ)) + 1, ?_, ?_⟩
  · have h0 : 0 ≤ ∑ i, (if a i ≠ 0 then (1 : ℝ) else 0) :=
      Finset.sum_nonneg fun i _ => by split_ifs <;> norm_num
    linarith
  · rw [EReal.coe_add, coe_sum, EReal.coe_one]
    congr 1
    exact Finset.sum_congr rfl fun i _ => hcoe i

/-- One over the square root is the inverse square root, at a positive real. -/
theorem div_one_sqrt (r : ℝ) (hr : 0 < r) :
    Ideal.div 1 (Ideal.sqrt (r : EReal)) = Ideal.rsqrt (r : EReal) := by
  have hs : 0 < Real.sqrt r := Real.sqrt_pos.mpr hr
  have hs0 : ((Real.sqrt r : ℝ) : EReal) ≠ 0 := by exact_mod_cast hs.ne'
  rw [Ideal.sqrt_coe, Ideal.rsqrt_coe, if_neg (not_lt.mpr hr.le), if_neg (not_lt.mpr hr.le),
    if_neg hr.ne', Ideal.div, if_neg hs0, one_mul, EReal.coe_inv]

/-- The inverse square root of a positive real is a positive real. -/
theorem rsqrt_pos_real (r : ℝ) (hr : 0 < r) :
    ∃ s : ℝ, 0 < s ∧ Ideal.rsqrt (r : EReal) = (s : EReal) := by
  have hs : 0 < Real.sqrt r := Real.sqrt_pos.mpr hr
  refine ⟨(Real.sqrt r)⁻¹, inv_pos.mpr hs, ?_⟩
  rw [Ideal.rsqrt_coe, if_neg (not_lt.mpr hr.le), if_neg hr.ne']

/-- A positive real compares greater than zero. -/
theorem cmp_ogt_zero (r : ℝ) (hr : 0 < r) : Ideal.cmp .ogt (r : EReal) 0 = 1#1 := by
  have h : (0 : EReal) < (r : EReal) := EReal.coe_pos.mpr hr
  simp [Ideal.cmp, h]

end Cert.AggAlgebra

end
-- ==== Proof.Spec.lean ====
/-
  A Chebyshev graph convolution of order three, twice, as arithmetic on the extended reals.

  The graph is an edge list: edge `e` runs from node `src e` to node `dst e` and carries the weight `w e`
  (the negated product of the two inverse square-root degrees). One propagation step takes node features `t` to
  `i ↦ ∑ over the edges e into i of t (src e) · w e` (`smm`: a gather along the sources, a scaling, a
  segment sum over the destinations). The same step through the DENSE adjacency `adj`, whose entry `(i, j)` adds
  up the weights of all edges `j → i`, is a matrix product (`dmm`). The two agree on real features and real
  weights (`dmm_adj_eq_smm`): distributing `(∑ w e) · t j` over the edges and regrouping the double sum by edge.
  They need not agree at the infinities, so every step carries that its values are real numbers.

  A layer (`cheb`) is `x·W₀ + T₁·W₁ + T₂·W₂ + b` with `T₁ = P x`, `T₂ = 2·P T₁ − x`; the network (`net`) is
  two layers with `max (·) 0` between them.
-/
import Mathlib.Algebra.BigOperators.Fin
import Idealize.ShloMosaic.Lib.ValueIdx
import proofs.«420550_j3083786518792_3_alg».proof.Proof.LibAggAlgebra

noncomputable section

namespace Cert.Cheb

open Cert.AggAlgebra Idealize.ShloMosaic Idealize.ShloMosaic.ValueIdx
open scoped BigOperators

/-! ## Arrays as functions of their coordinates -/

/-- A vector read by its coordinate. -/
def toFn1 {n : ℕ} (v : (⟨1, ![n]⟩ : Shape).Idx → EReal) : Fin n → EReal := fun a => v (ix1 a)
/-- A matrix read by its two coordinates. -/
def toFn2 {n0 n1 : ℕ} (v : (⟨2, ![n0, n1]⟩ : Shape).Idx → EReal) : Fin n0 → Fin n1 → EReal := fun a b => v (ix2 a b)
/-- A rank-three array read by its three coordinates. -/
def toFn3 {n0 n1 n2 : ℕ} (v : (⟨3, ![n0, n1, n2]⟩ : Shape).Idx → EReal) : Fin n0 → Fin n1 → Fin n2 → EReal :=
  fun a b c => v (ix3 a b c)
/-- The matrix with the given entries. -/
def ofFn2 {n0 n1 : ℕ} (f : Fin n0 → Fin n1 → EReal) : (⟨2, ![n0, n1]⟩ : Shape).Idx → EReal :=
  fun i => f ⟨(i 0).val, idx2_lt0 i⟩ ⟨(i 1).val, idx2_lt1 i⟩

theorem ofFn2_apply {n0 n1 : ℕ} (f : Fin n0 → Fin n1 → EReal) (a : Fin n0) (b : Fin n1) : ofFn2 f (ix2 a b) = f a b := rfl
theorem toFn2_ofFn2 {n0 n1 : ℕ} (f : Fin n0 → Fin n1 → EReal) : toFn2 (ofFn2 f) = f := rfl
theorem ofFn2_toFn2 {n0 n1 : ℕ} (v : (⟨2, ![n0, n1]⟩ : Shape).Idx → EReal) : ofFn2 (toFn2 v) = v := by
  funext i
  exact congrArg v (eq_ix2 i).symm

variable {N E D O : ℕ}

/-! ## The two propagation steps -/

/-- Dense propagation: the adjacency matrix times the features. -/
def dmm (A : Fin N → Fin N → EReal) (t : Fin N → Fin D → EReal) (i : Fin N) (d : Fin D) : EReal :=
  ∑ k : Fin N, A i k * t k d

/-- Sparse propagation: over the edges into node `i`, the source node's feature times the edge's weight. -/
def smm (src dst : Fin E → Fin N) (w : Fin E → EReal) (t : Fin N → Fin D → EReal) (i : Fin N) (d : Fin D) : EReal :=
  0 + ∑ e : Fin E, if dst e = i then t (src e) d * w e else 0

/-- The dense adjacency of an edge list: entry `(i, j)` adds up the weights of the edges `j → i`. -/
def adj (src dst : Fin E → Fin N) (w : Fin E → EReal) (i j : Fin N) : EReal :=
  0 + ∑ e : Fin E, if dst e = i ∧ src e = j then w e else 0

/-! ## A layer and the network -/

/-- The second Chebyshev term from the propagated first one and the layer's input: `two · y − prev`. -/
def comb (two : EReal) (y prev : Fin N → Fin D → EReal) (i : Fin N) (d : Fin D) : EReal := two * y i d - prev i d

/-- The three projections added in order, then the bias. -/
def proj (t0 t1 t2 : Fin N → Fin D → EReal) (W : Fin 3 → Fin D → Fin O → EReal) (b : Fin O → EReal)
    (i : Fin N) (o : Fin O) : EReal :=
  ((∑ k : Fin D, t0 i k * W 0 k o) + (∑ k : Fin D, t1 i k * W 1 k o)) + (∑ k : Fin D, t2 i k * W 2 k o) + b o

/-- One layer over a propagation step `P`. -/
def cheb (P : (Fin N → Fin D → EReal) → Fin N → Fin D → EReal) (two : EReal) (x : Fin N → Fin D → EReal)
    (W : Fin 3 → Fin D → Fin O → EReal) (b : Fin O → EReal) : Fin N → Fin O → EReal :=
  proj x (P x) (comb two (P (P x)) x) W b

/-- Two layers, the first followed by `max (·) zero`. -/
def net (P : (Fin N → Fin D → EReal) → Fin N → Fin D → EReal) (two zero : EReal) (x : Fin N → Fin D → EReal)
    (W1 : Fin 3 → Fin D → Fin D → EReal) (b1 : Fin D → EReal) (W2 : Fin 3 → Fin D → Fin O → EReal) (b2 : Fin O → EReal) :
    Fin N → Fin O → EReal :=
  cheb P two (fun i k => max (cheb P two x W1 b1 i k) zero) W2 b2

/-! ## Real values are kept by every step -/

/-- A difference of reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_dmm {A : Fin N → Fin N → EReal} (hA : ∀ i k, IsReal (A i k))
    {t : Fin N → Fin D → EReal} (ht : ∀ j d, IsReal (t j d)) (i : Fin N) (d : Fin D) :
    IsReal (dmm A t i d) :=
  isReal_sum _ _ fun k _ => isReal_mul (hA i k) (ht k d)

theorem isReal_comb {two : EReal} (htwo : IsReal two) {y prev : Fin N → Fin D → EReal}
    (hy : ∀ i d, IsReal (y i d)) (hp : ∀ i d, IsReal (prev i d)) (i : Fin N) (d : Fin D) :
    IsReal (comb two y prev i d) :=
  isReal_sub (isReal_mul htwo (hy i d)) (hp i d)

theorem isReal_proj {t0 t1 t2 : Fin N → Fin D → EReal} (h0 : ∀ i d, IsReal (t0 i d))
    (h1 : ∀ i d, IsReal (t1 i d)) (h2 : ∀ i d, IsReal (t2 i d))
    {W : Fin 3 → Fin D → Fin O → EReal} (hW : ∀ j k o, IsReal (W j k o))
    {b : Fin O → EReal} (hb : ∀ o, IsReal (b o)) (i : Fin N) (o : Fin O) :
    IsReal (proj t0 t1 t2 W b i o) :=
  isReal_add
    (isReal_add
      (isReal_add (isReal_sum _ _ fun k _ => isReal_mul (h0 i k) (hW 0 k o))
        (isReal_sum _ _ fun k _ => isReal_mul (h1 i k) (hW 1 k o)))
      (isReal_sum _ _ fun k _ => isReal_mul (h2 i k) (hW 2 k o)))
    (hb o)

/-- A layer over a propagation step that keeps features real has real outputs, on real inputs. -/
theorem isReal_cheb {P : (Fin N → Fin D → EReal) → Fin N → Fin D → EReal}
    (hP : ∀ t, (∀ j d, IsReal (t j d)) → ∀ j d, IsReal (P t j d))
    {two : EReal} (htwo : IsReal two) {x : Fin N → Fin D → EReal} (hx : ∀ i k, IsReal (x i k))
    {W : Fin 3 → Fin D → Fin O → EReal} (hW : ∀ j k o, IsReal (W j k o))
    {b : Fin O → EReal} (hb : ∀ o, IsReal (b o)) (i : Fin N) (o : Fin O) :
    IsReal (cheb P two x W b i o) :=
  isReal_proj hx (hP x hx) (isReal_comb htwo (hP _ (hP x hx)) hx) hW hb i o

/-- Two propagation steps that agree on real features, one of which keeps features real, give the same layer on
    a real input: the first term `P x` agrees, it is real, so the second `P (P x)` agrees too. -/
theorem cheb_congr {P Q : (Fin N → Fin D → EReal) → Fin N → Fin D → EReal}
    (hPQ : ∀ t, (∀ j d, IsReal (t j d)) → P t = Q t)
    (hQ : ∀ t, (∀ j d, IsReal (t j d)) → ∀ j d, IsReal (Q t j d))
    (two : EReal) {x : Fin N → Fin D → EReal} (hx : ∀ i k, IsReal (x i k))
    (W : Fin 3 → Fin D → Fin O → EReal) (b : Fin O → EReal) :
    cheb P two x W b = cheb Q two x W b := by
  unfold cheb
  rw [hPQ x hx, hPQ (Q x) (hQ x hx)]

/-! ## Dense is sparse on the reals -/

/-- The matrix product with the dense adjacency is the gather–scale–segment-sum over the edges, for real weights and
    real features. -/
theorem dmm_adj_eq_smm (src dst : Fin E → Fin N) (w : Fin E → EReal) (hw : ∀ e, IsReal (w e))
    (t : Fin N → Fin D → EReal) (ht : ∀ j d, IsReal (t j d)) (i : Fin N) (d : Fin D) :
    dmm (adj src dst w) t i d = smm src dst w t i d := by
  choose wr hwr using hw
  choose tr htr using ht
  obtain rfl : w = fun e => (wr e : EReal) := funext hwr
  obtain rfl : t = fun j d => (tr j d : EReal) := funext fun j => funext fun d => htr j d
  unfold dmm adj smm
  -- each term of the matrix product is the coercion of a real product
  have hL : ∀ k : Fin N, (0 + ∑ e : Fin E, if dst e = i ∧ src e = k then (wr e : EReal) else 0) * (tr k d : EReal)
      = (((∑ e : Fin E, if dst e = i ∧ src e = k then wr e else 0) * tr k d : ℝ) : EReal) := by
    intro k
    rw [zero_add, EReal.coe_mul, coe_sum]
    congr 1
    refine Finset.sum_congr rfl fun e _ => ?_
    split_ifs <;> rfl
  -- each term of the edge sum is the coercion of a real term
  have hR : ∀ e : Fin E, (if dst e = i then (tr (src e) d : EReal) * (wr e : EReal) else 0)
      = ((if dst e = i then tr (src e) d * wr e else 0 : ℝ) : EReal) := by
    intro e
    split_ifs
    · rw [EReal.coe_mul]
    · rfl
  rw [Finset.sum_congr rfl (fun k _ => hL k), Finset.sum_congr rfl (fun e _ => hR e), zero_add,
    ← coe_sum, ← coe_sum]
  congr 1
  -- in the reals: distribute over the edges, regroup the double sum by edge, and keep the one source node
  simp_rw [Finset.sum_mul]
  rw [Finset.sum_comm]
  refine Finset.sum_congr rfl fun e _ => ?_
  by_cases h : dst e = i
  · simp only [h, true_and, if_true, ite_mul, zero_mul]
    rw [Finset.sum_ite_eq]
    simp [mul_comm]
  · simp [h]

/-- The sparse step keeps features real. -/
theorem isReal_smm (src dst : Fin E → Fin N) (w : Fin E → EReal) (hw : ∀ e, IsReal (w e))
    (t : Fin N → Fin D → EReal) (ht : ∀ j d, IsReal (t j d)) (i : Fin N) (d : Fin D) :
    IsReal (smm src dst w t i d) := by
  unfold smm
  refine isReal_add isReal_zero (isReal_sum _ _ fun e _ => ?_)
  split_ifs
  · exact isReal_mul (ht _ _) (hw e)
  · exact isReal_zero

/-- The whole network through the dense adjacency is the network through the edge list, on real inputs. -/
theorem net_dense_eq_sparse (src dst : Fin E → Fin N) (w : Fin E → EReal) (hw : ∀ e, IsReal (w e))
    (two zero : EReal) (htwo : IsReal two) (hzero : IsReal zero)
    (x : Fin N → Fin D → EReal) (hx : ∀ i k, IsReal (x i k))
    (W1 : Fin 3 → Fin D → Fin D → EReal) (hW1 : ∀ j k o, IsReal (W1 j k o)) (b1 : Fin D → EReal) (hb1 : ∀ o, IsReal (b1 o))
    (W2 : Fin 3 → Fin D → Fin O → EReal) (b2 : Fin O → EReal) :
    net (dmm (adj src dst w)) two zero x W1 b1 W2 b2 = net (smm src dst w) two zero x W1 b1 W2 b2 := by
  -- the two propagation steps agree on real features, and the sparse one keeps them real
  have hPQ : ∀ (D' : ℕ) (t : Fin N → Fin D' → EReal), (∀ j d, IsReal (t j d)) →
      dmm (adj src dst w) t = smm src dst w t := fun _ t ht =>
    funext fun i => funext fun d => dmm_adj_eq_smm src dst w hw t ht i d
  have hQ : ∀ (D' : ℕ) (t : Fin N → Fin D' → EReal), (∀ j d, IsReal (t j d)) →
      ∀ j d, IsReal (smm src dst w t j d) := fun _ t ht => isReal_smm src dst w hw t ht
  unfold net
  -- the first layer agrees, and its output after the maximum with `zero` is real
  rw [cheb_congr (hPQ D) (hQ D) two hx W1 b1]
  exact cheb_congr (hPQ D) (hQ D) two
    (fun i k => isReal_max (isReal_cheb (hQ D) htwo hx hW1 hb1 i k) hzero) W2 b2

end Cert.Cheb

end
-- ==== Proof.KFold.lean ====
/-
  The six calls composed. @main threads its buffers through twelve segments (three host stretches, two calls, a host
  stretch, a call, a host stretch, two calls, a host stretch, a call); the contents at each boundary are a fold from
  the launch memory. Read back from the result: the last call's output is the layer-two projection of (h, T₁, T₂),
  where h is the third call's output narrowed to bf16, T₁ = A · h the fourth call's output and T₂ = 2 · (A · T₁) − h
  the fifth's; h itself is the layer-one projection, cut off at zero, of (x, A · x, 2 · (A · (A · x)) − x). Every buffer a
  segment does not write is carried across it unchanged, and at the ideal values narrowing to bf16 is the identity, so
  the result is the two-layer network through the dense adjacency `A` as the first call finds it.
-/
import proofs.«420550_j3083786518792_3_alg».proof.Proof.Gen.KernelIdeal.Frame
import proofs.«420550_j3083786518792_3_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.HandFold

open Cert.KernelIdeal Cert.KernelIdeal.Gen Cert.Cheb

/-- The literal 2.0 of the Chebyshev recursion. -/
abbrev two : EReal := Ideal.ofBits .f32 0x40000000#32
/-- The literal 0.0 the first layer's output is cut off at. -/
abbrev zero : EReal := Ideal.ofBits .f32 0x00000000#32

/-- A region's entry contents. -/
abbrev Entry := (c : Dev nD) → (b : Ref sig .tc) → Buf (Elt Ideal) ((c : Thread nD τ).loc b)

variable (m : (ℓ : Loc nD τ sig) → Buf (Elt Ideal) ℓ) (ρ : Dev nD → PrngReg)

section Carry

/-! ## The vocabulary -/

/-- A buffer that no operation of a host stretch writes holds after the stretch what it held before. -/
macro "host_carries " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (c : Dev nD)

/-- The dense adjacency A as the first call finds it. -/
def adjM : Fin 10000 → Fin 10000 → EReal := toFn2 (W3 (F := Ideal) m ρ c (Proc.devRef .tc main_v37) : S10000x10000.Idx → EReal)
/-- The node features x. -/
def featM : Fin 10000 → Fin 256 → EReal := toFn2 (m ((c : Thread nD τ).loc main_arg0) : S10000x256.Idx → EReal)
/-- The first layer's first Chebyshev term T₁ = A · x. -/
def t1M : Fin 10000 → Fin 256 → EReal := dmm (adjM m ρ c) (featM m c)
/-- The first layer's second Chebyshev term T₂ = 2 · (A · T₁) − x. -/
def t2M : Fin 10000 → Fin 256 → EReal := comb two (dmm (adjM m ρ c) (t1M m ρ c)) (featM m c)
/-- The hidden features h: the first layer's projection of (x, T₁, T₂), cut off at zero. -/
def hidM : Fin 10000 → Fin 256 → EReal := fun i k =>
  max (proj (featM m c) (t1M m ρ c) (t2M m ρ c) (toFn3 (m ((c : Thread nD τ).loc main_arg2) : S3x256x256.Idx → EReal))
    (toFn1 (m ((c : Thread nD τ).loc main_arg3) : S256.Idx → EReal)) i k) zero
/-- The second layer's first Chebyshev term U₁ = A · h. -/
def u1M : Fin 10000 → Fin 256 → EReal := dmm (adjM m ρ c) (hidM m ρ c)
/-- The second layer's second Chebyshev term U₂ = 2 · (A · U₁) − h. -/
def u2M : Fin 10000 → Fin 256 → EReal := comb two (dmm (adjM m ρ c) (u1M m ρ c)) (hidM m ρ c)

/-- The two-layer network through A is the second layer's projection of (h, U₁, U₂): both layers unfolded. -/
theorem net_eq :
    net (dmm (toFn2 (W3 (F := Ideal) m ρ c (Proc.devRef .tc main_v37) : S10000x10000.Idx → EReal))) two zero
        (toFn2 (m ((c : Thread nD τ).loc main_arg0) : S10000x256.Idx → EReal))
        (toFn3 (m ((c : Thread nD τ).loc main_arg2) : S3x256x256.Idx → EReal))
        (toFn1 (m ((c : Thread nD τ).loc main_arg3) : S256.Idx → EReal))
        (toFn3 (m ((c : Thread nD τ).loc main_arg4) : S3x256x128.Idx → EReal))
        (toFn1 (m ((c : Thread nD τ).loc main_arg5) : S128.Idx → EReal))
      = proj (hidM m ρ c) (u1M m ρ c) (u2M m ρ c) (toFn3 (m ((c : Thread nD τ).loc main_arg4) : S3x256x128.Idx → EReal))
          (toFn1 (m ((c : Thread nD τ).loc main_arg5) : S128.Idx → EReal)) := rfl

/-! ## The arguments at the boundaries where they are read: as launched -/

/-- The second layer's bias vector at the fifth call's exit. -/
theorem W10_arg5 :
    (W10 (F := Ideal) m ρ c (Proc.devRef .tc main_arg5) : S128.Idx → EReal)
      = m ((c : Thread nD τ).loc main_arg5) :=
  calc W10 (F := Ideal) m ρ c (Proc.devRef .tc main_arg5)
    _ = W11 (F := Ideal) m ρ c (Proc.devRef .tc main_arg5) := by symm; host_carries hostOps5
    _ = W12 (F := Ideal) m ρ c (Proc.devRef .tc main_arg5) := (W12_of_ne m ρ c main_arg5 (by decide)).symm
    _ = m ((c : Thread nD τ).loc main_arg5) := W12_main_arg5 m ρ c

/-- The second layer's weights at the third call's exit. -/
theorem W7_arg4 :
    (W7 (F := Ideal) m ρ c (Proc.devRef .tc main_arg4) : S3x256x128.Idx → EReal)
      = m ((c : Thread nD τ).loc main_arg4) :=
  calc W7 (F := Ideal) m ρ c (Proc.devRef .tc main_arg4)
    _ = W8 (F := Ideal) m ρ c (Proc.devRef .tc main_arg4) := by symm; host_carries hostOps3
    _ = W9 (F := Ideal) m ρ c (Proc.devRef .tc main_arg4) := (W9_of_ne m ρ c main_arg4 (by decide)).symm
    _ = W10 (F := Ideal) m ρ c (Proc.devRef .tc main_arg4) := (W10_of_ne m ρ c main_arg4 (by decide)).symm
    _ = W11 (F := Ideal) m ρ c (Proc.devRef .tc main_arg4) := by symm; host_carries hostOps5
    _ = W12 (F := Ideal) m ρ c (Proc.devRef .tc main_arg4) := (W12_of_ne m ρ c main_arg4 (by decide)).symm
    _ = m ((c : Thread nD τ).loc main_arg4) := W12_main_arg4 m ρ c

/-- The first layer's bias vector at the second call's exit. -/
theorem W5_arg3 :
    (W5 (F := Ideal) m ρ c (Proc.devRef .tc main_arg3) : S256.Idx → EReal)
      = m ((c : Thread nD τ).loc main_arg3) :=
  calc W5 (F := Ideal) m ρ c (Proc.devRef .tc main_arg3)
    _ = W6 (F := Ideal) m ρ c (Proc.devRef .tc main_arg3) := by symm; host_carries hostOps2
    _ = W7 (F := Ideal) m ρ c (Proc.devRef .tc main_arg3) := (W7_of_ne m ρ c main_arg3 (by decide)).symm
    _ = W8 (F := Ideal) m ρ c (Proc.devRef .tc main_arg3) := by symm; host_carries hostOps3
    _ = W9 (F := Ideal) m ρ c (Proc.devRef .tc main_arg3) := (W9_of_ne m ρ c main_arg3 (by decide)).symm
    _ = W10 (F := Ideal) m ρ c (Proc.devRef .tc main_arg3) := (W10_of_ne m ρ c main_arg3 (by decide)).symm
    _ = W11 (F := Ideal) m ρ c (Proc.devRef .tc main_arg3) := by symm; host_carries hostOps5
    _ = W12 (F := Ideal) m ρ c (Proc.devRef .tc main_arg3) := (W12_of_ne m ρ c main_arg3 (by decide)).symm
    _ = m ((c : Thread nD τ).loc main_arg3) := W12_main_arg3 m ρ c

/-- The features at the first call's exit (the second call reads them through an input window). -/
theorem W4_arg0 :
    (W4 (F := Ideal) m ρ c (Proc.devRef .tc main_arg0) : S10000x256.Idx → EReal)
      = m ((c : Thread nD τ).loc main_arg0) :=
  calc W4 (F := Ideal) m ρ c (Proc.devRef .tc main_arg0)
    _ = W5 (F := Ideal) m ρ c (Proc.devRef .tc main_arg0) := ((W5_arr m ρ c 2).trans (((dat1 (V4 m ρ) c).arrAt_in 2 rfl _).trans (A_eq1 (V4 m ρ) c 2))).symm
    _ = W6 (F := Ideal) m ρ c (Proc.devRef .tc main_arg0) := by symm; host_carries hostOps2
    _ = W7 (F := Ideal) m ρ c (Proc.devRef .tc main_arg0) := (W7_of_ne m ρ c main_arg0 (by decide)).symm
    _ = W8 (F := Ideal) m ρ c (Proc.devRef .tc main_arg0) := by symm; host_carries hostOps3
    _ = W9 (F := Ideal) m ρ c (Proc.devRef .tc main_arg0) := (W9_of_ne m ρ c main_arg0 (by decide)).symm
    _ = W10 (F := Ideal) m ρ c (Proc.devRef .tc main_arg0) := (W10_of_ne m ρ c main_arg0 (by decide)).symm
    _ = W11 (F := Ideal) m ρ c (Proc.devRef .tc main_arg0) := by symm; host_carries hostOps5
    _ = W12 (F := Ideal) m ρ c (Proc.devRef .tc main_arg0) := (W12_of_ne m ρ c main_arg0 (by decide)).symm
    _ = m ((c : Thread nD τ).loc main_arg0) := W12_main_arg0 m ρ c

/-! ## The adjacency: an input of four calls, written by none, so the same array throughout -/

theorem W4_v37 :
    (W4 (F := Ideal) m ρ c (Proc.devRef .tc main_v37) : S10000x10000.Idx → EReal)
      = W3 (F := Ideal) m ρ c (Proc.devRef .tc main_v37) :=
  calc W4 (F := Ideal) m ρ c (Proc.devRef .tc main_v37)
    _ = W3 (F := Ideal) m ρ c (Proc.devRef .tc main_v37) := (W4_arr m ρ c 0).trans (((dat0 (V3 m ρ) c).arrAt_in 0 rfl _).trans (A_eq0 (V3 m ρ) c 0))

theorem W8_v37 :
    (W8 (F := Ideal) m ρ c (Proc.devRef .tc main_v37) : S10000x10000.Idx → EReal)
      = W3 (F := Ideal) m ρ c (Proc.devRef .tc main_v37) :=
  calc W8 (F := Ideal) m ρ c (Proc.devRef .tc main_v37)
    _ = W7 (F := Ideal) m ρ c (Proc.devRef .tc main_v37) := by host_carries hostOps3
    _ = W6 (F := Ideal) m ρ c (Proc.devRef .tc main_v37) := W7_of_ne m ρ c main_v37 (by decide)
    _ = W5 (F := Ideal) m ρ c (Proc.devRef .tc main_v37) := by host_carries hostOps2
    _ = W4 (F := Ideal) m ρ c (Proc.devRef .tc main_v37) := (W5_arr m ρ c 0).trans (((dat1 (V4 m ρ) c).arrAt_in 0 rfl _).trans (A_eq1 (V4 m ρ) c 0))
    _ = W3 (F := Ideal) m ρ c (Proc.devRef .tc main_v37) := (W4_arr m ρ c 0).trans (((dat0 (V3 m ρ) c).arrAt_in 0 rfl _).trans (A_eq0 (V3 m ρ) c 0))

theorem W9_v37 :
    (W9 (F := Ideal) m ρ c (Proc.devRef .tc main_v37) : S10000x10000.Idx → EReal)
      = W3 (F := Ideal) m ρ c (Proc.devRef .tc main_v37) :=
  calc W9 (F := Ideal) m ρ c (Proc.devRef .tc main_v37)
    _ = W8 (F := Ideal) m ρ c (Proc.devRef .tc main_v37) := (W9_arr m ρ c 0).trans (((dat3 (V8 m ρ) c).arrAt_in 0 rfl _).trans (A_eq3 (V8 m ρ) c 0))
    _ = W7 (F := Ideal) m ρ c (Proc.devRef .tc main_v37) := by host_carries hostOps3
    _ = W6 (F := Ideal) m ρ c (Proc.devRef .tc main_v37) := W7_of_ne m ρ c main_v37 (by decide)
    _ = W5 (F := Ideal) m ρ c (Proc.devRef .tc main_v37) := by host_carries hostOps2
    _ = W4 (F := Ideal) m ρ c (Proc.devRef .tc main_v37) := (W5_arr m ρ c 0).trans (((dat1 (V4 m ρ) c).arrAt_in 0 rfl _).trans (A_eq1 (V4 m ρ) c 0))
    _ = W3 (F := Ideal) m ρ c (Proc.devRef .tc main_v37) := (W4_arr m ρ c 0).trans (((dat0 (V3 m ρ) c).arrAt_in 0 rfl _).trans (A_eq0 (V3 m ρ) c 0))

/-! ## The first layer -/

/-- The narrowed features at the third call's entry. -/
theorem W6_v39 (hx : (W3 (F := Ideal) m ρ c (Proc.devRef .tc main_v39) : S10000x256.Idx → EReal) = m ((c : Thread nD τ).loc main_arg0)) :
    (W6 (F := Ideal) m ρ c (Proc.devRef .tc main_v39) : S10000x256.Idx → EReal)
      = m ((c : Thread nD τ).loc main_arg0) :=
  calc W6 (F := Ideal) m ρ c (Proc.devRef .tc main_v39)
    _ = W5 (F := Ideal) m ρ c (Proc.devRef .tc main_v39) := by host_carries hostOps2
    _ = W4 (F := Ideal) m ρ c (Proc.devRef .tc main_v39) := W5_of_ne m ρ c main_v39 (by decide)
    _ = W3 (F := Ideal) m ρ c (Proc.devRef .tc main_v39) := (W4_arr m ρ c 1).trans (((dat0 (V3 m ρ) c).arrAt_in 1 rfl _).trans (A_eq0 (V3 m ρ) c 1))
    _ = m ((c : Thread nD τ).loc main_arg0) := hx

/-- The narrowed first-layer weights at the third call's entry. -/
theorem W6_v38 (hw : (W3 (F := Ideal) m ρ c (Proc.devRef .tc main_v38) : S3x256x256.Idx → EReal) = m ((c : Thread nD τ).loc main_arg2)) :
    (W6 (F := Ideal) m ρ c (Proc.devRef .tc main_v38) : S3x256x256.Idx → EReal)
      = m ((c : Thread nD τ).loc main_arg2) :=
  calc W6 (F := Ideal) m ρ c (Proc.devRef .tc main_v38)
    _ = W5 (F := Ideal) m ρ c (Proc.devRef .tc main_v38) := by host_carries hostOps2
    _ = W4 (F := Ideal) m ρ c (Proc.devRef .tc main_v38) := W5_of_ne m ρ c main_v38 (by decide)
    _ = W3 (F := Ideal) m ρ c (Proc.devRef .tc main_v38) := W4_of_ne m ρ c main_v38 (by decide)
    _ = m ((c : Thread nD τ).loc main_arg2) := hw

/-- The first call's second output: T₁. -/
theorem W4_v40_1
    (h0 : ∀ (V : Entry) (c : Dev nD), (dat0 (F := Ideal) V c).arrAt 3 cfg0.N
      = (ofFn2 (dmm (toFn2 (V c main_v37 : S10000x10000.Idx → EReal)) (toFn2 (V c main_v39 : S10000x256.Idx → EReal))) : S10000x256.Idx → EReal))
    (hx : (W3 (F := Ideal) m ρ c (Proc.devRef .tc main_v39) : S10000x256.Idx → EReal) = m ((c : Thread nD τ).loc main_arg0)) :
    (W4 (F := Ideal) m ρ c (Proc.devRef .tc main_v40_1) : S10000x256.Idx → EReal)
      = ofFn2 (t1M m ρ c) := by
  refine ((W4_arr m ρ c 3).trans (h0 (V3 m ρ) c)).trans ?_
  show ofFn2 (dmm (toFn2 (W3 (F := Ideal) m ρ c (Proc.devRef .tc main_v37) : S10000x10000.Idx → EReal)) (toFn2 (W3 (F := Ideal) m ρ c (Proc.devRef .tc main_v39) : S10000x256.Idx → EReal))) = _
  rw [hx]
  rfl

/-- T₁ at the third call's entry is T₁ at the first call's exit (the second call reads it through an input window). -/
theorem W6_v40_1 :
    (W6 (F := Ideal) m ρ c (Proc.devRef .tc main_v40_1) : S10000x256.Idx → EReal)
      = W4 (F := Ideal) m ρ c (Proc.devRef .tc main_v40_1) :=
  calc W6 (F := Ideal) m ρ c (Proc.devRef .tc main_v40_1)
    _ = W5 (F := Ideal) m ρ c (Proc.devRef .tc main_v40_1) := by host_carries hostOps2
    _ = W4 (F := Ideal) m ρ c (Proc.devRef .tc main_v40_1) := (W5_arr m ρ c 1).trans (((dat1 (V4 m ρ) c).arrAt_in 1 rfl _).trans (A_eq1 (V4 m ρ) c 1))

/-- The second call's second output: T₂. -/
theorem W5_v41_1
    (h1 : ∀ (V : Entry) (c : Dev nD), (dat1 (F := Ideal) V c).arrAt 4 cfg1.N
      = (ofFn2 (comb two (dmm (toFn2 (V c main_v37 : S10000x10000.Idx → EReal)) (toFn2 (V c main_v40_1 : S10000x256.Idx → EReal)))
          (toFn2 (V c main_arg0 : S10000x256.Idx → EReal))) : S10000x256.Idx → EReal))
    (e40 : (W4 (F := Ideal) m ρ c (Proc.devRef .tc main_v40_1) : S10000x256.Idx → EReal) = ofFn2 (t1M m ρ c)) :
    (W5 (F := Ideal) m ρ c (Proc.devRef .tc main_v41_1) : S10000x256.Idx → EReal)
      = ofFn2 (t2M m ρ c) := by
  refine ((W5_arr m ρ c 4).trans (h1 (V4 m ρ) c)).trans ?_
  show ofFn2 (comb two (dmm (toFn2 (W4 (F := Ideal) m ρ c (Proc.devRef .tc main_v37) : S10000x10000.Idx → EReal)) (toFn2 (W4 (F := Ideal) m ρ c (Proc.devRef .tc main_v40_1) : S10000x256.Idx → EReal)))
      (toFn2 (W4 (F := Ideal) m ρ c (Proc.devRef .tc main_arg0) : S10000x256.Idx → EReal))) = _
  rw [W4_v37 m ρ c, e40, W4_arg0 m ρ c, toFn2_ofFn2]
  rfl

/-- T₂ at the third call's entry is T₂ at the second call's exit. -/
theorem W6_v41_1 :
    (W6 (F := Ideal) m ρ c (Proc.devRef .tc main_v41_1) : S10000x256.Idx → EReal)
      = W5 (F := Ideal) m ρ c (Proc.devRef .tc main_v41_1) :=
  calc W6 (F := Ideal) m ρ c (Proc.devRef .tc main_v41_1)
    _ = W5 (F := Ideal) m ρ c (Proc.devRef .tc main_v41_1) := by host_carries hostOps2

/-- The first layer's bias row, reshaped from the bias vector before the third call, read at column o. -/
theorem W6_v42 (o : Fin 256) :
    (W6 (F := Ideal) m ρ c (Proc.devRef .tc main_v42) : S1x256.Idx → EReal) (ix2 0 o)
      = (m ((c : Thread nD τ).loc main_arg3) : S256.Idx → EReal) (ix1 o) := by
  refine Eq.trans ?_ (congrFun (W5_arg3 m ρ c) (ix1 o))
  show StableHlo.after hostOps2 (W5 (F := Ideal) m ρ c) (Proc.devRef .tc main_v42) (ix2 0 o) = _
  after_results
  exact shapeCast_a_1a_apply _ _ 0 o

theorem W6_v42_fn :
    (fun o : Fin 256 => (W6 (F := Ideal) m ρ c (Proc.devRef .tc main_v42) : S1x256.Idx → EReal) (ix2 0 o))
      = toFn1 (m ((c : Thread nD τ).loc main_arg3) : S256.Idx → EReal) :=
  funext fun o => W6_v42 m ρ c o

/-- The third call's output: the hidden features h. -/
theorem W7_v43
    (h2 : ∀ (V : Entry) (c : Dev nD), (dat2 (F := Ideal) V c).arrAt 5 cfg2.N
      = (ofFn2 (fun i o => max (proj (toFn2 (V c main_v39 : S10000x256.Idx → EReal)) (toFn2 (V c main_v40_1 : S10000x256.Idx → EReal))
          (toFn2 (V c main_v41_1 : S10000x256.Idx → EReal)) (toFn3 (V c main_v38 : S3x256x256.Idx → EReal))
          (fun o => (V c main_v42 : S1x256.Idx → EReal) (ix2 0 o)) i o) zero) : S10000x256.Idx → EReal))
    (hx : (W3 (F := Ideal) m ρ c (Proc.devRef .tc main_v39) : S10000x256.Idx → EReal) = m ((c : Thread nD τ).loc main_arg0))
    (hw : (W3 (F := Ideal) m ρ c (Proc.devRef .tc main_v38) : S3x256x256.Idx → EReal) = m ((c : Thread nD τ).loc main_arg2))
    (e40 : (W4 (F := Ideal) m ρ c (Proc.devRef .tc main_v40_1) : S10000x256.Idx → EReal) = ofFn2 (t1M m ρ c))
    (e41 : (W5 (F := Ideal) m ρ c (Proc.devRef .tc main_v41_1) : S10000x256.Idx → EReal) = ofFn2 (t2M m ρ c)) :
    (W7 (F := Ideal) m ρ c (Proc.devRef .tc main_v43) : S10000x256.Idx → EReal)
      = ofFn2 (hidM m ρ c) := by
  refine ((W7_arr m ρ c 5).trans (h2 (V6 m ρ) c)).trans ?_
  show ofFn2 (fun i o => max (proj (toFn2 (W6 (F := Ideal) m ρ c (Proc.devRef .tc main_v39) : S10000x256.Idx → EReal)) (toFn2 (W6 (F := Ideal) m ρ c (Proc.devRef .tc main_v40_1) : S10000x256.Idx → EReal))
      (toFn2 (W6 (F := Ideal) m ρ c (Proc.devRef .tc main_v41_1) : S10000x256.Idx → EReal)) (toFn3 (W6 (F := Ideal) m ρ c (Proc.devRef .tc main_v38) : S3x256x256.Idx → EReal))
      (fun o => (W6 (F := Ideal) m ρ c (Proc.devRef .tc main_v42) : S1x256.Idx → EReal) (ix2 0 o)) i o) zero) = _
  rw [W6_v39 m ρ c hx, W6_v40_1 m ρ c, e40, W6_v41_1 m ρ c, e41, W6_v38 m ρ c hw, W6_v42_fn m ρ c,
    toFn2_ofFn2, toFn2_ofFn2]
  rfl

/-! ## Between the layers: narrowing to bf16 is the identity at the ideal values -/

/-- The narrowed hidden features at the fourth call's entry are the hidden features. -/
theorem W8_v45 :
    (W8 (F := Ideal) m ρ c (Proc.devRef .tc main_v45) : S10000x256.Idx → EReal)
      = W7 (F := Ideal) m ρ c (Proc.devRef .tc main_v43) := by
  show StableHlo.after hostOps3 (W7 (F := Ideal) m ρ c) (Proc.devRef .tc main_v45) = _
  after_results
  rfl

/-- The narrowed second-layer weights at the fourth call's entry. -/
theorem W8_v44 :
    (W8 (F := Ideal) m ρ c (Proc.devRef .tc main_v44) : S3x256x128.Idx → EReal)
      = m ((c : Thread nD τ).loc main_arg4) := by
  refine Eq.trans ?_ (W7_arg4 m ρ c)
  show StableHlo.after hostOps3 (W7 (F := Ideal) m ρ c) (Proc.devRef .tc main_v44) = _
  after_results
  rfl

/-- The hidden features themselves at the fifth call's entry (the fourth call does not touch them). -/
theorem W9_v43 :
    (W9 (F := Ideal) m ρ c (Proc.devRef .tc main_v43) : S10000x256.Idx → EReal)
      = W7 (F := Ideal) m ρ c (Proc.devRef .tc main_v43) :=
  calc W9 (F := Ideal) m ρ c (Proc.devRef .tc main_v43)
    _ = W8 (F := Ideal) m ρ c (Proc.devRef .tc main_v43) := W9_of_ne m ρ c main_v43 (by decide)
    _ = W7 (F := Ideal) m ρ c (Proc.devRef .tc main_v43) := by host_carries hostOps3

/-! ## The second layer -/

/-- The fourth call's second output: U₁. -/
theorem W9_v46_1
    (h3 : ∀ (V : Entry) (c : Dev nD), (dat3 (F := Ideal) V c).arrAt 3 cfg3.N
      = (ofFn2 (dmm (toFn2 (V c main_v37 : S10000x10000.Idx → EReal)) (toFn2 (V c main_v45 : S10000x256.Idx → EReal))) : S10000x256.Idx → EReal))
    (e43 : (W7 (F := Ideal) m ρ c (Proc.devRef .tc main_v43) : S10000x256.Idx → EReal) = ofFn2 (hidM m ρ c)) :
    (W9 (F := Ideal) m ρ c (Proc.devRef .tc main_v46_1) : S10000x256.Idx → EReal)
      = ofFn2 (u1M m ρ c) := by
  refine ((W9_arr m ρ c 3).trans (h3 (V8 m ρ) c)).trans ?_
  show ofFn2 (dmm (toFn2 (W8 (F := Ideal) m ρ c (Proc.devRef .tc main_v37) : S10000x10000.Idx → EReal)) (toFn2 (W8 (F := Ideal) m ρ c (Proc.devRef .tc main_v45) : S10000x256.Idx → EReal))) = _
  rw [W8_v37 m ρ c, W8_v45 m ρ c, e43, toFn2_ofFn2]
  rfl

/-- The fifth call's second output: U₂. -/
theorem W10_v47_1
    (h4 : ∀ (V : Entry) (c : Dev nD), (dat4 (F := Ideal) V c).arrAt 4 cfg4.N
      = (ofFn2 (comb two (dmm (toFn2 (V c main_v37 : S10000x10000.Idx → EReal)) (toFn2 (V c main_v46_1 : S10000x256.Idx → EReal)))
          (toFn2 (V c main_v43 : S10000x256.Idx → EReal))) : S10000x256.Idx → EReal))
    (e43 : (W7 (F := Ideal) m ρ c (Proc.devRef .tc main_v43) : S10000x256.Idx → EReal) = ofFn2 (hidM m ρ c))
    (e46 : (W9 (F := Ideal) m ρ c (Proc.devRef .tc main_v46_1) : S10000x256.Idx → EReal) = ofFn2 (u1M m ρ c)) :
    (W10 (F := Ideal) m ρ c (Proc.devRef .tc main_v47_1) : S10000x256.Idx → EReal)
      = ofFn2 (u2M m ρ c) := by
  refine ((W10_arr m ρ c 4).trans (h4 (V9 m ρ) c)).trans ?_
  show ofFn2 (comb two (dmm (toFn2 (W9 (F := Ideal) m ρ c (Proc.devRef .tc main_v37) : S10000x10000.Idx → EReal)) (toFn2 (W9 (F := Ideal) m ρ c (Proc.devRef .tc main_v46_1) : S10000x256.Idx → EReal)))
      (toFn2 (W9 (F := Ideal) m ρ c (Proc.devRef .tc main_v43) : S10000x256.Idx → EReal))) = _
  rw [W9_v37 m ρ c, e46, W9_v43 m ρ c, e43, toFn2_ofFn2, toFn2_ofFn2]
  rfl

/-! ## The sixth call -/

/-- The narrowed hidden features at the sixth call's entry (the fourth call reads them through an input window, the fifth not at all). -/
theorem W11_v45 :
    (W11 (F := Ideal) m ρ c (Proc.devRef .tc main_v45) : S10000x256.Idx → EReal)
      = W7 (F := Ideal) m ρ c (Proc.devRef .tc main_v43) :=
  calc W11 (F := Ideal) m ρ c (Proc.devRef .tc main_v45)
    _ = W10 (F := Ideal) m ρ c (Proc.devRef .tc main_v45) := by host_carries hostOps5
    _ = W9 (F := Ideal) m ρ c (Proc.devRef .tc main_v45) := W10_of_ne m ρ c main_v45 (by decide)
    _ = W8 (F := Ideal) m ρ c (Proc.devRef .tc main_v45) := (W9_arr m ρ c 1).trans (((dat3 (V8 m ρ) c).arrAt_in 1 rfl _).trans (A_eq3 (V8 m ρ) c 1))
    _ = W7 (F := Ideal) m ρ c (Proc.devRef .tc main_v43) := W8_v45 m ρ c

/-- The narrowed second-layer weights at the sixth call's entry. -/
theorem W11_v44 :
    (W11 (F := Ideal) m ρ c (Proc.devRef .tc main_v44) : S3x256x128.Idx → EReal)
      = m ((c : Thread nD τ).loc main_arg4) :=
  calc W11 (F := Ideal) m ρ c (Proc.devRef .tc main_v44)
    _ = W10 (F := Ideal) m ρ c (Proc.devRef .tc main_v44) := by host_carries hostOps5
    _ = W9 (F := Ideal) m ρ c (Proc.devRef .tc main_v44) := W10_of_ne m ρ c main_v44 (by decide)
    _ = W8 (F := Ideal) m ρ c (Proc.devRef .tc main_v44) := W9_of_ne m ρ c main_v44 (by decide)
    _ = m ((c : Thread nD τ).loc main_arg4) := W8_v44 m ρ c

/-- U₁ at the sixth call's entry (the fifth call reads it through an input window). -/
theorem W11_v46_1 :
    (W11 (F := Ideal) m ρ c (Proc.devRef .tc main_v46_1) : S10000x256.Idx → EReal)
      = W9 (F := Ideal) m ρ c (Proc.devRef .tc main_v46_1) :=
  calc W11 (F := Ideal) m ρ c (Proc.devRef .tc main_v46_1)
    _ = W10 (F := Ideal) m ρ c (Proc.devRef .tc main_v46_1) := by host_carries hostOps5
    _ = W9 (F := Ideal) m ρ c (Proc.devRef .tc main_v46_1) := (W10_arr m ρ c 1).trans (((dat4 (V9 m ρ) c).arrAt_in 1 rfl _).trans (A_eq4 (V9 m ρ) c 1))

/-- U₂ at the sixth call's entry. -/
theorem W11_v47_1 :
    (W11 (F := Ideal) m ρ c (Proc.devRef .tc main_v47_1) : S10000x256.Idx → EReal)
      = W10 (F := Ideal) m ρ c (Proc.devRef .tc main_v47_1) :=
  calc W11 (F := Ideal) m ρ c (Proc.devRef .tc main_v47_1)
    _ = W10 (F := Ideal) m ρ c (Proc.devRef .tc main_v47_1) := by host_carries hostOps5

/-- The second layer's bias row, reshaped from the bias vector before the sixth call, read at column o. -/
theorem W11_v48 (o : Fin 128) :
    (W11 (F := Ideal) m ρ c (Proc.devRef .tc main_v48) : S1x128.Idx → EReal) (ix2 0 o)
      = (m ((c : Thread nD τ).loc main_arg5) : S128.Idx → EReal) (ix1 o) := by
  refine Eq.trans ?_ (congrFun (W10_arg5 m ρ c) (ix1 o))
  show StableHlo.after hostOps5 (W10 (F := Ideal) m ρ c) (Proc.devRef .tc main_v48) (ix2 0 o) = _
  after_results
  exact shapeCast_a_1a_apply _ _ 0 o

theorem W11_v48_fn :
    (fun o : Fin 128 => (W11 (F := Ideal) m ρ c (Proc.devRef .tc main_v48) : S1x128.Idx → EReal) (ix2 0 o))
      = toFn1 (m ((c : Thread nD τ).loc main_arg5) : S128.Idx → EReal) :=
  funext fun o => W11_v48 m ρ c o

/-- The sixth call's output: the second layer's projection of (h, U₁, U₂), which is the network. -/
theorem W12_v49
    (h5 : ∀ (V : Entry) (c : Dev nD), (dat5 (F := Ideal) V c).arrAt 5 cfg5.N
      = (ofFn2 (proj (toFn2 (V c main_v45 : S10000x256.Idx → EReal)) (toFn2 (V c main_v46_1 : S10000x256.Idx → EReal))
          (toFn2 (V c main_v47_1 : S10000x256.Idx → EReal)) (toFn3 (V c main_v44 : S3x256x128.Idx → EReal))
          (fun o => (V c main_v48 : S1x128.Idx → EReal) (ix2 0 o))) : S10000x128.Idx → EReal))
    (e43 : (W7 (F := Ideal) m ρ c (Proc.devRef .tc main_v43) : S10000x256.Idx → EReal) = ofFn2 (hidM m ρ c))
    (e46 : (W9 (F := Ideal) m ρ c (Proc.devRef .tc main_v46_1) : S10000x256.Idx → EReal) = ofFn2 (u1M m ρ c))
    (e47 : (W10 (F := Ideal) m ρ c (Proc.devRef .tc main_v47_1) : S10000x256.Idx → EReal) = ofFn2 (u2M m ρ c)) :
    (W12 (F := Ideal) m ρ c (Proc.devRef .tc main_v49) : S10000x128.Idx → EReal)
      = ofFn2 (net (dmm (toFn2 (W3 (F := Ideal) m ρ c (Proc.devRef .tc main_v37) : S10000x10000.Idx → EReal))) two zero
          (toFn2 (m ((c : Thread nD τ).loc main_arg0) : S10000x256.Idx → EReal))
          (toFn3 (m ((c : Thread nD τ).loc main_arg2) : S3x256x256.Idx → EReal))
          (toFn1 (m ((c : Thread nD τ).loc main_arg3) : S256.Idx → EReal))
          (toFn3 (m ((c : Thread nD τ).loc main_arg4) : S3x256x128.Idx → EReal))
          (toFn1 (m ((c : Thread nD τ).loc main_arg5) : S128.Idx → EReal))) := by
  refine ((W12_arr m ρ c 5).trans (h5 (V11 m ρ) c)).trans ?_
  show ofFn2 (proj (toFn2 (W11 (F := Ideal) m ρ c (Proc.devRef .tc main_v45) : S10000x256.Idx → EReal)) (toFn2 (W11 (F := Ideal) m ρ c (Proc.devRef .tc main_v46_1) : S10000x256.Idx → EReal))
      (toFn2 (W11 (F := Ideal) m ρ c (Proc.devRef .tc main_v47_1) : S10000x256.Idx → EReal)) (toFn3 (W11 (F := Ideal) m ρ c (Proc.devRef .tc main_v44) : S3x256x128.Idx → EReal))
      (fun o => (W11 (F := Ideal) m ρ c (Proc.devRef .tc main_v48) : S1x128.Idx → EReal) (ix2 0 o))) = _
  rw [W11_v45 m ρ c, e43, W11_v46_1 m ρ c, e46, W11_v47_1 m ρ c, e47, W11_v44 m ρ c, W11_v48_fn m ρ c,
    toFn2_ofFn2, toFn2_ofFn2, toFn2_ofFn2, net_eq m ρ c]

end Carry

/-- The result array after the run is the two-layer network through the dense adjacency as the first call finds it
    (`W3` at `main_v37`), given what each call leaves in its output arrays (`h0` … `h5`: the six calls read as
    values, each at any entry contents) and that the first host stretches narrow the features and the first layer's
    weights to bf16 (`hx`, `hw`: the identity at the ideal values). -/
theorem kernel_value
    (h0 : ∀ (V : Entry) (c : Dev nD), (dat0 (F := Ideal) V c).arrAt 3 cfg0.N
      = (ofFn2 (dmm (toFn2 (V c main_v37 : S10000x10000.Idx → EReal)) (toFn2 (V c main_v39 : S10000x256.Idx → EReal))) : S10000x256.Idx → EReal))
    (h1 : ∀ (V : Entry) (c : Dev nD), (dat1 (F := Ideal) V c).arrAt 4 cfg1.N
      = (ofFn2 (comb two (dmm (toFn2 (V c main_v37 : S10000x10000.Idx → EReal)) (toFn2 (V c main_v40_1 : S10000x256.Idx → EReal)))
          (toFn2 (V c main_arg0 : S10000x256.Idx → EReal))) : S10000x256.Idx → EReal))
    (h2 : ∀ (V : Entry) (c : Dev nD), (dat2 (F := Ideal) V c).arrAt 5 cfg2.N
      = (ofFn2 (fun i o => max (proj (toFn2 (V c main_v39 : S10000x256.Idx → EReal)) (toFn2 (V c main_v40_1 : S10000x256.Idx → EReal))
          (toFn2 (V c main_v41_1 : S10000x256.Idx → EReal)) (toFn3 (V c main_v38 : S3x256x256.Idx → EReal))
          (fun o => (V c main_v42 : S1x256.Idx → EReal) (ix2 0 o)) i o) zero) : S10000x256.Idx → EReal))
    (h3 : ∀ (V : Entry) (c : Dev nD), (dat3 (F := Ideal) V c).arrAt 3 cfg3.N
      = (ofFn2 (dmm (toFn2 (V c main_v37 : S10000x10000.Idx → EReal)) (toFn2 (V c main_v45 : S10000x256.Idx → EReal))) : S10000x256.Idx → EReal))
    (h4 : ∀ (V : Entry) (c : Dev nD), (dat4 (F := Ideal) V c).arrAt 4 cfg4.N
      = (ofFn2 (comb two (dmm (toFn2 (V c main_v37 : S10000x10000.Idx → EReal)) (toFn2 (V c main_v46_1 : S10000x256.Idx → EReal)))
          (toFn2 (V c main_v43 : S10000x256.Idx → EReal))) : S10000x256.Idx → EReal))
    (h5 : ∀ (V : Entry) (c : Dev nD), (dat5 (F := Ideal) V c).arrAt 5 cfg5.N
      = (ofFn2 (proj (toFn2 (V c main_v45 : S10000x256.Idx → EReal)) (toFn2 (V c main_v46_1 : S10000x256.Idx → EReal))
          (toFn2 (V c main_v47_1 : S10000x256.Idx → EReal)) (toFn3 (V c main_v44 : S3x256x128.Idx → EReal))
          (fun o => (V c main_v48 : S1x128.Idx → EReal) (ix2 0 o))) : S10000x128.Idx → EReal))
    (c : Dev nD)
    (hx : (W3 (F := Ideal) m ρ c (Proc.devRef .tc main_v39) : S10000x256.Idx → EReal) = m ((c : Thread nD τ).loc main_arg0))
    (hw : (W3 (F := Ideal) m ρ c (Proc.devRef .tc main_v38) : S3x256x256.Idx → EReal) = m ((c : Thread nD τ).loc main_arg2)) :
    (W12 (F := Ideal) m ρ c (Proc.devRef .tc main_v49) : S10000x128.Idx → EReal)
      = ofFn2 (net (dmm (toFn2 (W3 (F := Ideal) m ρ c (Proc.devRef .tc main_v37) : S10000x10000.Idx → EReal))) two zero
          (toFn2 (m ((c : Thread nD τ).loc main_arg0) : S10000x256.Idx → EReal))
          (toFn3 (m ((c : Thread nD τ).loc main_arg2) : S3x256x256.Idx → EReal))
          (toFn1 (m ((c : Thread nD τ).loc main_arg3) : S256.Idx → EReal))
          (toFn3 (m ((c : Thread nD τ).loc main_arg4) : S3x256x128.Idx → EReal))
          (toFn1 (m ((c : Thread nD τ).loc main_arg5) : S128.Idx → EReal))) := by
  have e40 := W4_v40_1 m ρ c h0 hx
  have e41 := W5_v41_1 m ρ c h1 e40
  have e43 := W7_v43 m ρ c h2 hx hw e40 e41
  have e46 := W9_v46_1 m ρ c h3 e43
  exact W12_v49 m ρ c h5 e43 e46 (W10_v47_1 m ρ c h4 e43 e46)

end Cert.KernelIdeal.HandFold

end
-- ==== Proof.Graph.lean ====
/-
  The edge list as node numbers. The graph comes as a `[2, 320000]` array of 32-bit words, row 0 the source and row 1
  the destination of each edge, every word the number of a node, `0 ≤ · < 10000`. In that range a word reads the
  same signed and unsigned, and is its own remainder modulo 10000; `nodeOf` is the node as an element of `Fin 10000`.
-/
import Idealize.ShloMosaic.Lib.ValueIdx
import Mathlib.Data.BitVec
import Mathlib.Tactic.NormNum

namespace Cert.Cheb

open Idealize.ShloMosaic Idealize.ShloMosaic.ValueIdx

/-- Every word of the edge list is a node number. -/
def InRange (edge : IVec ⟨2, ![2, 320000]⟩ 32) : Prop :=
  ∀ (r : Fin 2) (e : Fin 320000), (edge (ix2 r e)).toNat < 10000

/-- The node an edge-list word names (row `r` = 0 the source, 1 the destination). -/
def nodeOf (edge : IVec ⟨2, ![2, 320000]⟩ 32) (r : Fin 2) (e : Fin 320000) : Fin 10000 :=
  ⟨(edge (ix2 r e)).toNat % 10000, Nat.mod_lt _ (by norm_num)⟩

theorem nodeOf_val {edge : IVec ⟨2, ![2, 320000]⟩ 32} (h : InRange edge) (r : Fin 2) (e : Fin 320000) :
    (nodeOf edge r e).val = (edge (ix2 r e)).toNat :=
  Nat.mod_eq_of_lt (h r e)

/-- In range, the word read signed is the node number. -/
theorem toInt_eq_nodeOf {edge : IVec ⟨2, ![2, 320000]⟩ 32} (h : InRange edge) (r : Fin 2) (e : Fin 320000) :
    (edge (ix2 r e)).toInt = ((nodeOf edge r e).val : ℤ) := by
  rw [nodeOf_val h]
  have hlt := h r e
  rw [BitVec.toInt_eq_toNat_cond, if_pos (by omega)]

end Cert.Cheb
-- ==== Proof.LibBincount.lean ====
/-
  Counting by a scatter that adds: `Host.scatter` with the body the 32-bit addition, `N` scalar updates, an operand
  of `M` words and one-component index vectors (no update window axis, the operand's one axis inserted, the index
  vector on the indices' second axis).

  An update lands where its index word says, the word read SIGNED and not clamped; an update whose index is outside
  `[0, M)` is dropped. So the result at `s` is the operand's word plus the sum of the updates whose index word is `s`
  (`scatter_add_apply`). With the operand all zeros, every update the word `1` and `N < 2 ^ 31`, the result at `s`,
  read unsigned or signed, is the NUMBER of updates whose index word is `s` (`scatter_ones_toNat`,
  `scatter_ones_toInt`).
-/
import Idealize.ShloMosaic.PureOps.Ideal
import Idealize.ShloMosaic.Lib.ValueIdx
import Mathlib.Data.BitVec
import Mathlib.Algebra.BigOperators.Fin

namespace Cert.LibBincount

open Idealize.ShloMosaic Idealize.ShloMosaic.ValueIdx

/-- A left fold whose step adds `u n` at the one place `g n` names (nowhere when it names none), read at one
    place `i0`: the start there plus the `u n` with `g n = some i0`. -/
theorem foldl_step_apply {ι κ A : Type*} [AddMonoid A] (step : (κ → A) → ι → κ → A)
    (g : ι → Option κ) (u : ι → A) [DecidableEq κ]
    (hstep : ∀ r n i', step r n i' = if g n = some i' then r i' + u n else r i')
    (l : List ι) (x : κ → A) (i0 : κ) :
    (l.foldl step x) i0 = x i0 + (l.map fun n => if g n = some i0 then u n else 0).sum := by
  induction l generalizing x with
  | nil => simp
  | cons a l ih =>
    rw [List.foldl_cons, ih, hstep, List.map_cons, List.sum_cons]
    by_cases hg : g a = some i0
    · rw [if_pos hg, if_pos hg, add_assoc]
    · rw [if_neg hg, if_neg hg, zero_add]

/-- A rank-1 index set is its coordinate's range. -/
def idxEquiv1 {n : ℕ} : (⟨1, ![n]⟩ : Shape).Idx ≃ Fin n where
  toFun i := i 0
  invFun a := ix1 a
  left_inv i := (eq_ix1 i).symm
  right_inv _ := rfl

/-- An update of a scatter of scalars at one-component index vectors lands at `s` exactly when its index word,
    read signed, is `s`. -/
theorem resultIdx?_eq_some_iff {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1) (idx : IVec ⟨2, ![N, 1]⟩ w) (n : Fin N) (s : Fin M) :
    d.resultIdx? (ix1 n) idx = some (ix1 s) ↔ (idx (ix2 n 0)).toInt = (s.val : ℤ) := by
  obtain ⟨uw, iw, sd, iv, wf⟩ := d
  simp only at h1 h2 h3 h4
  subst h1 h2 h3 h4
  have hstart : (ScatterDims.mk [] [0] [0] 1 wf).start (ix1 n) idx 0 = (idx (ix2 n 0)).toInt := by
    unfold ScatterDims.start
    rw [dif_pos (show (0 : Fin 1) ∈ (ScatterDims.mk [] [0] [0] 1 wf).scatterDimsToOperandDims from
      List.mem_singleton.mpr rfl)]
    congr 2
    funext b
    refine Fin.ext ?_
    match b with
    | ⟨0, _⟩ => rfl
    | ⟨1, _⟩ => rfl
  have hwin : (ScatterDims.mk [] [0] [0] 1 wf).window (ix1 n) 0 = 0 := by
    unfold ScatterDims.window
    rw [dif_neg]
    intro hmem
    have hk : (ScatterDims.mk [] [0] [0] 1 wf).sKept = [] :=
      (by decide : (List.finRange 1).filter (fun a : Fin 1 => decide (a ∉ ([0] : List (Fin 1)))) = [])
    rw [hk] at hmem
    exact List.not_mem_nil hmem
  unfold ScatterDims.resultIdx?
  by_cases hin : 0 ≤ (idx (ix2 n 0)).toInt ∧ (idx (ix2 n 0)).toInt < (M : ℤ)
  · rw [dif_pos (by
      intro a
      obtain rfl : a = 0 := Subsingleton.elim _ _
      rw [hstart, hwin]
      simpa using hin)]
    rw [Option.some_inj]
    constructor
    · intro hf
      have h0 := congrArg (fun f => (f 0).val) hf
      simp only [hstart, hwin] at h0
      have h0' : ((idx (ix2 n 0)).toInt + ((0 : ℕ) : ℤ)).toNat = s.val := h0
      omega
    · intro ht
      funext a
      obtain rfl : a = 0 := Subsingleton.elim _ _
      apply Fin.ext
      show ((ScatterDims.mk [] [0] [0] 1 wf).start (ix1 n) idx 0
        + (((ScatterDims.mk [] [0] [0] 1 wf).window (ix1 n) 0 : ℕ) : ℤ)).toNat = s.val
      rw [hstart, hwin, ht]
      simp
  · rw [dif_neg (by
      intro hall
      apply hin
      have := hall 0
      rw [hstart, hwin] at this
      simpa using this)]
    constructor
    · intro hf
      cases hf
    · intro ht
      exfalso
      apply hin
      rw [ht]
      exact ⟨by omega, by exact_mod_cast s.isLt⟩

/-- The scatter at `s`: the operand's word plus the updates whose index word, read signed, is `s`. -/
theorem scatter_add_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : IVec ⟨2, ![N, 1]⟩ w) (upd : (⟨1, ![N]⟩ : Shape).Idx → BitVec 32)
    (s : Fin M) :
    Host.scatter d IntOp.addi x idx upd (ix1 s)
      = x (ix1 s) + ∑ n : Fin N, if (idx (ix2 n 0)).toInt = (s.val : ℤ) then upd (ix1 n) else 0 := by
  unfold Host.scatter
  rw [foldl_step_apply _ (fun n => d.resultIdx? ((Shape.rowMajor ⟨1, ![N]⟩).symm n) idx)
    (fun n => upd ((Shape.rowMajor ⟨1, ![N]⟩).symm n)) ?hstep]
  case hstep =>
    intro r n i'
    generalize d.resultIdx? ((Shape.rowMajor ⟨1, ![N]⟩).symm n) idx = o
    cases o with
    | none => simp
    | some i =>
      by_cases hi : i' = i
      · subst hi; simp [IntOp.addi]
      · simp [hi, Ne.symm hi]
  rw [← Fin.sum_univ_def]
  congr 1
  rw [Equiv.sum_comp (Shape.rowMajor ⟨1, ![N]⟩).symm
    (fun i => if d.resultIdx? i idx = some (ix1 s) then upd i else 0)]
  rw [← Equiv.sum_comp (idxEquiv1 (n := N)).symm]
  refine Finset.sum_congr rfl (fun n _ => ?_)
  show (if d.resultIdx? (ix1 n) idx = some (ix1 s) then upd (ix1 n) else 0) = _
  simp only [resultIdx?_eq_some_iff M N d h1 h2 h3 h4 idx n s]

/-- A set of indices below `N < 2 ^ 31` has fewer than `2 ^ 31` members. -/
theorem card_filter_lt (N : ℕ) (hN : N < 2 ^ 31) (p : Fin N → Prop) [DecidablePred p] :
    (Finset.univ.filter p).card < 2 ^ 31 :=
  lt_of_le_of_lt (le_trans (Finset.card_filter_le _ _) (by simp)) hN

/-- A number below `2 ^ 31` cast to a 32-bit word reads back unsigned as itself. -/
theorem toNat_natCast_of_lt (c : ℕ) (hc : c < 2 ^ 31) : ((c : BitVec 32)).toNat = c := by
  rw [BitVec.natCast_eq_ofNat, BitVec.toNat_ofNat]
  exact Nat.mod_eq_of_lt (by omega)

/-- A number below `2 ^ 31` cast to a 32-bit word reads back signed as itself. -/
theorem toInt_natCast_of_lt (c : ℕ) (hc : c < 2 ^ 31) : ((c : BitVec 32)).toInt = (c : ℤ) := by
  rw [BitVec.toInt_eq_toNat_of_lt (by rw [toNat_natCast_of_lt c hc]; omega), toNat_natCast_of_lt c hc]

/-- All-ones updates into zeros: the scatter at `s` is, as a word, the number of updates whose index word is `s`. -/
theorem scatter_ones_eq_card {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    Host.scatter d IntOp.addi x idx upd (ix1 s)
      = ((Finset.univ.filter fun n : Fin N => (idx (ix2 n 0)).toInt = (s.val : ℤ)).card : BitVec 32) := by
  rw [scatter_add_apply M N d h1 h2 h3 h4 x idx upd s, hx, ← Finset.sum_boole]
  have h0 : ∀ a : BitVec 32, 0#32 + a = a := fun a => by simp
  rw [h0]
  refine Finset.sum_congr rfl (fun n _ => ?_)
  rw [hupd]
  simp

/-- All-ones updates into zeros, fewer than `2 ^ 31` of them: the word at `s` read unsigned counts the updates
    whose index word is `s`. -/
theorem scatter_ones_toNat {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toNat
      = (Finset.univ.filter fun n : Fin N => (idx (ix2 n 0)).toInt = (s.val : ℤ)).card := by
  rw [scatter_ones_eq_card M N d h1 h2 h3 h4 x hx idx upd hupd s]
  exact toNat_natCast_of_lt _ (card_filter_lt N hN _)

/-- The same count, the word read signed. -/
theorem scatter_ones_toInt {w : ℕ} (M N : ℕ) (hN : N < 2 ^ 31) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (hx : ∀ i, x i = 0#32) (idx : IVec ⟨2, ![N, 1]⟩ w)
    (upd : (⟨1, ![N]⟩ : Shape).Idx → BitVec 32) (hupd : ∀ i, upd i = 1#32) (s : Fin M) :
    (Host.scatter d IntOp.addi x idx upd (ix1 s)).toInt
      = ((Finset.univ.filter fun n : Fin N => (idx (ix2 n 0)).toInt = (s.val : ℤ)).card : ℤ) := by
  rw [scatter_ones_eq_card M N d h1 h2 h3 h4 x hx idx upd hupd s]
  exact toInt_natCast_of_lt _ (card_filter_lt N hN _)

end Cert.LibBincount
-- ==== Proof.LibScatterAdd1.lean ====
/-
  The float scatter that adds, at one-component index vectors: an operand of `M` values, `N` scalar updates, no update
  window axis, the operand's one axis inserted, the index vector on the indices' second axis.

  An update lands where its index word says, the word read SIGNED and not clamped; an update whose index is outside
  `[0, M)` is dropped. At the ideal values the colliding updates are added exactly, in no particular order, so the
  result at `s` is the operand's value there plus the sum, over ALL updates, of the update if its index word is `s`
  and of zero if not.
-/
import proofs.«420550_j3083786518792_3_alg».proof.Proof.LibBincount
import Idealize.ShloMosaic.PureOps.Ideal
import Idealize.ShloMosaic.PureOps.Contract
import Idealize.ShloMosaic.Lib.ValueIdx
import Mathlib.Algebra.BigOperators.Fin

namespace Cert.LibScatterAdd1

open Idealize.ShloMosaic Idealize.ShloMosaic.ValueIdx

/-- The exact accumulating scatter at `s`: the operand's value plus the updates whose index word, read signed, is `s`. -/
theorem hostScatterAdd_apply {w : ℕ} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![N, 1]⟩ w) (upd : (⟨1, ![N]⟩ : Shape).Idx → EReal)
    (s : Fin M) :
    Ideal.hostScatterAdd d x idx upd (ix1 s)
      = x (ix1 s) + ∑ n : Fin N, if (idx (ix2 n 0)).toInt = (s.val : ℤ) then upd (ix1 n) else 0 := by
  unfold Ideal.hostScatterAdd
  congr 1
  rw [Finset.sum_filter, ← Equiv.sum_comp (Cert.LibBincount.idxEquiv1 (n := N)).symm]
  refine Finset.sum_congr rfl (fun n _ => ?_)
  show (if d.resultIdx? (ix1 n) idx = some (ix1 s) then upd (ix1 n) else 0) = _
  simp only [Cert.LibBincount.resultIdx?_eq_some_iff M N d h1 h2 h3 h4 idx n s]

/-- The same for the host operation as a program states it, at any float format. -/
theorem scatterAdd_apply {w : ℕ} {φ : FTy} (M N : ℕ) (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : FVec Ideal ⟨1, ![M]⟩ φ) (idx : IVec ⟨2, ![N, 1]⟩ w) (upd : FVec Ideal ⟨1, ![N]⟩ φ) (s : Fin M) :
    Host.scatterAdd d x idx upd (ix1 s)
      = (x (ix1 s) + ∑ n : Fin N, if (idx (ix2 n 0)).toInt = (s.val : ℤ) then upd (ix1 n) else 0 : EReal) :=
  hostScatterAdd_apply M N d h1 h2 h3 h4 x idx upd s

end Cert.LibScatterAdd1
-- ==== Proof.Consts.lean ====
/-
  The four float literals the two programs and the precondition spell, as the extended reals their bit patterns
  denote: +0.0 is 0, 1.0 is 1 (sign 0, biased exponent 127, significand 0), 2.0 is 2 (biased exponent 128), and the
  pattern with exponent all ones and significand 0 is +∞. They are evaluated here once; every other module cites these.
-/
import Idealize.ShloMosaic.PureOps.Ideal
import Mathlib.Tactic.NormNum

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inf : Ideal.ofBits .f32 0x7F800000#32 = (⊤ : EReal) := by
  simp [Ideal.ofBits, Ideal.ieee]

end Cert.Consts

end
-- ==== Proof.KHost.lean ====
/-
  What the host computes before the first call, read as values.

  Before the first pallas_call @main computes, from the edge list alone, the per-edge weight (`norm`: the negated
  product of the inverse square-root degrees of the edge's two ends; each degree factor is either `rsqrt (max deg 1)`
  or `0`, hence a real number whatever the degree) and scatters the weights into a flat array of 10000 · 10000 zeros at
  the flat position `dst · 10000 + src`, reshaped to `[10000, 10000]` and narrowed to bf16 (the identity at the ideal
  values): the dense adjacency. With every edge-list word a node number the flat position does not wrap and names the
  pair `(dst, src)` uniquely, so entry `(i, j)` adds up the weights of the edges `j → i`. The feature matrix and the
  first layer's weights are narrowed to bf16, the identity at the ideal values.
-/
import proofs.«420550_j3083786518792_3_alg».proof.Proof.Gen.KernelIdeal.Frame
import proofs.«420550_j3083786518792_3_alg».proof.Proof.Spec
import proofs.«420550_j3083786518792_3_alg».proof.Proof.Graph
import proofs.«420550_j3083786518792_3_alg».proof.Proof.LibBincount
import proofs.«420550_j3083786518792_3_alg».proof.Proof.LibScatterAdd1
import proofs.«420550_j3083786518792_3_alg».proof.Proof.Consts
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx

namespace Cert.KernelIdeal.HandHost

open Cert.KernelIdeal Cert.KernelIdeal.Gen Cert.Cheb Cert.AggAlgebra

variable (m : (ℓ : Loc nD τ sig) → Buf (Elt Ideal) ℓ) (ρ : Dev nD → PrngReg)

/-! ## The operations' composed terms, as functions of the edge list -/

/-- A row of the edge list as a vector of words (row 0, `%1`: the sources; row 1, `%3`: the destinations). -/
def srcWords (x1 : IVec S2x320000 32) : IVec S320000 32 :=
  fun i => shapeCast S320000 (extractStridedSlice S1x320000 ![0, 0] x1 slices_S2x320000_S1x320000_0_0)
    shapeCasts_S1x320000_S320000 i
@[inherit_doc srcWords]
def dstWords (x1 : IVec S2x320000 32) : IVec S320000 32 :=
  fun i => shapeCast S320000 (extractStridedSlice S1x320000 ![1, 0] x1 slices_S2x320000_S1x320000_1_0)
    shapeCasts_S1x320000_S320000 i

/-- The degree of every node (`%7`): the number of edges into it, as an exact float sum of ones. -/
def degTerm (x1 : IVec S2x320000 32) : S10000.Idx → EReal :=
  Host.scatterAdd (F := Ideal) (φ := .f32) scatter_S10000_S320000x1_S320000_n_0_0_1
    (broadcastInDim S10000 ![] bcast_S_S10000 (constant (F := Ideal) S_ .f32 0x00000000#32))
    (broadcastInDim S320000x1 ![0] bcast_S320000_S320000x1_0 (dstWords x1))
    (broadcastInDim S320000 ![] bcast_S_S320000 (constant (F := Ideal) S_ .f32 0x3F800000#32))

/-- The inverse square-root degrees from the degrees (`%13`): where the degree is positive `rsqrt (max deg 1)`,
    elsewhere zero. -/
def disOf (deg : S10000.Idx → EReal) : S10000.Idx → EReal :=
  select
    (cmpf (F := Ideal) (φ := .f32) .ogt deg (broadcastInDim S10000 ![] bcast_S_S10000 (constant (F := Ideal) S_ .f32 0x00000000#32)))
    (Host.rsqrt (F := Ideal) (φ := .f32)
      (maximumf (F := Ideal) (φ := .f32) deg (broadcastInDim S10000 ![] bcast_S_S10000 (constant (F := Ideal) S_ .f32 0x3F800000#32))))
    (broadcastInDim S10000 ![] bcast_S_S10000 (id (constant (F := Ideal) S_ .f32 0x00000000#32)))

/-- A vector of node words with `10000` added to the negative ones (a negative word counts from the end), as a
    column of start indices. -/
def wrapCol (v : IVec S320000 32) : IVec S320000x1 32 :=
  broadcastInDim S320000x1 ![0] bcast_S320000_S320000x1_0
    (select (cmpi .slt v (broadcastInDim S320000 ![] bcast_S_S320000 (constantI S_ 32 0#32)))
      (addi v (broadcastInDim S320000 ![] bcast_S_S320000 (constantI S_ 32 10000#32))) v)

/-- The flat position `dst · 10000 + src` of every edge, as a column of 32-bit words (`%34`). -/
def flatCol (x1 : IVec S2x320000 32) : IVec S320000x1 32 :=
  broadcastInDim S320000x1 ![0] bcast_S320000_S320000x1_0
    (addi (muli (dstWords x1) (broadcastInDim S320000 ![] bcast_S_S320000 (constantI S_ 32 10000#32))) (srcWords x1))

/-- The dense adjacency (`%37`) from the edge list and the per-edge weights: the weights scattered, adding, into
    `10000 · 10000` zeros at the flat positions, reshaped to a square and narrowed to bf16. -/
def adjTerm (x1 : IVec S2x320000 32) (wgt : S320000.Idx → EReal) : S10000x10000.Idx → EReal :=
  truncf (F := Ideal) .bf16
    (fun i => shapeCast S10000x10000
      (Host.scatterAdd (F := Ideal) (φ := .f32) scatter_S100000000_S320000x1_S320000_n_0_0_1
        (broadcastInDim S100000000 ![] bcast_S_S100000000 (constant (F := Ideal) S_ .f32 0x00000000#32))
        (flatCol x1) wgt)
      shapeCasts_S100000000_S10000x10000 i)
    bitsLt_bf16_f32

/-! ## Reading them at an index -/

/-- A row of the edge list cut out and flattened reads the edge list at that row. -/
theorem row_apply (x1 : IVec S2x320000 32) (off : Fin 2 → ℕ) (r : Fin 2) (h0 : off 0 = r.val) (h1 : off 1 = 0)
    (hs : S2x320000.Slices off S1x320000) (hc : S1x320000.ShapeCasts S320000) (e : Fin 320000) :
    shapeCast S320000 (extractStridedSlice S1x320000 off x1 hs) hc (ix1 e) = x1 (ix2 r e) := by
  refine (shapeCast_apply _ hc (ix1 e) (ix2 (0 : Fin 1) e) ?_).trans ?_
  · rw [Shape.rowMajor_val_two, Shape.rowMajor_val_one]
    show 0 * 320000 + e.val = e.val
    omega
  · refine extractStridedSlice_apply off x1 hs (ix2 (0 : Fin 1) e) (ix2 r e) (fun a => ?_)
    match a with
    | ⟨0, _⟩ => show r.val = off 0 + 0; omega
    | ⟨1, _⟩ => show e.val = off 1 + e.val; omega

theorem srcWords_apply (x1 : IVec S2x320000 32) (e : Fin 320000) : srcWords x1 (ix1 e) = x1 (ix2 0 e) :=
  row_apply x1 ![0, 0] 0 rfl rfl _ _ e
theorem dstWords_apply (x1 : IVec S2x320000 32) (e : Fin 320000) : dstWords x1 (ix1 e) = x1 (ix2 1 e) :=
  row_apply x1 ![1, 0] 1 rfl rfl _ _ e

/-- A vector as a one-column matrix reads, at row `n`, the vector at `n`. -/
theorem col_apply {α : Type} (v : S320000.Idx → α) (hb : S320000.BroadcastsInDim S320000x1 ![0]) (n : Fin 320000) :
    broadcastInDim S320000x1 ![0] hb v (ix2 n (0 : Fin 1)) = v (ix1 n) :=
  broadcastInDim_apply ![0] hb v (ix2 n (0 : Fin 1)) (ix1 n) (fun a => by
    match a with
    | ⟨0, _⟩ => rfl)

/-- With both words node numbers, `dst · 10000 + src` does not wrap and reads, signed, as that number. -/
theorem flat_toInt (a b : BitVec 32) (ha : a.toNat < 10000) (hb : b.toNat < 10000) :
    (IntOp.addi (IntOp.muli a 10000#32) b).toInt = ((a.toNat * 10000 + b.toNat : ℕ) : ℤ) := by
  have h : (IntOp.addi (IntOp.muli a 10000#32) b).toNat = a.toNat * 10000 + b.toNat := by
    show (a * 10000#32 + b).toNat = _
    rw [BitVec.toNat_add, BitVec.toNat_mul]
    show (a.toNat * 10000 % 2 ^ 32 + b.toNat) % 2 ^ 32 = _
    omega
  rw [BitVec.toInt_eq_toNat_of_lt (by rw [h]; omega), h]

/-- The flat position of edge `e`, read signed, is its destination times `10000` plus its source. -/
theorem flatCol_toInt (x1 : IVec S2x320000 32) (hr : InRange x1) (e : Fin 320000) :
    (flatCol x1 (ix2 e (0 : Fin 1))).toInt
      = (((nodeOf x1 1 e).val * 10000 + (nodeOf x1 0 e).val : ℕ) : ℤ) := by
  unfold flatCol
  rw [col_apply]
  show (IntOp.addi (IntOp.muli (dstWords x1 (ix1 e)) 10000#32) (srcWords x1 (ix1 e))).toInt = _
  rw [dstWords_apply, srcWords_apply, flat_toInt _ _ (hr 1 e) (hr 0 e), nodeOf_val hr, nodeOf_val hr]

/-! ## Every weight is a real number -/

/-- The inverse square root of `max d 1` is a real number, whatever `d` is: `max d 1` is `+∞` (inverse square
    root zero) or a real at least one. -/
theorem isReal_rsqrt_max_one (d : EReal) : IsReal (Ideal.rsqrt (max d 1)) := by
  induction d using EReal.rec with
  | bot =>
    rw [max_eq_right bot_le, ← EReal.coe_one]
    obtain ⟨s, _, hs⟩ := rsqrt_pos_real 1 one_pos
    exact ⟨s, hs⟩
  | coe r =>
    rw [← EReal.coe_one, ← EReal.coe_strictMono.monotone.map_max]
    obtain ⟨s, _, hs⟩ := rsqrt_pos_real (max r 1) (lt_of_lt_of_le one_pos (le_max_right r 1))
    exact ⟨s, hs⟩
  | top =>
    rw [max_eq_left le_top, Ideal.rsqrt_top]
    exact isReal_zero

/-- A float constant broadcast to any shape reads the constant's value everywhere. -/
theorem scalarF_apply {T : Shape} (h : S_.BroadcastsInDim T ![]) (b : BitVec 32) (j : T.Idx) :
    broadcastInDim T ![] h (constant (F := Ideal) S_ .f32 b) j = Ideal.ofBits .f32 b := rfl

/-- Every inverse square-root degree is a real number, whatever the degrees are. -/
theorem disOf_real (deg : S10000.Idx → EReal) (k : S10000.Idx) : IsReal (disOf deg k) := by
  unfold disOf
  rw [select_apply]
  unfold Scalar.select
  split
  · show IsReal (Ideal.rsqrt (max (deg k) (broadcastInDim S10000 ![] bcast_S_S10000 (constant (F := Ideal) S_ .f32 0x3F800000#32) k)))
    rw [scalarF_apply, Cert.Consts.ofBits_one, EReal.coe_one]
    exact isReal_rsqrt_max_one _
  · show IsReal (broadcastInDim S10000 ![] bcast_S_S10000 (constant (F := Ideal) S_ .f32 0x00000000#32) k)
    rw [scalarF_apply, Cert.Consts.ofBits_zero]
    exact isReal_zero

/-- The negation of a real number is a real number. -/
theorem isReal_neg {x : EReal} (hx : IsReal x) : IsReal (-x) := by
  obtain ⟨a, rfl⟩ := hx
  exact ⟨-a, (EReal.coe_neg a).symm⟩

/-- An entry of a gather is an entry of its table: a table of reals gathers to reals, whatever the indices. -/
theorem isReal_gather {s si t : Shape} {w : ℕ} (d : GatherDims s si t) (x : s.Idx → EReal) (hx : ∀ k, IsReal (x k))
    (idx : IVec si w) (j : t.Idx) : IsReal (Host.gather d x idx j) := hx _

/-! ## The dense adjacency at an entry -/

/-- Two pairs of node numbers with the same flat position are the same pair. -/
theorem flat_eq_iff (d s i j : Fin 10000) :
    (((d.val * 10000 + s.val : ℕ) : ℤ) = ((i.val * 10000 + j.val : ℕ) : ℤ)) ↔ d = i ∧ s = j := by
  have := d.isLt; have := s.isLt; have := i.isLt; have := j.isLt
  rw [Fin.ext_iff, Fin.ext_iff]
  omega

/-- Entry `(i, j)` of the dense adjacency adds up the weights of the edges `j → i`. -/
theorem adjTerm_apply (x1 : IVec S2x320000 32) (hr : InRange x1) (wgt : S320000.Idx → EReal) (i j : Fin 10000) :
    adjTerm x1 wgt (ix2 i j)
      = 0 + ∑ e : Fin 320000, if nodeOf x1 1 e = i ∧ nodeOf x1 0 e = j then wgt (ix1 e) else 0 := by
  have hlt : i.val * 10000 + j.val < 100000000 := by have := i.isLt; have := j.isLt; omega
  unfold adjTerm
  rw [truncf_apply]
  refine (shapeCast_apply _ shapeCasts_S100000000_S10000x10000 (ix2 i j)
    (ix1 (⟨i.val * 10000 + j.val, hlt⟩ : Fin 100000000)) ?_).trans ?_
  · rw [Shape.rowMajor_val_two, Shape.rowMajor_val_one]
    rfl
  · refine (Cert.LibScatterAdd1.scatterAdd_apply 100000000 320000 scatter_S100000000_S320000x1_S320000_n_0_0_1 rfl rfl rfl rfl
      _ (flatCol x1) wgt ⟨i.val * 10000 + j.val, hlt⟩).trans ?_
    refine congrArg₂ (fun a b : EReal => a + b) ((scalarF_apply _ _ _).trans Cert.Consts.ofBits_zero)
      (Finset.sum_congr rfl (fun e _ => ?_))
    have h : (flatCol x1 (ix2 e (0 : Fin 1))).toInt = ((i.val * 10000 + j.val : ℕ) : ℤ)
        ↔ nodeOf x1 1 e = i ∧ nodeOf x1 0 e = j := by
      rw [flatCol_toInt x1 hr e]
      exact flat_eq_iff _ _ i j
    exact if_congr h rfl rfl

/-! ## The frame's buffers are these terms -/

/-- The per-edge weights, as a function of the edge list: @main's operations up to `%29` composed. Both ends'
    inverse square-root degrees are gathered at the edge's (normalised) node words; the source's is negated. -/
def normTerm (x1 : IVec S2x320000 32) : S320000.Idx → EReal :=
  mulf (F := Ideal) (φ := .f32)
    (Host.negf (F := Ideal) (φ := .f32)
      (Host.gather gather_S10000_S320000x1_S320000_n_0_n_n_0_1_1 (disOf (degTerm x1)) (wrapCol (srcWords x1))))
    (Host.gather gather_S10000_S320000x1_S320000_n_0_n_n_0_1_1 (disOf (degTerm x1)) (wrapCol (dstWords x1)))

/-- The per-edge weights as the first call finds them. -/
def normK (c : Dev nD) : S320000.Idx → EReal := W3 (F := Ideal) m ρ c (Proc.devRef .tc main_v29)

/-- They are the operations' composed term of the edge list. -/
theorem normK_eq (c : Dev nD) : normK m ρ c = normTerm (m ((c : Thread nD τ).loc main_arg1)) := by
  unfold normK
  show StableHlo.after hostOps0_2 (StableHlo.after hostOps0_1 (StableHlo.after hostOps0 _)) (Proc.devRef .tc main_v29) = _
  simp only [hostOps0, hostOps0_1, hostOps0_2]
  after_results_simp
  simp only [StableHlo.TRef.ofBuf, StableHlo.TRef.toBuf, cast_eq]
  rfl

/-- Every weight is a real number, whatever the edge list. -/
theorem normTerm_real (x1 : IVec S2x320000 32) (e : Fin 320000) : IsReal (normTerm x1 (ix1 e)) := by
  show IsReal (-(Host.gather gather_S10000_S320000x1_S320000_n_0_n_n_0_1_1 (disOf (degTerm x1)) (wrapCol (srcWords x1)) (ix1 e))
    * Host.gather gather_S10000_S320000x1_S320000_n_0_n_n_0_1_1 (disOf (degTerm x1)) (wrapCol (dstWords x1)) (ix1 e))
  exact isReal_mul (isReal_neg (isReal_gather _ _ (disOf_real _) _ _)) (isReal_gather _ _ (disOf_real _) _ _)

/-- The feature matrix as the first call finds it (narrowed to bf16: the identity at the ideal values). -/
theorem W3_v39 (c : Dev nD) :
    (W3 (F := Ideal) m ρ c (Proc.devRef .tc main_v39) : S10000x256.Idx → EReal) = m ((c : Thread nD τ).loc main_arg0) := by
  show StableHlo.after hostOps0_2 (StableHlo.after hostOps0_1 (StableHlo.after hostOps0 _)) (Proc.devRef .tc main_v39) = _
  simp only [hostOps0, hostOps0_1, hostOps0_2]
  after_results_simp
  rfl

/-- The first layer's weights as the calls find them. -/
theorem W3_v38 (c : Dev nD) :
    (W3 (F := Ideal) m ρ c (Proc.devRef .tc main_v38) : S3x256x256.Idx → EReal) = m ((c : Thread nD τ).loc main_arg2) := by
  show StableHlo.after hostOps0_2 (StableHlo.after hostOps0_1 (StableHlo.after hostOps0 _)) (Proc.devRef .tc main_v38) = _
  simp only [hostOps0, hostOps0_1, hostOps0_2]
  after_results_simp
  rfl

/-- The dense adjacency as the calls find it is the operations' composed term of the edge list and the weights. -/
theorem W3_v37_eq (c : Dev nD) :
    (W3 (F := Ideal) m ρ c (Proc.devRef .tc main_v37) : S10000x10000.Idx → EReal)
      = adjTerm (m ((c : Thread nD τ).loc main_arg1)) (normTerm (m ((c : Thread nD τ).loc main_arg1))) := by
  show StableHlo.after hostOps0_2 (StableHlo.after hostOps0_1 (StableHlo.after hostOps0 _)) (Proc.devRef .tc main_v37) = _
  simp only [hostOps0, hostOps0_1, hostOps0_2]
  after_results_simp
  simp only [StableHlo.TRef.ofBuf, StableHlo.TRef.toBuf, cast_eq]
  rfl

/-- The dense adjacency as the calls find it: entry `(i, j)` adds up the weights of the edges `j → i`. -/
theorem W3_adj (c : Dev nD) (hr : InRange (m ((c : Thread nD τ).loc main_arg1))) :
    toFn2 (W3 (F := Ideal) m ρ c (Proc.devRef .tc main_v37) : S10000x10000.Idx → EReal)
      = adj (nodeOf (m ((c : Thread nD τ).loc main_arg1)) 0) (nodeOf (m ((c : Thread nD τ).loc main_arg1)) 1)
          (toFn1 (normK m ρ c)) := by
  rw [W3_v37_eq m ρ c, normK_eq m ρ c]
  funext i j
  exact adjTerm_apply _ hr _ i j

end Cert.KernelIdeal.HandHost

end
-- ==== Proof.KRegion0.lean ====
/-
  The first propagation call of layer one, read as a value. The call runs over 25 row tiles of 400 rows: at tile `t`
  it fetches rows `400 t … 400 t + 399` of the dense adjacency (all 10000 columns) and the whole feature matrix,
  multiplies them into a zero accumulator, and writes the 400 × 256 product back to rows `400 t …` of both outputs
  (the second output is the first narrowed to bf16, which at the ideal values is the identity). The tiles cover the
  output, so after the call both output arrays hold the whole product `A · T`, entry `(i, d) = ∑ k, A (i, k) · T (k, d)`.
-/
import proofs.«420550_j3083786518792_3_alg».proof.Proof.Gen.KernelIdeal.Frame
import proofs.«420550_j3083786518792_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand0

open Cert.KernelIdeal Cert.KernelIdeal.Gen Cert.Cheb

open scoped BigOperators

/-! ## The product of two blocks at an entry -/

/-- Where the product at entry `i` reads its operands for the contraction index `q`: the adjacency tile at
    `(i 0, q)`, the features at `(q, i 1)`. One statement per operand and axis. -/
theorem lhs_axis0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem lhs_axis1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
theorem rhs_axis0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem rhs_axis1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- Entry `(p, q)` of the f32 payload: row `p` of the adjacency tile against column `q` of the features. -/
theorem pay1_apply (v0 : Vec Ideal S400x10000 .bf16) (v2 : Vec Ideal S10000x256 .bf16) (p : Fin 400) (q : Fin 256) :
    k0_pay1 v0 v2 (ix2 p q) = ∑ k : Fin 10000, v0 (ix2 p k) * v2 (ix2 k q) := by
  unfold k0_pay1
  rw [shapeCast_self, shapeCast_self]
  show FloatOps.matmul dot_S400x10000_S10000x256_S400x256_1_0_0_1_n_n none v0 v2 (constant (F := Ideal) S400x256 .f32 0x00000000#32) (ix2 p q) = _
  rw [Ideal.matmul_constant_zero_apply, ← Equiv.sum_comp (ValueIdx.contrEquiv1 dot_S400x10000_S10000x256_S400x256_1_0_0_1_n_n 10000 rfl rfl).symm]
  refine Finset.sum_congr rfl fun k _ => ?_
  have hk := ValueIdx.contrEquiv1_symm_val dot_S400x10000_S10000x256_S400x256_1_0_0_1_n_n 10000 rfl rfl k
  have el : dot_S400x10000_S10000x256_S400x256_1_0_0_1_n_n.lhsIdx (ix2 p q) ((ValueIdx.contrEquiv1 dot_S400x10000_S10000x256_S400x256_1_0_0_1_n_n 10000 rfl rfl).symm k) = ix2 p k := funext fun a => Fin.ext (by
    match a with
    | ⟨0, _⟩ => exact lhs_axis0 _ _
    | ⟨1, _⟩ => exact (lhs_axis1 _ _).trans hk)
  have er : dot_S400x10000_S10000x256_S400x256_1_0_0_1_n_n.rhsIdx (ix2 p q) ((ValueIdx.contrEquiv1 dot_S400x10000_S10000x256_S400x256_1_0_0_1_n_n 10000 rfl rfl).symm k) = ix2 k q := funext fun a => Fin.ext (by
    match a with
    | ⟨0, _⟩ => exact (rhs_axis0 _ _).trans hk
    | ⟨1, _⟩ => exact rhs_axis1 _ _)
  rw [el, er]

/-- The bf16 payload is the f32 one narrowed, which keeps the value. -/
theorem pay2_apply (v0 : Vec Ideal S400x10000 .bf16) (v2 : Vec Ideal S10000x256 .bf16) (p : Fin 400) (q : Fin 256) :
    k0_pay2 v0 v2 (ix2 p q) = ∑ k : Fin 10000, v0 (ix2 p k) * v2 (ix2 k q) := by
  unfold k0_pay2
  exact pay1_apply v0 v2 p q

variable (V : (c : Dev nD) → (b : Ref sig .tc) → Buf (Elt Ideal) ((c : Thread nD τ).loc b))

/-! ## From tiles to the array -/

theorem hz : (![0, 0] : Fin 2 → Nat) = fun _ => 0 := funext fun a => by fin_cases a <;> rfl

/-- The whole product: entry `(i, d)` is row `i` of the adjacency against column `d` of the features. -/
abbrev prodAT (A : S10000x10000.Idx → EReal) (T : S10000x256.Idx → EReal) : S10000x256.Idx → EReal :=
  ofFn2 (dmm (toFn2 A) (toFn2 T))

/-- Where the blocks sit: at tile `t` the adjacency and both outputs are at block row `t`, block column 0; the
    features are whole. -/
theorem tile_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the adjacency tile at `t` is row `400 t + p` of the adjacency. -/
theorem adj_tile (c : Dev nD) (t : Fin cfg0.N) (p : Fin 400) (k : Fin 10000) (i : Fin 10000) (hi : i.val = 400 * t.val + p.val) :
    (iblk0 V c 0 t : Vec Ideal S400x10000 .bf16) (ix2 p k) = (V c main_v37 : S10000x10000.Idx → EReal) (ix2 i k) := by
  obtain ⟨e0, e1, -⟩ := tile_index t
  unfold iblk0
  rw [View.read_apply]
  show V c main_v37 _ = V c main_v37 _
  congr 1
  funext a
  apply Fin.ext
  match a with
  | ⟨0, _⟩ => show win0_0.index t (0 : Fin 2) * 400 + 1 * p.val = i.val; omega
  | ⟨1, _⟩ => show win0_0.index t (1 : Fin 2) * 10000 + 1 * k.val = k.val; omega

/-- The feature block at every tile is the feature matrix. -/
theorem feat_whole (c : Dev nD) (t : Fin cfg0.N) (k : Fin 10000) (q : Fin 256) :
    (iblk0 V c 1 t : Vec Ideal S10000x256 .bf16) (ix2 k q) = (V c main_v39 : S10000x256.Idx → EReal) (ix2 k q) := by
  obtain ⟨-, -, e2, e3, -⟩ := tile_index t
  unfold iblk0
  rw [View.read_apply]
  show V c main_v39 _ = V c main_v39 _
  congr 1
  funext a
  apply Fin.ext
  match a with
  | ⟨0, _⟩ => show win0_1.index t (0 : Fin 2) * 10000 + 1 * k.val = k.val; omega
  | ⟨1, _⟩ => show win0_1.index t (1 : Fin 2) * 256 + 1 * q.val = q.val; omega

/-- The product of tile `t` with the features is rows `400 t …` of the whole product. -/
theorem tile_prod (c : Dev nD) (t : Fin cfg0.N) (x0 : Vec Ideal S400x10000 .bf16) (x1 : Vec Ideal S10000x256 .bf16)
    (hx0 : x0 = iblk0 V c 0 t) (hx1 : x1 = iblk0 V c 1 t) (p : Fin 400) (q : Fin 256) (i : S10000x256.Idx)
    (h0 : (i 0).val = 400 * t.val + p.val) (h1 : (i 1).val = q.val) :
    ∑ k : Fin 10000, x0 (ix2 p k) * x1 (ix2 k q) = prodAT (V c main_v37) (V c main_v39) i := by
  subst hx0 hx1
  show _ = dmm (toFn2 (V c main_v37 : S10000x10000.Idx → EReal)) (toFn2 (V c main_v39 : S10000x256.Idx → EReal)) ⟨(i 0).val, idx2_lt0 i⟩ ⟨(i 1).val, idx2_lt1 i⟩
  unfold dmm toFn2
  refine Finset.sum_congr rfl fun k _ => ?_
  rw [adj_tile V c t p k ⟨(i 0).val, idx2_lt0 i⟩ h0, feat_whole V c t k q]
  have hq : q = ⟨(i 1).val, idx2_lt1 i⟩ := Fin.ext h1.symm
  rw [← hq]

/-- What tile `t` writes back to the f32 output is block `t` of the whole product. -/
theorem flushed2_eq (c : Dev nD) (t : Fin cfg0.N) :
    (dat0 (F := Ideal) V c).flushed 2 t
      = ((cfg0.win 2).blk t).view.read (Elt Ideal) (prodAT (V c main_v37) (V c main_v39)) := by
  show (cfg0.win 2).cut (grid0.coords t) ((dat0 (F := Ideal) V c).after 2 t) = _
  rw [after0_2]
  unfold out0_2
  rw [View.canon_unit_zero hz]
  simp only [View.ld_unit_zero (S := S400x10000) hz, View.ld_unit_zero (S := S10000x256) hz]
  obtain ⟨-, -, -, -, e4, e5, -⟩ := tile_index t
  funext j
  obtain ⟨p, q, rfl⟩ : ∃ (p : Fin 400) (q : Fin 256), j = ix2 p q := ⟨j 0, j 1, eq_ix2 j⟩
  show k0_pay1 (iblk0 V c 0 t) (iblk0 V c 1 t) (ix2 p q) = prodAT (V c main_v37) (V c main_v39) (((cfg0.win 2).blk t).view.emb (ix2 p q))
  rw [pay1_apply]
  refine tile_prod V c t _ _ rfl rfl p q _ ?_ ?_
  · show win0_2.index t (0 : Fin 2) * 400 + 1 * p.val = _; omega
  · show win0_2.index t (1 : Fin 2) * 256 + 1 * q.val = _; omega

/-- What tile `t` writes back to the bf16 output is the same block. -/
theorem flushed3_eq (c : Dev nD) (t : Fin cfg0.N) :
    (dat0 (F := Ideal) V c).flushed 3 t
      = ((cfg0.win 3).blk t).view.read (Elt Ideal) (prodAT (V c main_v37) (V c main_v39)) := by
  show (cfg0.win 3).cut (grid0.coords t) ((dat0 (F := Ideal) V c).after 3 t) = _
  rw [after0_3]
  unfold out0_3
  rw [View.canon_unit_zero hz]
  simp only [View.ld_unit_zero (S := S400x10000) hz, View.ld_unit_zero (S := S10000x256) hz]
  obtain ⟨-, -, -, -, -, -, e6, e7⟩ := tile_index t
  funext j
  obtain ⟨p, q, rfl⟩ : ∃ (p : Fin 400) (q : Fin 256), j = ix2 p q := ⟨j 0, j 1, eq_ix2 j⟩
  show k0_pay2 (iblk0 V c 0 t) (iblk0 V c 1 t) (ix2 p q) = prodAT (V c main_v37) (V c main_v39) (((cfg0.win 3).blk t).view.emb (ix2 p q))
  rw [pay2_apply]
  refine tile_prod V c t _ _ rfl rfl p q _ ?_ ?_
  · show win0_3.index t (0 : Fin 2) * 400 + 1 * p.val = _; omega
  · show win0_3.index t (1 : Fin 2) * 256 + 1 * q.val = _; omega

/-- An entry is in tile `t`'s block of the f32 output iff each coordinate is in the block's range. -/
theorem mem_blk2 (t : Fin cfg0.N) (i : S10000x256.Idx) :
    i ∈ ((cfg0.win 2).blk t).view.set ↔ ∀ a : Fin 2, win0_2.index t a * S400x256.size a ≤ (i a).val ∧ (i a).val < win0_2.index t a * S400x256.size a + S400x256.size a := by
  show i ∈ ((View.whole main_v40_0).slice (win0_2.rect t)).set ↔ _
  rw [View.set_slice_whole, Rect.mem_set_unit]
  exact Iff.rfl

/-- The same for the bf16 output. -/
theorem mem_blk3 (t : Fin cfg0.N) (i : S10000x256.Idx) :
    i ∈ ((cfg0.win 3).blk t).view.set ↔ ∀ a : Fin 2, win0_3.index t a * S400x256.size a ≤ (i a).val ∧ (i a).val < win0_3.index t a * S400x256.size a + S400x256.size a := by
  show i ∈ ((View.whole main_v40_1).slice (win0_3.rect t)).set ↔ _
  rw [View.set_slice_whole, Rect.mem_set_unit]
  exact Iff.rfl

/-- Row `r` lies in tile `r / 400`, and every tile is written back: the tiles cover the f32 output. -/
theorem cover2 (i : S10000x256.Idx) :
    ∃ t : Fin cfg0.N, (cfg0.win 2).flush t = true ∧ i ∈ ((cfg0.win 2).blk t).view.set := by
  have hN : cfg0.N = 25 := N_0
  have hi0 : (i 0).val < 10000 := idx2_lt0 i
  have hi1 : (i 1).val < 256 := idx2_lt1 i
  obtain ⟨t, ht⟩ : ∃ t : Fin cfg0.N, t.val = (i 0).val / 400 := ⟨⟨(i 0).val / 400, by rw [hN]; omega⟩, rfl⟩
  obtain ⟨-, -, -, -, e4, e5, -⟩ := tile_index t
  refine ⟨t, flush0_2 t, ?_⟩
  rw [mem_blk2]
  intro a
  match a with
  | ⟨0, _⟩ => show win0_2.index t (0 : Fin 2) * 400 ≤ (i 0).val ∧ (i 0).val < win0_2.index t (0 : Fin 2) * 400 + 400; omega
  | ⟨1, _⟩ => show win0_2.index t (1 : Fin 2) * 256 ≤ (i 1).val ∧ (i 1).val < win0_2.index t (1 : Fin 2) * 256 + 256; omega

/-- And the bf16 output. -/
theorem cover3 (i : S10000x256.Idx) :
    ∃ t : Fin cfg0.N, (cfg0.win 3).flush t = true ∧ i ∈ ((cfg0.win 3).blk t).view.set := by
  have hN : cfg0.N = 25 := N_0
  have hi0 : (i 0).val < 10000 := idx2_lt0 i
  have hi1 : (i 1).val < 256 := idx2_lt1 i
  obtain ⟨t, ht⟩ : ∃ t : Fin cfg0.N, t.val = (i 0).val / 400 := ⟨⟨(i 0).val / 400, by rw [hN]; omega⟩, rfl⟩
  obtain ⟨-, -, -, -, -, -, e6, e7⟩ := tile_index t
  refine ⟨t, flush0_3 t, ?_⟩
  rw [mem_blk3]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 256 ≤ (i 1).val ∧ (i 1).val < win0_3.index t (1 : Fin 2) * 256 + 256; omega

/-- After the call the f32 output holds the adjacency times the features. -/
theorem prop0_f32 (c : Dev nD) :
    (dat0 (F := Ideal) V c).arrAt 2 cfg0.N
      = (ofFn2 (dmm (toFn2 (V c main_v37 : S10000x10000.Idx → EReal)) (toFn2 (V c main_v39 : S10000x256.Idx → EReal))) : S10000x256.Idx → EReal) :=
  (dat0 (F := Ideal) V c).arrAt_eq_of_cover 2 (prodAT (V c main_v37) (V c main_v39)) (fun t _ => flushed2_eq V c t) cover2

/-- So does the bf16 output. -/
theorem prop0_bf16 (c : Dev nD) :
    (dat0 (F := Ideal) V c).arrAt 3 cfg0.N
      = (ofFn2 (dmm (toFn2 (V c main_v37 : S10000x10000.Idx → EReal)) (toFn2 (V c main_v39 : S10000x256.Idx → EReal))) : S10000x256.Idx → EReal) :=
  (dat0 (F := Ideal) V c).arrAt_eq_of_cover 3 (prodAT (V c main_v37) (V c main_v39)) (fun t _ => flushed3_eq V c t) cover3

end Cert.KernelIdeal.Hand0

end
-- ==== Proof.KRegion1.lean ====
/-
  The second propagation call of layer one, read as a value. The call runs over 25 row tiles of 400 rows. At tile `t`
  it holds rows `400 t … 400 t + 399` of the dense adjacency `A` (all 10000 columns), the whole (bf16) first
  Chebyshev term `T₁`, and rows `400 t …` of the layer's f32 input `X`; it multiplies the adjacency tile with `T₁`
  into a zero accumulator, doubles the product, subtracts the input tile, and writes the 400 × 256 result back to rows
  `400 t …` of both outputs (the second is the first narrowed to bf16, the identity on the ideal values). Entry
  `(p, q)` of the tile's result is `2 · ∑ k, A (400 t + p, k) · T₁ (k, q) − X (400 t + p, q)`, which is entry
  `(400 t + p, q)` of `2 · (A · T₁) − X`; the 25 tiles cover the 10000 rows, so after the call both output arrays hold
  `2 · (A · T₁) − X` entry by entry.
-/
import proofs.«420550_j3083786518792_3_alg».proof.Proof.Gen.KernelIdeal.Frame
import proofs.«420550_j3083786518792_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand1

open Cert.KernelIdeal Cert.KernelIdeal.Gen Cert.Cheb

/-! ## The product inside the body, entry by entry -/

/-- The zero offsets of a whole-buffer access, however they are spelt. -/
theorem hz : (![0, 0] : Fin 2 → Nat) = fun _ => 0 := funext fun a => by fin_cases a <;> rfl

/-- The left operand of the tile product is read at the output's row … -/
theorem lhs_axis0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
/-- … and at the summation index along its columns. -/
theorem lhs_axis1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
/-- The right operand is read at the summation index along its rows … -/
theorem rhs_axis0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
/-- … and at the output's column. -/
theorem rhs_axis1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The tile product into a zero accumulator: entry `(p, q)` is the sum over the 10000 columns `k` of the
    adjacency tile's `(p, k)` times the features' `(k, q)`. -/
theorem tile_product_at (x : FVec Ideal S400x10000 .bf16) (y : FVec Ideal S10000x256 .bf16) (p : Fin 400) (q : Fin 256) :
    FloatOps.matmul dot_S400x10000_S10000x256_S400x256_1_0_0_1_n_n none x y (constant (F := Ideal) S400x256 .f32 0x00000000#32) (ix2 p q)
      = ∑ k : Fin 10000, x (ix2 p k) * y (ix2 k q) := by
  rw [Ideal.matmul_constant_zero_apply, ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p q) ((contrEquiv1 dot_S400x10000_S10000x256_S400x256_1_0_0_1_n_n 10000 rfl rfl).symm k) = ix2 p k := funext fun a => Fin.ext (by
    match a with
    | ⟨0, _⟩ => exact lhs_axis0 _ _
    | ⟨1, _⟩ => exact (lhs_axis1 _ _).trans hk)
  have er : dot_S400x10000_S10000x256_S400x256_1_0_0_1_n_n.rhsIdx (ix2 p q) ((contrEquiv1 dot_S400x10000_S10000x256_S400x256_1_0_0_1_n_n 10000 rfl rfl).symm k) = ix2 k q := funext fun a => Fin.ext (by
    match a with
    | ⟨0, _⟩ => exact (rhs_axis0 _ _).trans hk
    | ⟨1, _⟩ => exact rhs_axis1 _ _)
  rw [el, er]

/-- What the body stores to the f32 output, entry by entry: twice the tile product less the input tile. -/
theorem pay_f32_at (v0 : Vec Ideal S400x10000 .bf16) (v2 : Vec Ideal S10000x256 .bf16) (v7 : Vec Ideal S400x256 .f32)
    (p : Fin 400) (q : Fin 256) :
    k1_pay1 (F := Ideal) v0 v2 v7 (ix2 p q)
      = Ideal.ofBits .f32 0x40000000#32 * (∑ k : Fin 10000, v0 (ix2 p k) * v2 (ix2 k q)) - v7 (ix2 p q) := by
  unfold k1_pay1
  simp only [shapeCast_self]
  exact congrArg (fun s => Ideal.ofBits .f32 0x40000000#32 * s - v7 (ix2 p q)) (tile_product_at v0 v2 p q)

/-- The bf16 output's store is the same value: narrowing is the identity on the ideal values. -/
theorem pay_bf16_at (v0 : Vec Ideal S400x10000 .bf16) (v2 : Vec Ideal S10000x256 .bf16) (v7 : Vec Ideal S400x256 .f32)
    (p : Fin 400) (q : Fin 256) :
    k1_pay2 (F := Ideal) v0 v2 v7 (ix2 p q)
      = Ideal.ofBits .f32 0x40000000#32 * (∑ k : Fin 10000, v0 (ix2 p k) * v2 (ix2 k q)) - v7 (ix2 p q) :=
  pay_f32_at v0 v2 v7 p q

/-- One entry of a tile's result is one entry of `2 · (A · T₁) − X`: when row `p` of the adjacency tile is row `r` of
    `A`, the features are `T₁`, and entry `(p, q)` of the input tile is entry `(r, q)` of `X`. -/
theorem entry_eq (A : S10000x10000.Idx → EReal) (T X : S10000x256.Idx → EReal)
    (v0 : Vec Ideal S400x10000 .bf16) (v2 : Vec Ideal S10000x256 .bf16) (v7 : Vec Ideal S400x256 .f32)
    (r : Fin 10000) (p : Fin 400) (q : Fin 256)
    (h0 : ∀ k : Fin 10000, v0 (ix2 p k) = A (ix2 r k))
    (h2 : ∀ k : Fin 10000, v2 (ix2 k q) = T (ix2 k q))
    (h7 : v7 (ix2 p q) = X (ix2 r q)) :
    k1_pay1 (F := Ideal) v0 v2 v7 (ix2 p q)
      = (ofFn2 (comb (Ideal.ofBits .f32 0x40000000#32) (dmm (toFn2 A) (toFn2 T)) (toFn2 X)) : S10000x256.Idx → EReal) (ix2 r q) := by
  rw [pay_f32_at, ofFn2_apply]
  unfold comb dmm toFn2
  rw [h7, Finset.sum_congr rfl (fun k _ => by rw [h0 k, h2 k])]

/-! ## The tiles of the three inputs, and of the outputs -/

/-- The block indices over the 25 grid points: the adjacency, the input and both outputs are at row tile `t`, the
    features are whole. -/
theorem idx_facts : ∀ t : Fin cfg1.N, t.val < 25
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row `p` of the adjacency tile at point `t` is row `400 t + p` of the adjacency. -/
theorem adj_tile_at (c : Dev nD) (t : Fin cfg1.N) (p : Fin 400) (k : Fin 10000) (r : Fin 10000)
    (hr : r.val = 400 * t.val + p.val) :
    (iblk1 (F := Ideal) V c 0 t : Vec Ideal S400x10000 .bf16) (ix2 p k) = (V c main_v37 : S10000x10000.Idx → EReal) (ix2 r k) := by
  obtain ⟨-, e0, e1, -⟩ := idx_facts t
  unfold iblk1
  show (V c main_v37 : S10000x10000.Idx → EReal) (((cfg1.win 0).blk t).view.emb (ix2 p k)) = _
  refine congrArg (V c main_v37 : S10000x10000.Idx → EReal) (funext fun a => Fin.ext ?_)
  match a with
  | ⟨0, _⟩ => show win1_0.index t (0 : Fin 2) * 400 + 1 * p.val = r.val; omega
  | ⟨1, _⟩ => show win1_0.index t (1 : Fin 2) * 10000 + 1 * k.val = k.val; omega

/-- The features' block at every point is the whole array. -/
theorem feat_at (c : Dev nD) (t : Fin cfg1.N) (k : Fin 10000) (q : Fin 256) :
    (iblk1 (F := Ideal) V c 1 t : Vec Ideal S10000x256 .bf16) (ix2 k q) = (V c main_v40_1 : S10000x256.Idx → EReal) (ix2 k q) := by
  obtain ⟨-, -, -, e0, e1, -⟩ := idx_facts t
  unfold iblk1
  show (V c main_v40_1 : S10000x256.Idx → EReal) (((cfg1.win 1).blk t).view.emb (ix2 k q)) = _
  refine congrArg (V c main_v40_1 : S10000x256.Idx → EReal) (funext fun a => Fin.ext ?_)
  match a with
  | ⟨0, _⟩ => show win1_1.index t (0 : Fin 2) * 10000 + 1 * k.val = k.val; omega
  | ⟨1, _⟩ => show win1_1.index t (1 : Fin 2) * 256 + 1 * q.val = q.val; omega

/-- Row `p` of the input tile at point `t` is row `400 t + p` of the layer's input. -/
theorem inp_tile_at (c : Dev nD) (t : Fin cfg1.N) (p : Fin 400) (q : Fin 256) (r : Fin 10000)
    (hr : r.val = 400 * t.val + p.val) :
    (iblk1 (F := Ideal) V c 2 t : Vec Ideal S400x256 .f32) (ix2 p q) = (V c main_arg0 : S10000x256.Idx → EReal) (ix2 r q) := by
  obtain ⟨-, -, -, -, -, e0, e1, -⟩ := idx_facts t
  unfold iblk1
  show (V c main_arg0 : S10000x256.Idx → EReal) (((cfg1.win 2).blk t).view.emb (ix2 p q)) = _
  refine congrArg (V c main_arg0 : S10000x256.Idx → EReal) (funext fun a => Fin.ext ?_)
  match a with
  | ⟨0, _⟩ => show win1_2.index t (0 : Fin 2) * 400 + 1 * p.val = r.val; omega
  | ⟨1, _⟩ => show win1_2.index t (1 : Fin 2) * 256 + 1 * q.val = q.val; omega

/-- The array both outputs end holding: `2 · (A · T₁) − X`. -/
abbrev target (c : Dev nD) : S10000x256.Idx → EReal :=
  ofFn2 (comb (Ideal.ofBits .f32 0x40000000#32)
    (dmm (toFn2 (V c main_v37 : S10000x10000.Idx → EReal)) (toFn2 (V c main_v40_1 : S10000x256.Idx → EReal)))
    (toFn2 (V c main_arg0 : S10000x256.Idx → EReal)))

/-! ## The f32 output -/

/-- What point `t` writes back to the f32 output is rows `400 t …` of `2 · (A · T₁) − X`. -/
theorem flushed_f32 (c : Dev nD) (t : Fin cfg1.N) :
    (dat1 (F := Ideal) V c).flushed 3 t = ((cfg1.win 3).blk t).view.read (Elt Ideal) (target V c) := by
  show (cfg1.win 3).cut (grid1.coords t) ((dat1 (F := Ideal) V c).after 3 t) = _
  rw [after1_3]
  unfold out1_3
  rw [View.canon_unit_zero hz]
  simp only [View.ld_unit_zero (S := S400x10000) hz, View.ld_unit_zero (S := S10000x256) hz, View.ld_unit_zero (S := S400x256) hz]
  obtain ⟨hN, -, -, -, -, -, -, e0, e1, -⟩ := idx_facts t
  funext j
  have hj0 : (j 0).val < 400 := (j 0).isLt
  have hj1 : (j 1).val < 256 := (j 1).isLt
  have hx : (cfg1.win 3).xinj (grid1.coords t) j = ix2 (⟨(j 0).val, hj0⟩ : Fin 400) (⟨(j 1).val, hj1⟩ : Fin 256) :=
    funext fun a => by match a with | ⟨0, _⟩ => rfl | ⟨1, _⟩ => rfl
  have he : ((cfg1.win 3).blk t).view.emb j = ix2 (⟨400 * t.val + (j 0).val, by omega⟩ : Fin 10000) (⟨(j 1).val, hj1⟩ : Fin 256) :=
    funext fun a => Fin.ext (by
      match a with
      | ⟨0, _⟩ => show win1_3.index t (0 : Fin 2) * 400 + 1 * (j 0).val = 400 * t.val + (j 0).val; omega
      | ⟨1, _⟩ => show win1_3.index t (1 : Fin 2) * 256 + 1 * (j 1).val = (j 1).val; omega)
  show k1_pay1 (F := Ideal) (iblk1 V c 0 t) (iblk1 V c 1 t) (iblk1 V c 2 t) ((cfg1.win 3).xinj (grid1.coords t) j)
    = target V c (((cfg1.win 3).blk t).view.emb j)
  rw [hx, he]
  exact entry_eq (V c main_v37) (V c main_v40_1) (V c main_arg0) (iblk1 V c 0 t) (iblk1 V c 1 t) (iblk1 V c 2 t)
    ⟨400 * t.val + (j 0).val, by omega⟩ ⟨(j 0).val, hj0⟩ ⟨(j 1).val, hj1⟩
    (fun k => adj_tile_at V c t ⟨(j 0).val, hj0⟩ k ⟨400 * t.val + (j 0).val, by omega⟩ rfl)
    (fun k => feat_at V c t k ⟨(j 1).val, hj1⟩)
    (inp_tile_at V c t ⟨(j 0).val, hj0⟩ ⟨(j 1).val, hj1⟩ ⟨400 * t.val + (j 0).val, by omega⟩ rfl)

/-- An index of the f32 output is in point `t`'s tile iff each coordinate is in the tile's range on its axis. -/
theorem mem_tile_f32 (t : Fin cfg1.N) (i : S10000x256.Idx) :
    i ∈ ((cfg1.win 3).blk t).view.set ↔ ∀ a : Fin 2, win1_3.index t a * S400x256.size a ≤ (i a).val ∧ (i a).val < win1_3.index t a * S400x256.size a + S400x256.size a := by
  show i ∈ ((View.whole main_v41_0).slice (win1_3.rect t)).set ↔ _
  rw [View.set_slice_whole, Rect.mem_set_unit]
  exact Iff.rfl

/-- Row `r` of the f32 output is written back by point `r / 400`. -/
theorem cover_f32 (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 25 := N_1
  obtain ⟨t, ht⟩ : ∃ t : Fin cfg1.N, t.val = (i 0).val / 400 := ⟨⟨(i 0).val / 400, by omega⟩, rfl⟩
  obtain ⟨-, -, -, -, -, -, -, e0, e1, -⟩ := idx_facts t
  refine ⟨t, flush1_3 t, ?_⟩
  rw [mem_tile_f32]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 256 ≤ (i 1).val ∧ (i 1).val < win1_3.index t (1 : Fin 2) * 256 + 256; omega

/-- After the call the f32 output holds twice the propagated term less the layer's input. -/
theorem comb1_f32 (c : Dev nD) :
    (dat1 (F := Ideal) V c).arrAt 3 cfg1.N
      = (ofFn2 (comb (Ideal.ofBits .f32 0x40000000#32)
          (dmm (toFn2 (V c main_v37 : S10000x10000.Idx → EReal)) (toFn2 (V c main_v40_1 : S10000x256.Idx → EReal)))
          (toFn2 (V c main_arg0 : S10000x256.Idx → EReal))) : S10000x256.Idx → EReal) :=
  (dat1 (F := Ideal) V c).arrAt_eq_of_cover 3 (target V c) (fun t _ => flushed_f32 V c t) cover_f32

/-! ## The bf16 output -/

/-- What point `t` writes back to the bf16 output is the same rows of the same array. -/
theorem flushed_bf16 (c : Dev nD) (t : Fin cfg1.N) :
    (dat1 (F := Ideal) V c).flushed 4 t = ((cfg1.win 4).blk t).view.read (Elt Ideal) (target V c) := by
  show (cfg1.win 4).cut (grid1.coords t) ((dat1 (F := Ideal) V c).after 4 t) = _
  rw [after1_4]
  unfold out1_4
  rw [View.canon_unit_zero hz]
  simp only [View.ld_unit_zero (S := S400x10000) hz, View.ld_unit_zero (S := S10000x256) hz, View.ld_unit_zero (S := S400x256) hz]
  obtain ⟨hN, -, -, -, -, -, -, -, -, e0, e1⟩ := idx_facts t
  funext j
  have hj0 : (j 0).val < 400 := (j 0).isLt
  have hj1 : (j 1).val < 256 := (j 1).isLt
  have hx : (cfg1.win 4).xinj (grid1.coords t) j = ix2 (⟨(j 0).val, hj0⟩ : Fin 400) (⟨(j 1).val, hj1⟩ : Fin 256) :=
    funext fun a => by match a with | ⟨0, _⟩ => rfl | ⟨1, _⟩ => rfl
  have he : ((cfg1.win 4).blk t).view.emb j = ix2 (⟨400 * t.val + (j 0).val, by omega⟩ : Fin 10000) (⟨(j 1).val, hj1⟩ : Fin 256) :=
    funext fun a => Fin.ext (by
      match a with
      | ⟨0, _⟩ => show win1_4.index t (0 : Fin 2) * 400 + 1 * (j 0).val = 400 * t.val + (j 0).val; omega
      | ⟨1, _⟩ => show win1_4.index t (1 : Fin 2) * 256 + 1 * (j 1).val = (j 1).val; omega)
  show k1_pay2 (F := Ideal) (iblk1 V c 0 t) (iblk1 V c 1 t) (iblk1 V c 2 t) ((cfg1.win 4).xinj (grid1.coords t) j)
    = target V c (((cfg1.win 4).blk t).view.emb j)
  rw [hx, he]
  exact entry_eq (V c main_v37) (V c main_v40_1) (V c main_arg0) (iblk1 V c 0 t) (iblk1 V c 1 t) (iblk1 V c 2 t)
    ⟨400 * t.val + (j 0).val, by omega⟩ ⟨(j 0).val, hj0⟩ ⟨(j 1).val, hj1⟩
    (fun k => adj_tile_at V c t ⟨(j 0).val, hj0⟩ k ⟨400 * t.val + (j 0).val, by omega⟩ rfl)
    (fun k => feat_at V c t k ⟨(j 1).val, hj1⟩)
    (inp_tile_at V c t ⟨(j 0).val, hj0⟩ ⟨(j 1).val, hj1⟩ ⟨400 * t.val + (j 0).val, by omega⟩ rfl)

/-- An index of the bf16 output is in point `t`'s tile iff each coordinate is in the tile's range on its axis. -/
theorem mem_tile_bf16 (t : Fin cfg1.N) (i : S10000x256.Idx) :
    i ∈ ((cfg1.win 4).blk t).view.set ↔ ∀ a : Fin 2, win1_4.index t a * S400x256.size a ≤ (i a).val ∧ (i a).val < win1_4.index t a * S400x256.size a + S400x256.size a := by
  show i ∈ ((View.whole main_v41_1).slice (win1_4.rect t)).set ↔ _
  rw [View.set_slice_whole, Rect.mem_set_unit]
  exact Iff.rfl

/-- Row `r` of the bf16 output is written back by point `r / 400`. -/
theorem cover_bf16 (i : S10000x256.Idx) :
    ∃ t : Fin cfg1.N, (cfg1.win 4).flush t = true ∧ i ∈ ((cfg1.win 4).blk t).view.set := by
  have hi0 : (i 0).val < 10000 := (i 0).isLt
  have hi1 : (i 1).val < 256 := (i 1).isLt
  have hN : cfg1.N = 25 := N_1
  obtain ⟨t, ht⟩ : ∃ t : Fin cfg1.N, t.val = (i 0).val / 400 := ⟨⟨(i 0).val / 400, by omega⟩, rfl⟩
  obtain ⟨-, -, -, -, -, -, -, -, -, e0, e1⟩ := idx_facts t
  refine ⟨t, flush1_4 t, ?_⟩
  rw [mem_tile_bf16]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 256 ≤ (i 1).val ∧ (i 1).val < win1_4.index t (1 : Fin 2) * 256 + 256; omega

/-- So does the bf16 output. -/
theorem comb1_bf16 (c : Dev nD) :
    (dat1 (F := Ideal) V c).arrAt 4 cfg1.N
      = (ofFn2 (comb (Ideal.ofBits .f32 0x40000000#32)
          (dmm (toFn2 (V c main_v37 : S10000x10000.Idx → EReal)) (toFn2 (V c main_v40_1 : S10000x256.Idx → EReal)))
          (toFn2 (V c main_arg0 : S10000x256.Idx → EReal))) : S10000x256.Idx → EReal) :=
  (dat1 (F := Ideal) V c).arrAt_eq_of_cover 4 (target V c) (fun t _ => flushed_bf16 V c t) cover_bf16

end Cert.KernelIdeal.Hand1

end
-- ==== Proof.KRegion2.lean ====
/-
  The projection call of layer one, read as a value. Over 25 row tiles of 400 rows it multiplies the matching tile of
  each of the three Chebyshev terms with its 256 × 256 weight slice (each product into a zero accumulator), adds the
  three products in order, adds the bias row broadcast down the tile, and takes the maximum with zero. After the call
  the output array holds `max (T₀·W₀ + T₁·W₁ + T₂·W₂ + b) 0` entry by entry.
-/
import proofs.«420550_j3083786518792_3_alg».proof.Proof.Gen.KernelIdeal.Frame
import proofs.«420550_j3083786518792_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Hand2

open Cert.KernelIdeal Cert.KernelIdeal.Gen Cert.Cheb

variable (V : (c : Dev nD) → (b : Ref sig .tc) → Buf (Elt Ideal) ((c : Thread nD τ).loc b))

/-! ## One product at an index

The body multiplies a 400 × 256 tile by a 256 × 256 weight slice into an accumulator of zeros. Its dimension numbers
contract the tile's columns against the slice's rows, so entry (p, q) of the product is the sum over k of
tile (p, k) · slice (k, q). The four facts below say, axis by axis, which operand entry the product reads. -/

theorem lhs_axis0 (i : S400x256.Idx) (s : dot_S400x256_S256x256_S400x256_1_0_0_1_n_n.contr.Idx) :
    (dot_S400x256_S256x256_S400x256_1_0_0_1_n_n.lhsIdx i s 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem lhs_axis1 (i : S400x256.Idx) (s : dot_S400x256_S256x256_S400x256_1_0_0_1_n_n.contr.Idx) :
    (dot_S400x256_S256x256_S400x256_1_0_0_1_n_n.lhsIdx i s 1).val = (s ⟨0, by decide⟩).val :=
  dot_S400x256_S256x256_S400x256_1_0_0_1_n_n.lhsIdx_val_of_single rfl i s
theorem rhs_axis0 (i : S400x256.Idx) (s : dot_S400x256_S256x256_S400x256_1_0_0_1_n_n.contr.Idx) :
    (dot_S400x256_S256x256_S400x256_1_0_0_1_n_n.rhsIdx i s 0).val = (s ⟨0, by decide⟩).val :=
  dot_S400x256_S256x256_S400x256_1_0_0_1_n_n.rhsIdx_val_of_single rfl i s
theorem rhs_axis1 (i : S400x256.Idx) (s : dot_S400x256_S256x256_S400x256_1_0_0_1_n_n.contr.Idx) :
    (dot_S400x256_S256x256_S400x256_1_0_0_1_n_n.rhsIdx i s 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- A tile times a weight slice, into zeros, at entry (p, q): row p of the tile against column q of the slice. -/
theorem tile_mul_slice_apply (x : FVec Ideal S400x256 .bf16) (w : FVec Ideal S256x256 .bf16) (p : Fin 400) (q : Fin 256) :
    matmul (F := Ideal) dot_S400x256_S256x256_S400x256_1_0_0_1_n_n none x w (constant (F := Ideal) S400x256 .f32 0x00000000#32) (ix2 p q)
      = ∑ k : Fin 256, x (ix2 p k) * w (ix2 k q) := by
  refine (Ideal.matmul_constant_zero_apply dot_S400x256_S256x256_S400x256_1_0_0_1_n_n none x w (ix2 p q)).trans ?_
  rw [← Equiv.sum_comp (contrEquiv1 dot_S400x256_S256x256_S400x256_1_0_0_1_n_n 256 rfl rfl).symm]
  refine Finset.sum_congr rfl fun k _ => ?_
  have hk := contrEquiv1_symm_val dot_S400x256_S256x256_S400x256_1_0_0_1_n_n 256 rfl rfl k
  have el : dot_S400x256_S256x256_S400x256_1_0_0_1_n_n.lhsIdx (ix2 p q) ((contrEquiv1 dot_S400x256_S256x256_S400x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S400x256_S256x256_S400x256_1_0_0_1_n_n.rhsIdx (ix2 p q) ((contrEquiv1 dot_S400x256_S256x256_S400x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The body's arithmetic at an index

Three tiles, three weight slices (each a 1 × 256 × 256 cut of the weights, read as 256 × 256 by dropping the unit
axis), one bias row. Entry (p, q) of what the body stores is the three products at (p, q) added in order, plus the
bias at q (the row broadcast down the tile), cut off below at zero. -/

theorem body_apply (v0 : Vec Ideal S400x256 .bf16) (v2 : Vec Ideal S1x256x256 .bf16) (v5 : Vec Ideal S400x256 .bf16)
    (v7 : Vec Ideal S1x256x256 .bf16) (v11 : Vec Ideal S400x256 .bf16) (v13 : Vec Ideal S1x256x256 .bf16)
    (v17 : Vec Ideal S1x256 .f32) (p : Fin 400) (q : Fin 256) :
    k2_pay1 (F := Ideal) v0 v2 v5 v7 v11 v13 v17 (ix2 p q)
      = max ((((∑ k : Fin 256, v0 (ix2 p k) * v2 (ix3 (0 : Fin 1) k q)) + (∑ k : Fin 256, v5 (ix2 p k) * v7 (ix3 (0 : Fin 1) k q)))
            + (∑ k : Fin 256, v11 (ix2 p k) * v13 (ix3 (0 : Fin 1) k q))) + v17 (ix2 (0 : Fin 1) q))
          (Ideal.ofBits .f32 0x00000000#32) := by
  unfold k2_pay1
  simp only [maximumf_apply, addf_apply, broadcast_apply, shapeCast_self, tile_mul_slice_apply, shapeCast_1ab_ab_apply,
    broadcastTo_1b_ab_apply]
  rfl

/-! ## The value the call leaves, as one function of the five arrays

Entry (r, o): the three Chebyshev terms' rows r against column o of their weight slices, added in order, plus the
bias at o, cut off below at zero. -/

abbrev projRelu (a0 a1 a2 : S10000x256.Idx → EReal) (W : S3x256x256.Idx → EReal) (b : S1x256.Idx → EReal) :
    S10000x256.Idx → EReal :=
  ofFn2 (fun i o => max (proj (toFn2 a0) (toFn2 a1) (toFn2 a2) (toFn3 W) (fun o => b (ix2 0 o)) i o)
    (Ideal.ofBits .f32 0x00000000#32))

theorem projRelu_apply (a0 a1 a2 : S10000x256.Idx → EReal) (W : S3x256x256.Idx → EReal) (b : S1x256.Idx → EReal)
    (r : Fin 10000) (q : Fin 256) :
    projRelu a0 a1 a2 W b (ix2 r q)
      = max ((((∑ k : Fin 256, a0 (ix2 r k) * W (ix3 (0 : Fin 3) k q)) + (∑ k : Fin 256, a1 (ix2 r k) * W (ix3 (1 : Fin 3) k q)))
            + (∑ k : Fin 256, a2 (ix2 r k) * W (ix3 (2 : Fin 3) k q))) + b (ix2 (0 : Fin 1) q))
          (Ideal.ofBits .f32 0x00000000#32) := rfl

/-! ## The weight slices the body loads

The body reads the staged weights through three rectangles of one 256 × 256 slice each, at offsets 0, 1, 2 on the first
axis: entry (0, k, q) of the j-th load is entry (j, k, q) of the weights. -/

theorem slice0_apply (x3 : Vec Ideal S3x256x256 .bf16) (k q : Fin 256) :
    View.ld x3 r2_1 (ix3 (0 : Fin 1) k q) = x3 (ix3 (0 : Fin 3) k q) :=
  congrArg x3 (funext fun a => Fin.ext (by
    match a with
    | ⟨0, _⟩ => rfl
    | ⟨1, _⟩ => show 0 + 1 * k.val = k.val; omega
    | ⟨2, _⟩ => show 0 + 1 * q.val = q.val; omega))
theorem slice1_apply (x3 : Vec Ideal S3x256x256 .bf16) (k q : Fin 256) :
    View.ld x3 r2_2 (ix3 (0 : Fin 1) k q) = x3 (ix3 (1 : Fin 3) k q) :=
  congrArg x3 (funext fun a => Fin.ext (by
    match a with
    | ⟨0, _⟩ => rfl
    | ⟨1, _⟩ => show 0 + 1 * k.val = k.val; omega
    | ⟨2, _⟩ => show 0 + 1 * q.val = q.val; omega))
theorem slice2_apply (x3 : Vec Ideal S3x256x256 .bf16) (k q : Fin 256) :
    View.ld x3 r2_3 (ix3 (0 : Fin 1) k q) = x3 (ix3 (2 : Fin 3) k q) :=
  congrArg x3 (funext fun a => Fin.ext (by
    match a with
    | ⟨0, _⟩ => rfl
    | ⟨1, _⟩ => show 0 + 1 * k.val = k.val; omega
    | ⟨2, _⟩ => show 0 + 1 * q.val = q.val; omega))

/-- One entry of what the body stores, when row p of each tile is row r of its array and the staged weights and bias
    are the arrays themselves: the value at (r, q). -/
theorem point_eq (a0 a1 a2 : S10000x256.Idx → EReal) (W : S3x256x256.Idx → EReal) (b : S1x256.Idx → EReal)
    (x0 x1 x2 : Vec Ideal S400x256 .bf16) (x3 : Vec Ideal S3x256x256 .bf16) (x4 : Vec Ideal S1x256 .f32)
    (p : Fin 400) (q : Fin 256) (r : Fin 10000)
    (h0 : ∀ k : Fin 256, x0 (ix2 p k) = a0 (ix2 r k)) (h1 : ∀ k : Fin 256, x1 (ix2 p k) = a1 (ix2 r k))
    (h2 : ∀ k : Fin 256, x2 (ix2 p k) = a2 (ix2 r k))
    (h3 : ∀ (j : Fin 3) (k o : Fin 256), x3 (ix3 j k o) = W (ix3 j k o))
    (h4 : ∀ o : Fin 256, x4 (ix2 (0 : Fin 1) o) = b (ix2 (0 : Fin 1) o)) :
    k2_pay1 (F := Ideal) x0 (View.ld x3 r2_1) x1 (View.ld x3 r2_2) x2 (View.ld x3 r2_3) x4 (ix2 p q)
      = projRelu a0 a1 a2 W b (ix2 r q) := by
  rw [body_apply, projRelu_apply]
  -- summand by summand: the tile's row is the array's row, the loaded slice's entry is the weights' entry
  have s0 : ∀ k : Fin 256, x0 (ix2 p k) * View.ld x3 r2_1 (ix3 (0 : Fin 1) k q) = a0 (ix2 r k) * W (ix3 (0 : Fin 3) k q) :=
    fun k => congrArg₂ (· * ·) (h0 k) ((slice0_apply x3 k q).trans (h3 0 k q))
  have s1 : ∀ k : Fin 256, x1 (ix2 p k) * View.ld x3 r2_2 (ix3 (0 : Fin 1) k q) = a1 (ix2 r k) * W (ix3 (1 : Fin 3) k q) :=
    fun k => congrArg₂ (· * ·) (h1 k) ((slice1_apply x3 k q).trans (h3 1 k q))
  have s2 : ∀ k : Fin 256, x2 (ix2 p k) * View.ld x3 r2_3 (ix3 (0 : Fin 1) k q) = a2 (ix2 r k) * W (ix3 (2 : Fin 3) k q) :=
    fun k => congrArg₂ (· * ·) (h2 k) ((slice2_apply x3 k q).trans (h3 2 k q))
  rw [Finset.sum_congr rfl fun k _ => s0 k, Finset.sum_congr rfl fun k _ => s1 k, Finset.sum_congr rfl fun k _ => s2 k, h4]

/-! ## Where each window's block sits at a grid point

Decided over the 25 points: the three feature windows and the output move down the rows with the point, one tile of 400
rows each; the weights and the bias stay at block zero, their block being the whole array. -/

theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem hz : (![0, 0] : Fin 2 → Nat) = fun _ => 0 := funext fun a => by fin_cases a <;> rfl

/-- Row tile t of the first Chebyshev term: entry (p, k) of the block is entry (400 t + p, k) of the array. -/
theorem tile0_apply (c : Dev nD) (t : Fin cfg2.N) (p : Fin 400) (k : Fin 256) (r : Fin 10000)
    (hr : r.val = t.val * 400 + p.val) :
    (iblk2 (F := Ideal) V c 0 t : Vec Ideal S400x256 .bf16) (ix2 p k) = (V c main_v39 : S10000x256.Idx → EReal) (ix2 r k) := by
  obtain ⟨e0, e1, -⟩ := index_facts t
  unfold iblk2
  rw [View.read_apply]
  show (V c main_v39 : S10000x256.Idx → EReal) _ = _
  congr 1
  funext a
  apply Fin.ext
  match a with
  | ⟨0, _⟩ => show win2_0.index t (0 : Fin 2) * 400 + 1 * p.val = r.val; rw [e0, hr]; omega
  | ⟨1, _⟩ => show win2_0.index t (1 : Fin 2) * 256 + 1 * k.val = k.val; rw [e1]; omega

/-- Row tile t of the second Chebyshev term. -/
theorem tile1_apply (c : Dev nD) (t : Fin cfg2.N) (p : Fin 400) (k : Fin 256) (r : Fin 10000)
    (hr : r.val = t.val * 400 + p.val) :
    (iblk2 (F := Ideal) V c 1 t : Vec Ideal S400x256 .bf16) (ix2 p k) = (V c main_v40_1 : S10000x256.Idx → EReal) (ix2 r k) := by
  obtain ⟨-, -, e0, e1, -⟩ := index_facts t
  unfold iblk2
  rw [View.read_apply]
  show (V c main_v40_1 : S10000x256.Idx → EReal) _ = _
  congr 1
  funext a
  apply Fin.ext
  match a with
  | ⟨0, _⟩ => show win2_1.index t (0 : Fin 2) * 400 + 1 * p.val = r.val; rw [e0, hr]; omega
  | ⟨1, _⟩ => show win2_1.index t (1 : Fin 2) * 256 + 1 * k.val = k.val; rw [e1]; omega

/-- Row tile t of the third Chebyshev term. -/
theorem tile2_apply (c : Dev nD) (t : Fin cfg2.N) (p : Fin 400) (k : Fin 256) (r : Fin 10000)
    (hr : r.val = t.val * 400 + p.val) :
    (iblk2 (F := Ideal) V c 2 t : Vec Ideal S400x256 .bf16) (ix2 p k) = (V c main_v41_1 : S10000x256.Idx → EReal) (ix2 r k) := by
  obtain ⟨-, -, -, -, e0, e1, -⟩ := index_facts t
  unfold iblk2
  rw [View.read_apply]
  show (V c main_v41_1 : S10000x256.Idx → EReal) _ = _
  congr 1
  funext a
  apply Fin.ext
  match a with
  | ⟨0, _⟩ => show win2_2.index t (0 : Fin 2) * 400 + 1 * p.val = r.val; rw [e0, hr]; omega
  | ⟨1, _⟩ => show win2_2.index t (1 : Fin 2) * 256 + 1 * k.val = k.val; rw [e1]; omega

/-- The weights' block is the whole array at every point. -/
theorem weights_apply (c : Dev nD) (t : Fin cfg2.N) (j : Fin 3) (k o : Fin 256) :
    (iblk2 (F := Ideal) V c 3 t : Vec Ideal S3x256x256 .bf16) (ix3 j k o) = (V c main_v38 : S3x256x256.Idx → EReal) (ix3 j k o) := by
  obtain ⟨-, -, -, -, -, -, e0, e1, e2, -⟩ := index_facts t
  unfold iblk2
  rw [View.read_apply]
  show (V c main_v38 : S3x256x256.Idx → EReal) _ = _
  congr 1
  funext a
  apply Fin.ext
  match a with
  | ⟨0, _⟩ => show win2_3.index t (0 : Fin 3) * 3 + 1 * j.val = j.val; rw [e0]; omega
  | ⟨1, _⟩ => show win2_3.index t (1 : Fin 3) * 256 + 1 * k.val = k.val; rw [e1]; omega
  | ⟨2, _⟩ => show win2_3.index t (2 : Fin 3) * 256 + 1 * o.val = o.val; rw [e2]; omega

/-- The bias's block is the whole row at every point. -/
theorem bias_apply (c : Dev nD) (t : Fin cfg2.N) (o : Fin 256) :
    (iblk2 (F := Ideal) V c 4 t : Vec Ideal S1x256 .f32) (ix2 (0 : Fin 1) o) = (V c main_v42 : S1x256.Idx → EReal) (ix2 (0 : Fin 1) o) := by
  obtain ⟨-, -, -, -, -, -, -, -, -, e0, e1, -⟩ := index_facts t
  unfold iblk2
  rw [View.read_apply]
  show (V c main_v42 : S1x256.Idx → EReal) _ = _
  congr 1
  funext a
  apply Fin.ext
  match a with
  | ⟨0, _⟩ => show win2_4.index t (0 : Fin 2) * 1 + 1 * 0 = 0; rw [e0]
  | ⟨1, _⟩ => show win2_4.index t (1 : Fin 2) * 256 + 1 * o.val = o.val; rw [e1]; omega

/-! ## From the tiles to the array -/

/-- What point t writes back is tile t of the value: rows 400 t … 400 t + 399. -/
theorem flushed_eq (c : Dev nD) (t : Fin cfg2.N) :
    (dat2 (F := Ideal) V c).flushed 5 t = ((cfg2.win 5).blk t).view.read (Elt Ideal)
      (projRelu (V c main_v39) (V c main_v40_1) (V c main_v41_1) (V c main_v38) (V c main_v42)) := by
  show (cfg2.win 5).cut (grid2.coords t) ((dat2 (F := Ideal) V c).after 5 t) = _
  rw [after2_5]
  unfold out2_5
  rw [View.canon_unit_zero hz]
  simp only [View.ld_unit_zero (S := S400x256) hz, View.ld_unit_zero (S := S1x256) hz]
  have hN : grid2.N = 25 := N_2
  have ht : t.val < 25 := hN ▸ t.isLt
  obtain ⟨-, -, -, -, -, -, -, -, -, -, -, e0, e1⟩ := index_facts t
  funext j
  obtain ⟨p, q, rfl⟩ : ∃ (p : Fin 400) (q : Fin 256), j = ix2 p q := ⟨j 0, j 1, eq_ix2 j⟩
  have hemb : ((cfg2.win 5).blk t).view.emb (ix2 p q) = (ix2 (⟨t.val * 400 + p.val, by omega⟩ : Fin 10000) q : S10000x256.Idx) := by
    funext a
    apply Fin.ext
    match a with
    | ⟨0, _⟩ => show win2_5.index t (0 : Fin 2) * 400 + 1 * p.val = t.val * 400 + p.val; rw [e0]; omega
    | ⟨1, _⟩ => show win2_5.index t (1 : Fin 2) * 256 + 1 * q.val = q.val; rw [e1]; omega
  rw [View.read_apply, hemb]
  exact point_eq (V c main_v39) (V c main_v40_1) (V c main_v41_1) (V c main_v38) (V c main_v42)
    (iblk2 V c 0 t) (iblk2 V c 1 t) (iblk2 V c 2 t) (iblk2 V c 3 t) (iblk2 V c 4 t) p q ⟨t.val * 400 + p.val, by omega⟩
    (fun k => tile0_apply V c t p k _ rfl) (fun k => tile1_apply V c t p k _ rfl) (fun k => tile2_apply V c t p k _ rfl)
    (fun j k o => weights_apply V c t j k o) (fun o => bias_apply V c t o)

/-- An entry of the output is in point t's tile when its row is among the tile's 400 and its column among the 256. -/
theorem mem_blk (t : Fin cfg2.N) (i : S10000x256.Idx) :
    i ∈ ((cfg2.win 5).blk t).view.set ↔ ∀ a : Fin 2, win2_5.index t a * S400x256.size a ≤ (i a).val
      ∧ (i a).val < win2_5.index t a * S400x256.size a + S400x256.size a := by
  show i ∈ ((View.whole main_v43).slice (win2_5.rect t)).set ↔ _
  rw [View.set_slice_whole, Rect.mem_set_unit]
  exact Iff.rfl

/-- Every entry is in some tile that is written back: row r is in tile r / 400. -/
theorem cover (i : S10000x256.Idx) :
    ∃ t : Fin cfg2.N, (cfg2.win 5).flush t = true ∧ i ∈ ((cfg2.win 5).blk t).view.set := by
  have hi0 : (i 0).val < 10000 := (i 0).isLt
  have hi1 : (i 1).val < 256 := (i 1).isLt
  have hN : grid2.N = 25 := N_2
  have ht : (i 0).val / 400 < cfg2.N := by show _ < grid2.N; omega
  obtain ⟨-, -, -, -, -, -, -, -, -, -, -, e0, e1⟩ := index_facts ⟨(i 0).val / 400, ht⟩
  have e0' : win2_5.index ⟨(i 0).val / 400, ht⟩ (0 : Fin 2) = (i 0).val / 400 := e0
  refine ⟨⟨(i 0).val / 400, ht⟩, flush2_5 _, ?_⟩
  rw [mem_blk]
  intro a
  match a with
  | ⟨0, _⟩ =>
    show win2_5.index ⟨(i 0).val / 400, ht⟩ (0 : Fin 2) * 400 ≤ (i 0).val
      ∧ (i 0).val < win2_5.index ⟨(i 0).val / 400, ht⟩ (0 : Fin 2) * 400 + 400
    rw [e0']; omega
  | ⟨1, _⟩ =>
    show win2_5.index ⟨(i 0).val / 400, ht⟩ (1 : Fin 2) * 256 ≤ (i 1).val
      ∧ (i 1).val < win2_5.index ⟨(i 0).val / 400, ht⟩ (1 : Fin 2) * 256 + 256
    rw [e1]; omega

/-- After the call the output holds the three projections added in order, plus the bias, cut off below at zero. -/
theorem proj2 (c : Dev nD) :
    (dat2 (F := Ideal) V c).arrAt 5 cfg2.N
      = (ofFn2 (fun i o => max (proj (toFn2 (V c main_v39 : S10000x256.Idx → EReal)) (toFn2 (V c main_v40_1 : S10000x256.Idx → EReal))
          (toFn2 (V c main_v41_1 : S10000x256.Idx → EReal)) (toFn3 (V c main_v38 : S3x256x256.Idx → EReal))
          (fun o => (V c main_v42 : S1x256.Idx → EReal) (ix2 0 o)) i o) (Ideal.ofBits .f32 0x00000000#32)) : S10000x256.Idx → EReal) := by
  exact (dat2 (F := Ideal) V c).arrAt_eq_of_cover 5
    (projRelu (V c main_v39) (V c main_v40_1) (V c main_v41_1) (V c main_v38) (V c main_v42))
    (fun t _ => flushed_eq V c t) cover

end Cert.KernelIdeal.Hand2

end
-- ==== Proof.KRegion3.lean ====
/-
  The first propagation call of layer two, read as a value. The call runs over 25 row tiles of 400 rows: at tile `t`
  it fetches rows `400 t … 400 t + 399` of the dense adjacency (all 10000 columns) and the whole feature matrix,
  multiplies them into a zero accumulator, and writes the 400 × 256 product back to rows `400 t …` of both outputs
  (the second output is the first narrowed to bf16, which at the ideal values is the identity). The tiles cover the
  output, so after the call both output arrays hold the whole product `A · T`, entry `(i, d) = ∑ k, A (i, k) · T (k, d)`.
-/
import proofs.«420550_j3083786518792_3_alg».proof.Proof.Gen.KernelIdeal.Frame
import proofs.«420550_j3083786518792_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand3

open Cert.KernelIdeal Cert.KernelIdeal.Gen Cert.Cheb

open scoped BigOperators

/-! ## The product of two blocks at an entry -/

/-- Where the product at entry `i` reads its operands for the contraction index `q`: the adjacency tile at
    `(i 0, q)`, the features at `(q, i 1)`. One statement per operand and axis. -/
theorem lhs_axis0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem lhs_axis1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
theorem rhs_axis0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
theorem rhs_axis1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- Entry `(p, q)` of the f32 payload: row `p` of the adjacency tile against column `q` of the features. -/
theorem pay1_apply (v0 : Vec Ideal S400x10000 .bf16) (v2 : Vec Ideal S10000x256 .bf16) (p : Fin 400) (q : Fin 256) :
    k3_pay1 v0 v2 (ix2 p q) = ∑ k : Fin 10000, v0 (ix2 p k) * v2 (ix2 k q) := by
  unfold k3_pay1
  rw [shapeCast_self, shapeCast_self]
  show FloatOps.matmul dot_S400x10000_S10000x256_S400x256_1_0_0_1_n_n none v0 v2 (constant (F := Ideal) S400x256 .f32 0x00000000#32) (ix2 p q) = _
  rw [Ideal.matmul_constant_zero_apply, ← Equiv.sum_comp (ValueIdx.contrEquiv1 dot_S400x10000_S10000x256_S400x256_1_0_0_1_n_n 10000 rfl rfl).symm]
  refine Finset.sum_congr rfl fun k _ => ?_
  have hk := ValueIdx.contrEquiv1_symm_val dot_S400x10000_S10000x256_S400x256_1_0_0_1_n_n 10000 rfl rfl k
  have el : dot_S400x10000_S10000x256_S400x256_1_0_0_1_n_n.lhsIdx (ix2 p q) ((ValueIdx.contrEquiv1 dot_S400x10000_S10000x256_S400x256_1_0_0_1_n_n 10000 rfl rfl).symm k) = ix2 p k := funext fun a => Fin.ext (by
    match a with
    | ⟨0, _⟩ => exact lhs_axis0 _ _
    | ⟨1, _⟩ => exact (lhs_axis1 _ _).trans hk)
  have er : dot_S400x10000_S10000x256_S400x256_1_0_0_1_n_n.rhsIdx (ix2 p q) ((ValueIdx.contrEquiv1 dot_S400x10000_S10000x256_S400x256_1_0_0_1_n_n 10000 rfl rfl).symm k) = ix2 k q := funext fun a => Fin.ext (by
    match a with
    | ⟨0, _⟩ => exact (rhs_axis0 _ _).trans hk
    | ⟨1, _⟩ => exact rhs_axis1 _ _)
  rw [el, er]

/-- The bf16 payload is the f32 one narrowed, which keeps the value. -/
theorem pay2_apply (v0 : Vec Ideal S400x10000 .bf16) (v2 : Vec Ideal S10000x256 .bf16) (p : Fin 400) (q : Fin 256) :
    k3_pay2 v0 v2 (ix2 p q) = ∑ k : Fin 10000, v0 (ix2 p k) * v2 (ix2 k q) := by
  unfold k3_pay2
  exact pay1_apply v0 v2 p q

variable (V : (c : Dev nD) → (b : Ref sig .tc) → Buf (Elt Ideal) ((c : Thread nD τ).loc b))

/-! ## From tiles to the array -/

theorem hz : (![0, 0] : Fin 2 → Nat) = fun _ => 0 := funext fun a => by fin_cases a <;> rfl

/-- The whole product: entry `(i, d)` is row `i` of the adjacency against column `d` of the features. -/
abbrev prodAT (A : S10000x10000.Idx → EReal) (T : S10000x256.Idx → EReal) : S10000x256.Idx → EReal :=
  ofFn2 (dmm (toFn2 A) (toFn2 T))

/-- Where the blocks sit: at tile `t` the adjacency and both outputs are at block row `t`, block column 0; the
    features are whole. -/
theorem tile_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row `p` of the adjacency tile at `t` is row `400 t + p` of the adjacency. -/
theorem adj_tile (c : Dev nD) (t : Fin cfg3.N) (p : Fin 400) (k : Fin 10000) (i : Fin 10000) (hi : i.val = 400 * t.val + p.val) :
    (iblk3 V c 0 t : Vec Ideal S400x10000 .bf16) (ix2 p k) = (V c main_v37 : S10000x10000.Idx → EReal) (ix2 i k) := by
  obtain ⟨e0, e1, -⟩ := tile_index t
  unfold iblk3
  rw [View.read_apply]
  show V c main_v37 _ = V c main_v37 _
  congr 1
  funext a
  apply Fin.ext
  match a with
  | ⟨0, _⟩ => show win3_0.index t (0 : Fin 2) * 400 + 1 * p.val = i.val; omega
  | ⟨1, _⟩ => show win3_0.index t (1 : Fin 2) * 10000 + 1 * k.val = k.val; omega

/-- The feature block at every tile is the feature matrix. -/
theorem feat_whole (c : Dev nD) (t : Fin cfg3.N) (k : Fin 10000) (q : Fin 256) :
    (iblk3 V c 1 t : Vec Ideal S10000x256 .bf16) (ix2 k q) = (V c main_v45 : S10000x256.Idx → EReal) (ix2 k q) := by
  obtain ⟨-, -, e2, e3, -⟩ := tile_index t
  unfold iblk3
  rw [View.read_apply]
  show V c main_v45 _ = V c main_v45 _
  congr 1
  funext a
  apply Fin.ext
  match a with
  | ⟨0, _⟩ => show win3_1.index t (0 : Fin 2) * 10000 + 1 * k.val = k.val; omega
  | ⟨1, _⟩ => show win3_1.index t (1 : Fin 2) * 256 + 1 * q.val = q.val; omega

/-- The product of tile `t` with the features is rows `400 t …` of the whole product. -/
theorem tile_prod (c : Dev nD) (t : Fin cfg3.N) (x0 : Vec Ideal S400x10000 .bf16) (x1 : Vec Ideal S10000x256 .bf16)
    (hx0 : x0 = iblk3 V c 0 t) (hx1 : x1 = iblk3 V c 1 t) (p : Fin 400) (q : Fin 256) (i : S10000x256.Idx)
    (h0 : (i 0).val = 400 * t.val + p.val) (h1 : (i 1).val = q.val) :
    ∑ k : Fin 10000, x0 (ix2 p k) * x1 (ix2 k q) = prodAT (V c main_v37) (V c main_v45) i := by
  subst hx0 hx1
  show _ = dmm (toFn2 (V c main_v37 : S10000x10000.Idx → EReal)) (toFn2 (V c main_v45 : S10000x256.Idx → EReal)) ⟨(i 0).val, idx2_lt0 i⟩ ⟨(i 1).val, idx2_lt1 i⟩
  unfold dmm toFn2
  refine Finset.sum_congr rfl fun k _ => ?_
  rw [adj_tile V c t p k ⟨(i 0).val, idx2_lt0 i⟩ h0, feat_whole V c t k q]
  have hq : q = ⟨(i 1).val, idx2_lt1 i⟩ := Fin.ext h1.symm
  rw [← hq]

/-- What tile `t` writes back to the f32 output is block `t` of the whole product. -/
theorem flushed2_eq (c : Dev nD) (t : Fin cfg3.N) :
    (dat3 (F := Ideal) V c).flushed 2 t
      = ((cfg3.win 2).blk t).view.read (Elt Ideal) (prodAT (V c main_v37) (V c main_v45)) := by
  show (cfg3.win 2).cut (grid3.coords t) ((dat3 (F := Ideal) V c).after 2 t) = _
  rw [after3_2]
  unfold out3_2
  rw [View.canon_unit_zero hz]
  simp only [View.ld_unit_zero (S := S400x10000) hz, View.ld_unit_zero (S := S10000x256) hz]
  obtain ⟨-, -, -, -, e4, e5, -⟩ := tile_index t
  funext j
  obtain ⟨p, q, rfl⟩ : ∃ (p : Fin 400) (q : Fin 256), j = ix2 p q := ⟨j 0, j 1, eq_ix2 j⟩
  show k3_pay1 (iblk3 V c 0 t) (iblk3 V c 1 t) (ix2 p q) = prodAT (V c main_v37) (V c main_v45) (((cfg3.win 2).blk t).view.emb (ix2 p q))
  rw [pay1_apply]
  refine tile_prod V c t _ _ rfl rfl p q _ ?_ ?_
  · show win3_2.index t (0 : Fin 2) * 400 + 1 * p.val = _; omega
  · show win3_2.index t (1 : Fin 2) * 256 + 1 * q.val = _; omega

/-- What tile `t` writes back to the bf16 output is the same block. -/
theorem flushed3_eq (c : Dev nD) (t : Fin cfg3.N) :
    (dat3 (F := Ideal) V c).flushed 3 t
      = ((cfg3.win 3).blk t).view.read (Elt Ideal) (prodAT (V c main_v37) (V c main_v45)) := by
  show (cfg3.win 3).cut (grid3.coords t) ((dat3 (F := Ideal) V c).after 3 t) = _
  rw [after3_3]
  unfold out3_3
  rw [View.canon_unit_zero hz]
  simp only [View.ld_unit_zero (S := S400x10000) hz, View.ld_unit_zero (S := S10000x256) hz]
  obtain ⟨-, -, -, -, -, -, e6, e7⟩ := tile_index t
  funext j
  obtain ⟨p, q, rfl⟩ : ∃ (p : Fin 400) (q : Fin 256), j = ix2 p q := ⟨j 0, j 1, eq_ix2 j⟩
  show k3_pay2 (iblk3 V c 0 t) (iblk3 V c 1 t) (ix2 p q) = prodAT (V c main_v37) (V c main_v45) (((cfg3.win 3).blk t).view.emb (ix2 p q))
  rw [pay2_apply]
  refine tile_prod V c t _ _ rfl rfl p q _ ?_ ?_
  · show win3_3.index t (0 : Fin 2) * 400 + 1 * p.val = _; omega
  · show win3_3.index t (1 : Fin 2) * 256 + 1 * q.val = _; omega

/-- An entry is in tile `t`'s block of the f32 output iff each coordinate is in the block's range. -/
theorem mem_blk2 (t : Fin cfg3.N) (i : S10000x256.Idx) :
    i ∈ ((cfg3.win 2).blk t).view.set ↔ ∀ a : Fin 2, win3_2.index t a * S400x256.size a ≤ (i a).val ∧ (i a).val < win3_2.index t a * S400x256.size a + S400x256.size a := by
  show i ∈ ((View.whole main_v46_0).slice (win3_2.rect t)).set ↔ _
  rw [View.set_slice_whole, Rect.mem_set_unit]
  exact Iff.rfl

/-- The same for the bf16 output. -/
theorem mem_blk3 (t : Fin cfg3.N) (i : S10000x256.Idx) :
    i ∈ ((cfg3.win 3).blk t).view.set ↔ ∀ a : Fin 2, win3_3.index t a * S400x256.size a ≤ (i a).val ∧ (i a).val < win3_3.index t a * S400x256.size a + S400x256.size a := by
  show i ∈ ((View.whole main_v46_1).slice (win3_3.rect t)).set ↔ _
  rw [View.set_slice_whole, Rect.mem_set_unit]
  exact Iff.rfl

/-- Row `r` lies in tile `r / 400`, and every tile is written back: the tiles cover the f32 output. -/
theorem cover2 (i : S10000x256.Idx) :
    ∃ t : Fin cfg3.N, (cfg3.win 2).flush t = true ∧ i ∈ ((cfg3.win 2).blk t).view.set := by
  have hN : cfg3.N = 25 := N_3
  have hi0 : (i 0).val < 10000 := idx2_lt0 i
  have hi1 : (i 1).val < 256 := idx2_lt1 i
  obtain ⟨t, ht⟩ : ∃ t : Fin cfg3.N, t.val = (i 0).val / 400 := ⟨⟨(i 0).val / 400, by rw [hN]; omega⟩, rfl⟩
  obtain ⟨-, -, -, -, e4, e5, -⟩ := tile_index t
  refine ⟨t, flush3_2 t, ?_⟩
  rw [mem_blk2]
  intro a
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 256 ≤ (i 1).val ∧ (i 1).val < win3_2.index t (1 : Fin 2) * 256 + 256; omega

/-- And the bf16 output. -/
theorem cover3 (i : S10000x256.Idx) :
    ∃ t : Fin cfg3.N, (cfg3.win 3).flush t = true ∧ i ∈ ((cfg3.win 3).blk t).view.set := by
  have hN : cfg3.N = 25 := N_3
  have hi0 : (i 0).val < 10000 := idx2_lt0 i
  have hi1 : (i 1).val < 256 := idx2_lt1 i
  obtain ⟨t, ht⟩ : ∃ t : Fin cfg3.N, t.val = (i 0).val / 400 := ⟨⟨(i 0).val / 400, by rw [hN]; omega⟩, rfl⟩
  obtain ⟨-, -, -, -, -, -, e6, e7⟩ := tile_index t
  refine ⟨t, flush3_3 t, ?_⟩
  rw [mem_blk3]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 256 ≤ (i 1).val ∧ (i 1).val < win3_3.index t (1 : Fin 2) * 256 + 256; omega

/-- After the call the f32 output holds the adjacency times the features. -/
theorem prop3_f32 (c : Dev nD) :
    (dat3 (F := Ideal) V c).arrAt 2 cfg3.N
      = (ofFn2 (dmm (toFn2 (V c main_v37 : S10000x10000.Idx → EReal)) (toFn2 (V c main_v45 : S10000x256.Idx → EReal))) : S10000x256.Idx → EReal) :=
  (dat3 (F := Ideal) V c).arrAt_eq_of_cover 2 (prodAT (V c main_v37) (V c main_v45)) (fun t _ => flushed2_eq V c t) cover2

/-- So does the bf16 output. -/
theorem prop3_bf16 (c : Dev nD) :
    (dat3 (F := Ideal) V c).arrAt 3 cfg3.N
      = (ofFn2 (dmm (toFn2 (V c main_v37 : S10000x10000.Idx → EReal)) (toFn2 (V c main_v45 : S10000x256.Idx → EReal))) : S10000x256.Idx → EReal) :=
  (dat3 (F := Ideal) V c).arrAt_eq_of_cover 3 (prodAT (V c main_v37) (V c main_v45)) (fun t _ => flushed3_eq V c t) cover3

end Cert.KernelIdeal.Hand3

end
-- ==== Proof.KRegion4.lean ====
/-
  The second propagation call of layer two, read as a value. The call runs over 25 row tiles of 400 rows. At tile `t`
  it holds rows `400 t … 400 t + 399` of the dense adjacency `A` (all 10000 columns), the whole (bf16) first
  Chebyshev term `T₁`, and rows `400 t …` of the layer's f32 input `X`; it multiplies the adjacency tile with `T₁`
  into a zero accumulator, doubles the product, subtracts the input tile, and writes the 400 × 256 result back to rows
  `400 t …` of both outputs (the second is the first narrowed to bf16, the identity on the ideal values). Entry
  `(p, q)` of the tile's result is `2 · ∑ k, A (400 t + p, k) · T₁ (k, q) − X (400 t + p, q)`, which is entry
  `(400 t + p, q)` of `2 · (A · T₁) − X`; the 25 tiles cover the 10000 rows, so after the call both output arrays hold
  `2 · (A · T₁) − X` entry by entry.
-/
import proofs.«420550_j3083786518792_3_alg».proof.Proof.Gen.KernelIdeal.Frame
import proofs.«420550_j3083786518792_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand4

open Cert.KernelIdeal Cert.KernelIdeal.Gen Cert.Cheb

/-! ## The product inside the body, entry by entry -/

/-- The zero offsets of a whole-buffer access, however they are spelt. -/
theorem hz : (![0, 0] : Fin 2 → Nat) = fun _ => 0 := funext fun a => by fin_cases a <;> rfl

/-- The left operand of the tile product is read at the output's row … -/
theorem lhs_axis0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
/-- … and at the summation index along its columns. -/
theorem lhs_axis1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
/-- The right operand is read at the summation index along its rows … -/
theorem rhs_axis0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
/-- … and at the output's column. -/
theorem rhs_axis1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The tile product into a zero accumulator: entry `(p, q)` is the sum over the 10000 columns `k` of the
    adjacency tile's `(p, k)` times the features' `(k, q)`. -/
theorem tile_product_at (x : FVec Ideal S400x10000 .bf16) (y : FVec Ideal S10000x256 .bf16) (p : Fin 400) (q : Fin 256) :
    FloatOps.matmul dot_S400x10000_S10000x256_S400x256_1_0_0_1_n_n none x y (constant (F := Ideal) S400x256 .f32 0x00000000#32) (ix2 p q)
      = ∑ k : Fin 10000, x (ix2 p k) * y (ix2 k q) := by
  rw [Ideal.matmul_constant_zero_apply, ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 p q) ((contrEquiv1 dot_S400x10000_S10000x256_S400x256_1_0_0_1_n_n 10000 rfl rfl).symm k) = ix2 p k := funext fun a => Fin.ext (by
    match a with
    | ⟨0, _⟩ => exact lhs_axis0 _ _
    | ⟨1, _⟩ => exact (lhs_axis1 _ _).trans hk)
  have er : dot_S400x10000_S10000x256_S400x256_1_0_0_1_n_n.rhsIdx (ix2 p q) ((contrEquiv1 dot_S400x10000_S10000x256_S400x256_1_0_0_1_n_n 10000 rfl rfl).symm k) = ix2 k q := funext fun a => Fin.ext (by
    match a with
    | ⟨0, _⟩ => exact (rhs_axis0 _ _).trans hk
    | ⟨1, _⟩ => exact rhs_axis1 _ _)
  rw [el, er]

/-- What the body stores to the f32 output, entry by entry: twice the tile product less the input tile. -/
theorem pay_f32_at (v0 : Vec Ideal S400x10000 .bf16) (v2 : Vec Ideal S10000x256 .bf16) (v7 : Vec Ideal S400x256 .f32)
    (p : Fin 400) (q : Fin 256) :
    k4_pay1 (F := Ideal) v0 v2 v7 (ix2 p q)
      = Ideal.ofBits .f32 0x40000000#32 * (∑ k : Fin 10000, v0 (ix2 p k) * v2 (ix2 k q)) - v7 (ix2 p q) := by
  unfold k4_pay1
  simp only [shapeCast_self]
  exact congrArg (fun s => Ideal.ofBits .f32 0x40000000#32 * s - v7 (ix2 p q)) (tile_product_at v0 v2 p q)

/-- The bf16 output's store is the same value: narrowing is the identity on the ideal values. -/
theorem pay_bf16_at (v0 : Vec Ideal S400x10000 .bf16) (v2 : Vec Ideal S10000x256 .bf16) (v7 : Vec Ideal S400x256 .f32)
    (p : Fin 400) (q : Fin 256) :
    k4_pay2 (F := Ideal) v0 v2 v7 (ix2 p q)
      = Ideal.ofBits .f32 0x40000000#32 * (∑ k : Fin 10000, v0 (ix2 p k) * v2 (ix2 k q)) - v7 (ix2 p q) :=
  pay_f32_at v0 v2 v7 p q

/-- One entry of a tile's result is one entry of `2 · (A · T₁) − X`: when row `p` of the adjacency tile is row `r` of
    `A`, the features are `T₁`, and entry `(p, q)` of the input tile is entry `(r, q)` of `X`. -/
theorem entry_eq (A : S10000x10000.Idx → EReal) (T X : S10000x256.Idx → EReal)
    (v0 : Vec Ideal S400x10000 .bf16) (v2 : Vec Ideal S10000x256 .bf16) (v7 : Vec Ideal S400x256 .f32)
    (r : Fin 10000) (p : Fin 400) (q : Fin 256)
    (h0 : ∀ k : Fin 10000, v0 (ix2 p k) = A (ix2 r k))
    (h2 : ∀ k : Fin 10000, v2 (ix2 k q) = T (ix2 k q))
    (h7 : v7 (ix2 p q) = X (ix2 r q)) :
    k4_pay1 (F := Ideal) v0 v2 v7 (ix2 p q)
      = (ofFn2 (comb (Ideal.ofBits .f32 0x40000000#32) (dmm (toFn2 A) (toFn2 T)) (toFn2 X)) : S10000x256.Idx → EReal) (ix2 r q) := by
  rw [pay_f32_at, ofFn2_apply]
  unfold comb dmm toFn2
  rw [h7, Finset.sum_congr rfl (fun k _ => by rw [h0 k, h2 k])]

/-! ## The tiles of the three inputs, and of the outputs -/

/-- The block indices over the 25 grid points: the adjacency, the input and both outputs are at row tile `t`, the
    features are whole. -/
theorem idx_facts : ∀ t : Fin cfg4.N, t.val < 25
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

/-- Row `p` of the adjacency tile at point `t` is row `400 t + p` of the adjacency. -/
theorem adj_tile_at (c : Dev nD) (t : Fin cfg4.N) (p : Fin 400) (k : Fin 10000) (r : Fin 10000)
    (hr : r.val = 400 * t.val + p.val) :
    (iblk4 (F := Ideal) V c 0 t : Vec Ideal S400x10000 .bf16) (ix2 p k) = (V c main_v37 : S10000x10000.Idx → EReal) (ix2 r k) := by
  obtain ⟨-, e0, e1, -⟩ := idx_facts t
  unfold iblk4
  show (V c main_v37 : S10000x10000.Idx → EReal) (((cfg4.win 0).blk t).view.emb (ix2 p k)) = _
  refine congrArg (V c main_v37 : S10000x10000.Idx → EReal) (funext fun a => Fin.ext ?_)
  match a with
  | ⟨0, _⟩ => show win4_0.index t (0 : Fin 2) * 400 + 1 * p.val = r.val; omega
  | ⟨1, _⟩ => show win4_0.index t (1 : Fin 2) * 10000 + 1 * k.val = k.val; omega

/-- The features' block at every point is the whole array. -/
theorem feat_at (c : Dev nD) (t : Fin cfg4.N) (k : Fin 10000) (q : Fin 256) :
    (iblk4 (F := Ideal) V c 1 t : Vec Ideal S10000x256 .bf16) (ix2 k q) = (V c main_v46_1 : S10000x256.Idx → EReal) (ix2 k q) := by
  obtain ⟨-, -, -, e0, e1, -⟩ := idx_facts t
  unfold iblk4
  show (V c main_v46_1 : S10000x256.Idx → EReal) (((cfg4.win 1).blk t).view.emb (ix2 k q)) = _
  refine congrArg (V c main_v46_1 : S10000x256.Idx → EReal) (funext fun a => Fin.ext ?_)
  match a with
  | ⟨0, _⟩ => show win4_1.index t (0 : Fin 2) * 10000 + 1 * k.val = k.val; omega
  | ⟨1, _⟩ => show win4_1.index t (1 : Fin 2) * 256 + 1 * q.val = q.val; omega

/-- Row `p` of the input tile at point `t` is row `400 t + p` of the layer's input. -/
theorem inp_tile_at (c : Dev nD) (t : Fin cfg4.N) (p : Fin 400) (q : Fin 256) (r : Fin 10000)
    (hr : r.val = 400 * t.val + p.val) :
    (iblk4 (F := Ideal) V c 2 t : Vec Ideal S400x256 .f32) (ix2 p q) = (V c main_v43 : S10000x256.Idx → EReal) (ix2 r q) := by
  obtain ⟨-, -, -, -, -, e0, e1, -⟩ := idx_facts t
  unfold iblk4
  show (V c main_v43 : S10000x256.Idx → EReal) (((cfg4.win 2).blk t).view.emb (ix2 p q)) = _
  refine congrArg (V c main_v43 : S10000x256.Idx → EReal) (funext fun a => Fin.ext ?_)
  match a with
  | ⟨0, _⟩ => show win4_2.index t (0 : Fin 2) * 400 + 1 * p.val = r.val; omega
  | ⟨1, _⟩ => show win4_2.index t (1 : Fin 2) * 256 + 1 * q.val = q.val; omega

/-- The array both outputs end holding: `2 · (A · T₁) − X`. -/
abbrev target (c : Dev nD) : S10000x256.Idx → EReal :=
  ofFn2 (comb (Ideal.ofBits .f32 0x40000000#32)
    (dmm (toFn2 (V c main_v37 : S10000x10000.Idx → EReal)) (toFn2 (V c main_v46_1 : S10000x256.Idx → EReal)))
    (toFn2 (V c main_v43 : S10000x256.Idx → EReal)))

/-! ## The f32 output -/

/-- What point `t` writes back to the f32 output is rows `400 t …` of `2 · (A · T₁) − X`. -/
theorem flushed_f32 (c : Dev nD) (t : Fin cfg4.N) :
    (dat4 (F := Ideal) V c).flushed 3 t = ((cfg4.win 3).blk t).view.read (Elt Ideal) (target V c) := by
  show (cfg4.win 3).cut (grid4.coords t) ((dat4 (F := Ideal) V c).after 3 t) = _
  rw [after4_3]
  unfold out4_3
  rw [View.canon_unit_zero hz]
  simp only [View.ld_unit_zero (S := S400x10000) hz, View.ld_unit_zero (S := S10000x256) hz, View.ld_unit_zero (S := S400x256) hz]
  obtain ⟨hN, -, -, -, -, -, -, e0, e1, -⟩ := idx_facts t
  funext j
  have hj0 : (j 0).val < 400 := (j 0).isLt
  have hj1 : (j 1).val < 256 := (j 1).isLt
  have hx : (cfg4.win 3).xinj (grid4.coords t) j = ix2 (⟨(j 0).val, hj0⟩ : Fin 400) (⟨(j 1).val, hj1⟩ : Fin 256) :=
    funext fun a => by match a with | ⟨0, _⟩ => rfl | ⟨1, _⟩ => rfl
  have he : ((cfg4.win 3).blk t).view.emb j = ix2 (⟨400 * t.val + (j 0).val, by omega⟩ : Fin 10000) (⟨(j 1).val, hj1⟩ : Fin 256) :=
    funext fun a => Fin.ext (by
      match a with
      | ⟨0, _⟩ => show win4_3.index t (0 : Fin 2) * 400 + 1 * (j 0).val = 400 * t.val + (j 0).val; omega
      | ⟨1, _⟩ => show win4_3.index t (1 : Fin 2) * 256 + 1 * (j 1).val = (j 1).val; omega)
  show k4_pay1 (F := Ideal) (iblk4 V c 0 t) (iblk4 V c 1 t) (iblk4 V c 2 t) ((cfg4.win 3).xinj (grid4.coords t) j)
    = target V c (((cfg4.win 3).blk t).view.emb j)
  rw [hx, he]
  exact entry_eq (V c main_v37) (V c main_v46_1) (V c main_v43) (iblk4 V c 0 t) (iblk4 V c 1 t) (iblk4 V c 2 t)
    ⟨400 * t.val + (j 0).val, by omega⟩ ⟨(j 0).val, hj0⟩ ⟨(j 1).val, hj1⟩
    (fun k => adj_tile_at V c t ⟨(j 0).val, hj0⟩ k ⟨400 * t.val + (j 0).val, by omega⟩ rfl)
    (fun k => feat_at V c t k ⟨(j 1).val, hj1⟩)
    (inp_tile_at V c t ⟨(j 0).val, hj0⟩ ⟨(j 1).val, hj1⟩ ⟨400 * t.val + (j 0).val, by omega⟩ rfl)

/-- An index of the f32 output is in point `t`'s tile iff each coordinate is in the tile's range on its axis. -/
theorem mem_tile_f32 (t : Fin cfg4.N) (i : S10000x256.Idx) :
    i ∈ ((cfg4.win 3).blk t).view.set ↔ ∀ a : Fin 2, win4_3.index t a * S400x256.size a ≤ (i a).val ∧ (i a).val < win4_3.index t a * S400x256.size a + S400x256.size a := by
  show i ∈ ((View.whole main_v47_0).slice (win4_3.rect t)).set ↔ _
  rw [View.set_slice_whole, Rect.mem_set_unit]
  exact Iff.rfl

/-- Row `r` of the f32 output is written back by point `r / 400`. -/
theorem cover_f32 (i : S10000x256.Idx) :
    ∃ t : Fin cfg4.N, (cfg4.win 3).flush t = true ∧ i ∈ ((cfg4.win 3).blk t).view.set := by
  have hi0 : (i 0).val < 10000 := (i 0).isLt
  have hi1 : (i 1).val < 256 := (i 1).isLt
  have hN : cfg4.N = 25 := N_4
  obtain ⟨t, ht⟩ : ∃ t : Fin cfg4.N, t.val = (i 0).val / 400 := ⟨⟨(i 0).val / 400, by omega⟩, rfl⟩
  obtain ⟨-, -, -, -, -, -, -, e0, e1, -⟩ := idx_facts t
  refine ⟨t, flush4_3 t, ?_⟩
  rw [mem_tile_f32]
  intro a
  match a with
  | ⟨0, _⟩ => show win4_3.index t (0 : Fin 2) * 400 ≤ (i 0).val ∧ (i 0).val < win4_3.index t (0 : Fin 2) * 400 + 400; omega
  | ⟨1, _⟩ => show win4_3.index t (1 : Fin 2) * 256 ≤ (i 1).val ∧ (i 1).val < win4_3.index t (1 : Fin 2) * 256 + 256; omega

/-- After the call the f32 output holds twice the propagated term less the layer's input. -/
theorem comb4_f32 (c : Dev nD) :
    (dat4 (F := Ideal) V c).arrAt 3 cfg4.N
      = (ofFn2 (comb (Ideal.ofBits .f32 0x40000000#32)
          (dmm (toFn2 (V c main_v37 : S10000x10000.Idx → EReal)) (toFn2 (V c main_v46_1 : S10000x256.Idx → EReal)))
          (toFn2 (V c main_v43 : S10000x256.Idx → EReal))) : S10000x256.Idx → EReal) :=
  (dat4 (F := Ideal) V c).arrAt_eq_of_cover 3 (target V c) (fun t _ => flushed_f32 V c t) cover_f32

/-! ## The bf16 output -/

/-- What point `t` writes back to the bf16 output is the same rows of the same array. -/
theorem flushed_bf16 (c : Dev nD) (t : Fin cfg4.N) :
    (dat4 (F := Ideal) V c).flushed 4 t = ((cfg4.win 4).blk t).view.read (Elt Ideal) (target V c) := by
  show (cfg4.win 4).cut (grid4.coords t) ((dat4 (F := Ideal) V c).after 4 t) = _
  rw [after4_4]
  unfold out4_4
  rw [View.canon_unit_zero hz]
  simp only [View.ld_unit_zero (S := S400x10000) hz, View.ld_unit_zero (S := S10000x256) hz, View.ld_unit_zero (S := S400x256) hz]
  obtain ⟨hN, -, -, -, -, -, -, -, -, e0, e1⟩ := idx_facts t
  funext j
  have hj0 : (j 0).val < 400 := (j 0).isLt
  have hj1 : (j 1).val < 256 := (j 1).isLt
  have hx : (cfg4.win 4).xinj (grid4.coords t) j = ix2 (⟨(j 0).val, hj0⟩ : Fin 400) (⟨(j 1).val, hj1⟩ : Fin 256) :=
    funext fun a => by match a with | ⟨0, _⟩ => rfl | ⟨1, _⟩ => rfl
  have he : ((cfg4.win 4).blk t).view.emb j = ix2 (⟨400 * t.val + (j 0).val, by omega⟩ : Fin 10000) (⟨(j 1).val, hj1⟩ : Fin 256) :=
    funext fun a => Fin.ext (by
      match a with
      | ⟨0, _⟩ => show win4_4.index t (0 : Fin 2) * 400 + 1 * (j 0).val = 400 * t.val + (j 0).val; omega
      | ⟨1, _⟩ => show win4_4.index t (1 : Fin 2) * 256 + 1 * (j 1).val = (j 1).val; omega)
  show k4_pay2 (F := Ideal) (iblk4 V c 0 t) (iblk4 V c 1 t) (iblk4 V c 2 t) ((cfg4.win 4).xinj (grid4.coords t) j)
    = target V c (((cfg4.win 4).blk t).view.emb j)
  rw [hx, he]
  exact entry_eq (V c main_v37) (V c main_v46_1) (V c main_v43) (iblk4 V c 0 t) (iblk4 V c 1 t) (iblk4 V c 2 t)
    ⟨400 * t.val + (j 0).val, by omega⟩ ⟨(j 0).val, hj0⟩ ⟨(j 1).val, hj1⟩
    (fun k => adj_tile_at V c t ⟨(j 0).val, hj0⟩ k ⟨400 * t.val + (j 0).val, by omega⟩ rfl)
    (fun k => feat_at V c t k ⟨(j 1).val, hj1⟩)
    (inp_tile_at V c t ⟨(j 0).val, hj0⟩ ⟨(j 1).val, hj1⟩ ⟨400 * t.val + (j 0).val, by omega⟩ rfl)

/-- An index of the bf16 output is in point `t`'s tile iff each coordinate is in the tile's range on its axis. -/
theorem mem_tile_bf16 (t : Fin cfg4.N) (i : S10000x256.Idx) :
    i ∈ ((cfg4.win 4).blk t).view.set ↔ ∀ a : Fin 2, win4_4.index t a * S400x256.size a ≤ (i a).val ∧ (i a).val < win4_4.index t a * S400x256.size a + S400x256.size a := by
  show i ∈ ((View.whole main_v47_1).slice (win4_4.rect t)).set ↔ _
  rw [View.set_slice_whole, Rect.mem_set_unit]
  exact Iff.rfl

/-- Row `r` of the bf16 output is written back by point `r / 400`. -/
theorem cover_bf16 (i : S10000x256.Idx) :
    ∃ t : Fin cfg4.N, (cfg4.win 4).flush t = true ∧ i ∈ ((cfg4.win 4).blk t).view.set := by
  have hi0 : (i 0).val < 10000 := (i 0).isLt
  have hi1 : (i 1).val < 256 := (i 1).isLt
  have hN : cfg4.N = 25 := N_4
  obtain ⟨t, ht⟩ : ∃ t : Fin cfg4.N, t.val = (i 0).val / 400 := ⟨⟨(i 0).val / 400, by omega⟩, rfl⟩
  obtain ⟨-, -, -, -, -, -, -, -, -, e0, e1⟩ := idx_facts t
  refine ⟨t, flush4_4 t, ?_⟩
  rw [mem_tile_bf16]
  intro a
  match a with
  | ⟨0, _⟩ => show win4_4.index t (0 : Fin 2) * 400 ≤ (i 0).val ∧ (i 0).val < win4_4.index t (0 : Fin 2) * 400 + 400; omega
  | ⟨1, _⟩ => show win4_4.index t (1 : Fin 2) * 256 ≤ (i 1).val ∧ (i 1).val < win4_4.index t (1 : Fin 2) * 256 + 256; omega

/-- So does the bf16 output. -/
theorem comb4_bf16 (c : Dev nD) :
    (dat4 (F := Ideal) V c).arrAt 4 cfg4.N
      = (ofFn2 (comb (Ideal.ofBits .f32 0x40000000#32)
          (dmm (toFn2 (V c main_v37 : S10000x10000.Idx → EReal)) (toFn2 (V c main_v46_1 : S10000x256.Idx → EReal)))
          (toFn2 (V c main_v43 : S10000x256.Idx → EReal))) : S10000x256.Idx → EReal) :=
  (dat4 (F := Ideal) V c).arrAt_eq_of_cover 4 (target V c) (fun t _ => flushed_bf16 V c t) cover_bf16

end Cert.KernelIdeal.Hand4

end
-- ==== Proof.KRegion5.lean ====
/-
  The projection call of layer two, read as a value. Over 25 row tiles of 400 rows it multiplies the matching tile of
  each of the three Chebyshev terms with its 256 × 128 weight slice (each product into a zero accumulator), adds the
  three products in order and adds the bias row broadcast down the tile. After the call the output array holds
  `T₀·W₀ + T₁·W₁ + T₂·W₂ + b` entry by entry.
-/
import proofs.«420550_j3083786518792_3_alg».proof.Proof.Gen.KernelIdeal.Frame
import proofs.«420550_j3083786518792_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand5

open Cert.KernelIdeal Cert.KernelIdeal.Gen Cert.Cheb

variable (V : (c : Dev nD) → (b : Ref sig .tc) → Buf (Elt Ideal) ((c : Thread nD τ).loc b))

/-! ## One of the three products -/

/-- The product contracts the tile's second axis with the slice's first: at output entry (i₀, i₁) and contraction index
    k the left factor sits at (i₀, k) and the right at (k, i₁). The four coordinates, one by one. -/
theorem lhs_proj_0 (i : S400x128.Idx) (q : dot_S400x256_S256x128_S400x128_1_0_0_1_n_n.contr.Idx) :
    (dot_S400x256_S256x128_S400x128_1_0_0_1_n_n.lhsIdx i q 0).val = (i 0).val := by
  unfold DotDims.lhsIdx
  rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
  rfl
theorem lhs_proj_1 (i : S400x128.Idx) (q : dot_S400x256_S256x128_S400x128_1_0_0_1_n_n.contr.Idx) :
    (dot_S400x256_S256x128_S400x128_1_0_0_1_n_n.lhsIdx i q 1).val = (q ⟨0, by decide⟩).val :=
  dot_S400x256_S256x128_S400x128_1_0_0_1_n_n.lhsIdx_val_of_single rfl i q
theorem rhs_proj_0 (i : S400x128.Idx) (q : dot_S400x256_S256x128_S400x128_1_0_0_1_n_n.contr.Idx) :
    (dot_S400x256_S256x128_S400x128_1_0_0_1_n_n.rhsIdx i q 0).val = (q ⟨0, by decide⟩).val :=
  dot_S400x256_S256x128_S400x128_1_0_0_1_n_n.rhsIdx_val_of_single rfl i q
theorem rhs_proj_1 (i : S400x128.Idx) (q : dot_S400x256_S256x128_S400x128_1_0_0_1_n_n.contr.Idx) :
    (dot_S400x256_S256x128_S400x128_1_0_0_1_n_n.rhsIdx i q 1).val = (i 1).val := by
  unfold DotDims.rhsIdx
  rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
  rfl

/-- A tile of 400 rows times a 256 × 128 weight slice into the zero accumulator: entry (p, q) is the sum over the 256
    features of row p's feature times the slice's entry. -/
theorem product_apply (a : FVec Ideal S400x256 .bf16) (b : FVec Ideal S256x128 .bf16) (p : Fin 400) (q : Fin 128) :
    matmul dot_S400x256_S256x128_S400x128_1_0_0_1_n_n none a b (constant (F := Ideal) S400x128 .f32 0x00000000#32) (ix2 p q)
      = ∑ k : Fin 256, a (ix2 p k) * b (ix2 k q) := by
  simp only [matmul]
  rw [Ideal.matmul_constant_zero_apply, ← Equiv.sum_comp (contrEquiv1 dot_S400x256_S256x128_S400x128_1_0_0_1_n_n 256 rfl rfl).symm]
  refine Finset.sum_congr rfl fun k _ => ?_
  have hk := contrEquiv1_symm_val dot_S400x256_S256x128_S400x128_1_0_0_1_n_n 256 rfl rfl k
  have el : dot_S400x256_S256x128_S400x128_1_0_0_1_n_n.lhsIdx (ix2 p q) ((contrEquiv1 dot_S400x256_S256x128_S400x128_1_0_0_1_n_n 256 rfl rfl).symm k) = ix2 p k := funext fun a => Fin.ext (by
    match a with
    | ⟨0, _⟩ => exact lhs_proj_0 _ _
    | ⟨1, _⟩ => exact (lhs_proj_1 _ _).trans hk)
  have er : dot_S400x256_S256x128_S400x128_1_0_0_1_n_n.rhsIdx (ix2 p q) ((contrEquiv1 dot_S400x256_S256x128_S400x128_1_0_0_1_n_n 256 rfl rfl).symm k) = ix2 k q := funext fun a => Fin.ext (by
    match a with
    | ⟨0, _⟩ => exact (rhs_proj_0 _ _).trans hk
    | ⟨1, _⟩ => exact rhs_proj_1 _ _)
  rw [el, er]

/-! ## The body's arithmetic at an entry -/

/-- Entry (p, q) of what the body stores: the three products of the row tiles with the three weight slices added in
    order, plus the bias at column q. -/
theorem payload_apply (v0 : Vec Ideal S400x256 .bf16) (v2 : Vec Ideal S1x256x128 .bf16) (v5 : Vec Ideal S400x256 .bf16)
    (v7 : Vec Ideal S1x256x128 .bf16) (v11 : Vec Ideal S400x256 .bf16) (v13 : Vec Ideal S1x256x128 .bf16)
    (v17 : Vec Ideal S1x128 .f32) (p : Fin 400) (q : Fin 128) :
    k5_pay1 (F := Ideal) v0 v2 v5 v7 v11 v13 v17 (ix2 p q)
      = ((∑ k : Fin 256, v0 (ix2 p k) * v2 (ix3 (0 : Fin 1) k q)) + (∑ k : Fin 256, v5 (ix2 p k) * v7 (ix3 (0 : Fin 1) k q)))
          + (∑ k : Fin 256, v11 (ix2 p k) * v13 (ix3 (0 : Fin 1) k q)) + v17 (ix2 (0 : Fin 1) q) := by
  unfold k5_pay1
  simp only [shapeCast_self]
  simp only [addf_apply]
  rw [product_apply, product_apply, product_apply, broadcastTo_1b_ab_apply]
  simp only [shapeCast_1ab_ab_apply]

/-! ## The weight slices and a tile's entry -/

/-- The body reads the weights' staging buffer through three rectangles of one plane each: entry (0, k, q) of slice
    s is the weights' entry (s, k, q). -/
theorem slice_apply (x3 : Vec Ideal S3x256x128 .bf16) (k : Fin 256) (q : Fin 128) :
    View.ld x3 r5_1 (ix3 (0 : Fin 1) k q) = x3 (ix3 (0 : Fin 3) k q)
    ∧ View.ld x3 r5_2 (ix3 (0 : Fin 1) k q) = x3 (ix3 (1 : Fin 3) k q)
    ∧ View.ld x3 r5_3 (ix3 (0 : Fin 1) k q) = x3 (ix3 (2 : Fin 3) k q) := by
  refine ⟨congrArg x3 (funext fun a => Fin.ext ?_), congrArg x3 (funext fun a => Fin.ext ?_),
    congrArg x3 (funext fun a => Fin.ext ?_)⟩
  · match a with
    | ⟨0, _⟩ => rfl
    | ⟨1, _⟩ => show 0 + 1 * k.val = k.val; omega
    | ⟨2, _⟩ => show 0 + 1 * q.val = q.val; omega
  · match a with
    | ⟨0, _⟩ => rfl
    | ⟨1, _⟩ => show 0 + 1 * k.val = k.val; omega
    | ⟨2, _⟩ => show 0 + 1 * q.val = q.val; omega
  · match a with
    | ⟨0, _⟩ => rfl
    | ⟨1, _⟩ => show 0 + 1 * k.val = k.val; omega
    | ⟨2, _⟩ => show 0 + 1 * q.val = q.val; omega

/-- Entry (p, q) of what the body stores, when row p of each tile is row r of its array, the weights' buffer holds
    the weights and the bias buffer the bias: the projection of row r at column q. -/
theorem tile_apply (T0 T1 T2 : S10000x256.Idx → EReal) (W : S3x256x128.Idx → EReal) (b : S1x128.Idx → EReal)
    (x0 x1 x2 : Vec Ideal S400x256 .bf16) (x3 : Vec Ideal S3x256x128 .bf16) (x4 : Vec Ideal S1x128 .f32)
    (p : Fin 400) (q : Fin 128) (r : Fin 10000)
    (h0 : ∀ k : Fin 256, x0 (ix2 p k) = T0 (ix2 r k))
    (h1 : ∀ k : Fin 256, x1 (ix2 p k) = T1 (ix2 r k))
    (h2 : ∀ k : Fin 256, x2 (ix2 p k) = T2 (ix2 r k))
    (h3 : ∀ (s : Fin 3) (k : Fin 256), x3 (ix3 s k q) = W (ix3 s k q))
    (h4 : x4 (ix2 (0 : Fin 1) q) = b (ix2 (0 : Fin 1) q)) :
    k5_pay1 (F := Ideal) x0 (View.ld x3 r5_1) x1 (View.ld x3 r5_2) x2 (View.ld x3 r5_3) x4 (ix2 p q)
      = (ofFn2 (proj (toFn2 T0) (toFn2 T1) (toFn2 T2) (toFn3 W) (fun o => b (ix2 0 o))) : S10000x128.Idx → EReal) (ix2 r q) := by
  rw [ofFn2_apply, payload_apply]
  unfold proj toFn2 toFn3
  simp only [(slice_apply x3 _ q).1, (slice_apply x3 _ q).2.1, (slice_apply x3 _ q).2.2, h0, h1, h2, h3, h4]

/-! ## From tiles to the array -/

theorem zero_offsets : (![0, 0] : Fin 2 → Nat) = fun _ => 0 := funext fun a => by fin_cases a <;> rfl

/-- The block index maps over the 25 points: the three row-tiled inputs and the output sit at block (t, 0), the
    weights and the bias at block 0 on every axis. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 3) = 0 ∧ win5_3.index t (1 : Fin 3) = 0 ∧ win5_3.index t (2 : Fin 3) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The array the call leaves: the projection of the three arrays of terms, the weights and the bias as the call
    finds them. -/
abbrev projArr (c : Dev nD) : S10000x128.Idx → EReal :=
  ofFn2 (proj (toFn2 (V c main_v45 : S10000x256.Idx → EReal)) (toFn2 (V c main_v46_1 : S10000x256.Idx → EReal))
    (toFn2 (V c main_v47_1 : S10000x256.Idx → EReal)) (toFn3 (V c main_v44 : S3x256x128.Idx → EReal))
    (fun o => (V c main_v48 : S1x128.Idx → EReal) (ix2 0 o)))

/-- What point t writes back is rows 400 t … 400 t + 399 of that array. -/
theorem flushed_eq (c : Dev nD) (t : Fin cfg5.N) :
    (dat5 (F := Ideal) V c).flushed 5 t = ((cfg5.win 5).blk t).view.read (Elt Ideal) (projArr V c) := by
  show (cfg5.win 5).cut (grid5.coords t) ((dat5 (F := Ideal) V c).after 5 t) = _
  rw [after5_5]
  unfold out5_5
  rw [View.canon_unit_zero zero_offsets]
  simp only [View.ld_unit_zero (S := S400x256) zero_offsets, View.ld_unit_zero (S := S1x128) zero_offsets]
  obtain ⟨e00, e01, e10, e11, e20, e21, e30, e31, e32, e40, e41, e50, e51⟩ := idx_facts t
  have hN : grid5.N = 25 := N_5
  have ht : t.val < 25 := hN ▸ t.isLt
  funext j
  obtain ⟨p, q, rfl⟩ : ∃ (p : Fin 400) (q : Fin 128), j = ix2 p q := ⟨j 0, j 1, eq_ix2 j⟩
  have hr : 400 * t.val + p.val < 10000 := by have := p.isLt; omega
  show k5_pay1 (F := Ideal) (iblk5 V c 0 t) (View.ld (iblk5 V c 3 t) r5_1) (iblk5 V c 1 t) (View.ld (iblk5 V c 3 t) r5_2)
      (iblk5 V c 2 t) (View.ld (iblk5 V c 3 t) r5_3) (iblk5 V c 4 t) (ix2 p q)
    = projArr V c (((cfg5.win 5).blk t).view.emb (ix2 p q))
  have eo : ((cfg5.win 5).blk t).view.emb (ix2 p q) = ix2 (⟨400 * t.val + p.val, hr⟩ : Fin 10000) q := by
    funext a; apply Fin.ext
    match a with
    | ⟨0, _⟩ => show win5_5.index t (0 : Fin 2) * 400 + 1 * p.val = 400 * t.val + p.val; omega
    | ⟨1, _⟩ => show win5_5.index t (1 : Fin 2) * 128 + 1 * q.val = q.val; omega
  rw [eo]
  refine tile_apply (V c main_v45) (V c main_v46_1) (V c main_v47_1) (V c main_v44) (V c main_v48)
    (iblk5 V c 0 t) (iblk5 V c 1 t) (iblk5 V c 2 t) (iblk5 V c 3 t) (iblk5 V c 4 t) p q ⟨400 * t.val + p.val, hr⟩ ?_ ?_ ?_ ?_ ?_
  · intro k
    show V c main_v45 (((cfg5.win 0).blk t).view.emb (ix2 p k)) = _
    refine congrArg _ (funext fun a => Fin.ext ?_)
    match a with
    | ⟨0, _⟩ => show win5_0.index t (0 : Fin 2) * 400 + 1 * p.val = 400 * t.val + p.val; omega
    | ⟨1, _⟩ => show win5_0.index t (1 : Fin 2) * 256 + 1 * k.val = k.val; omega
  · intro k
    show V c main_v46_1 (((cfg5.win 1).blk t).view.emb (ix2 p k)) = _
    refine congrArg _ (funext fun a => Fin.ext ?_)
    match a with
    | ⟨0, _⟩ => show win5_1.index t (0 : Fin 2) * 400 + 1 * p.val = 400 * t.val + p.val; omega
    | ⟨1, _⟩ => show win5_1.index t (1 : Fin 2) * 256 + 1 * k.val = k.val; omega
  · intro k
    show V c main_v47_1 (((cfg5.win 2).blk t).view.emb (ix2 p k)) = _
    refine congrArg _ (funext fun a => Fin.ext ?_)
    match a with
    | ⟨0, _⟩ => show win5_2.index t (0 : Fin 2) * 400 + 1 * p.val = 400 * t.val + p.val; omega
    | ⟨1, _⟩ => show win5_2.index t (1 : Fin 2) * 256 + 1 * k.val = k.val; omega
  · intro s k
    show V c main_v44 (((cfg5.win 3).blk t).view.emb (ix3 s k q)) = _
    refine congrArg _ (funext fun a => Fin.ext ?_)
    match a with
    | ⟨0, _⟩ => show win5_3.index t (0 : Fin 3) * 3 + 1 * s.val = s.val; omega
    | ⟨1, _⟩ => show win5_3.index t (1 : Fin 3) * 256 + 1 * k.val = k.val; omega
    | ⟨2, _⟩ => show win5_3.index t (2 : Fin 3) * 128 + 1 * q.val = q.val; omega
  · show V c main_v48 (((cfg5.win 4).blk t).view.emb (ix2 (0 : Fin 1) q)) = _
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * q.val = q.val; omega

/-- An index of the output array is in point t's block iff each coordinate is in the block's range on its axis. -/
theorem mem_tile (t : Fin cfg5.N) (i : S10000x128.Idx) :
    i ∈ ((cfg5.win 5).blk t).view.set ↔ ∀ a : Fin 2, win5_5.index t a * S400x128.size a ≤ (i a).val ∧ (i a).val < win5_5.index t a * S400x128.size a + S400x128.size a := by
  show i ∈ ((View.whole main_v49).slice (win5_5.rect t)).set ↔ _
  rw [View.set_slice_whole, Rect.mem_set_unit]
  exact Iff.rfl

/-- Row r of the output is written back by point r / 400, and every point writes back. -/
theorem cover (i : S10000x128.Idx) : ∃ t : Fin cfg5.N, (cfg5.win 5).flush t = true ∧ i ∈ ((cfg5.win 5).blk t).view.set := by
  have hi0 : (i 0).val < 10000 := (i 0).isLt
  have hi1 : (i 1).val < 128 := (i 1).isLt
  have hN : grid5.N = 25 := N_5
  have hlt : (i 0).val / 400 < grid5.N := by omega
  refine ⟨⟨(i 0).val / 400, hlt⟩, flush5_5 _, ?_⟩
  rw [mem_tile]
  obtain ⟨-, -, -, -, -, -, -, -, -, -, -, e50, e51⟩ := idx_facts ⟨(i 0).val / 400, hlt⟩
  have e50' : win5_5.index ⟨(i 0).val / 400, hlt⟩ (0 : Fin 2) = (i 0).val / 400 := e50
  intro a
  match a with
  | ⟨0, _⟩ =>
    show win5_5.index ⟨(i 0).val / 400, hlt⟩ (0 : Fin 2) * 400 ≤ (i 0).val ∧ (i 0).val < win5_5.index ⟨(i 0).val / 400, hlt⟩ (0 : Fin 2) * 400 + 400
    omega
  | ⟨1, _⟩ =>
    show win5_5.index ⟨(i 0).val / 400, hlt⟩ (1 : Fin 2) * 128 ≤ (i 1).val ∧ (i 1).val < win5_5.index ⟨(i 0).val / 400, hlt⟩ (1 : Fin 2) * 128 + 128
    omega

/-- After the call the output holds the three projections added in order, plus the bias. -/
theorem proj5 (c : Dev nD) :
    (dat5 (F := Ideal) V c).arrAt 5 cfg5.N
      = (ofFn2 (proj (toFn2 (V c main_v45 : S10000x256.Idx → EReal)) (toFn2 (V c main_v46_1 : S10000x256.Idx → EReal))
          (toFn2 (V c main_v47_1 : S10000x256.Idx → EReal)) (toFn3 (V c main_v44 : S3x256x128.Idx → EReal))
          (fun o => (V c main_v48 : S1x128.Idx → EReal) (ix2 0 o))) : S10000x128.Idx → EReal) :=
  (dat5 (F := Ideal) V c).arrAt_eq_of_cover 5 (projArr V c) (fun t _ => flushed_eq V c t) (fun i => cover i)

end Cert.KernelIdeal.Hand5

end
-- ==== Proof.LibRowGatherScatter.lean ====
/-
  Rows of a matrix taken at an index vector, and rows of a matrix added into a matrix at an index vector, each read
  at one element.

  `h[row]` for a matrix `h : [N, D]` and an index vector `row : [E]` is a gather whose slices are whole rows
  (slice sizes `[1, D]`, the row axis collapsed, the column axis the one offset axis) over the start indices as
  `[E, 1]`: result element `(e, c)` is `h` at row `row[e]` — the start word read SIGNED and clamped into
  `[0, N − 1]` — and column `c` (`gather_rows_apply`); for a start word already in `[0, N)` the row is the word
  itself (`gather_rows_apply_of_inRange`, `gather_rows_apply_toNat`).

  `segment_sum(msg, col)` for `msg : [E, D]` and `col : [E]` into `N` segments is a scatter that adds whole rows
  (the column axis the one update window axis, the row axis of the operand inserted) at one-component index vectors:
  update element `(e, c)` lands at `(n, c')` exactly when its start word, read signed and NOT clamped, is `n` and
  `c = c'` (`resultIdx?_rows_eq_some_iff`); an update whose start word is outside `[0, N)` lands nowhere. So
  the result at `(n, c)` is the operand's element plus the sum over the rows `e` whose start word is `n` of
  `upd (e, c)` (`scatterAdd_rows_apply`).
-/
import Idealize.ShloMosaic.PureOps.Ideal
import Idealize.ShloMosaic.Lib.ValueIdx
import Mathlib.Algebra.BigOperators.Fin

namespace Cert.Lib.RowGS

open Idealize.ShloMosaic Idealize.ShloMosaic.ValueIdx
open scoped BigOperators

/-! ## Rows gathered -/

/-- The dimension numbers of a gather of whole rows: operand `[N, D]`, start indices `[E, 1]`, result `[E, D]`;
    the result's column axis is the one offset axis, the operand's row axis is collapsed and is the axis the
    one-component start index names, the slices are `1 × D`. -/
abbrev rowGatherDims (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at those dimension numbers, read at `(e, c)`: on the row axis the clamped start word and nothing
    else (no batching axis, the axis collapsed), on the column axis no start (the start index does not name it) and
    the result's column coordinate as offset. -/
theorem gather_rowDims_apply {α : Type} {N D E w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N D E wf).start (ix2 e c) idx 0 + (rowGatherDims N D E wf).batchCoord (ix2 e c) 0
      + (rowGatherDims N D E wf).offCoord (ix2 e c) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c)
        ⟨List.idxOf (0 : Fin 2) (rowGatherDims N D E wf).startIndexMap,
          List.idxOf_lt_length_iff.2 (List.mem_singleton.mpr rfl)⟩ = ix2 e 0 := by
      funext b
      refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
      + (rowGatherDims N D E wf).offCoord (ix2 e c) 1 = c.val
    have hstart : (rowGatherDims N D E wf).start (ix2 e c) idx 1 = 0 := by
      unfold GatherDims.start
      rw [dif_neg]
      intro hmem
      exact absurd (List.mem_singleton.mp hmem) (show ¬ (1 : Fin 2) = 0 by decide)
    have hoff : (rowGatherDims N D E wf).offCoord (ix2 e c) 1 = c.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hstart, GatherDims.batchCoord_eq_zero _ _ _ List.not_mem_nil, hoff]
    simp

/-- THE ROW GATHER READ AT `(e, c)`, for any record with those dimension numbers: the operand at column `c` of the
    row the start word `idx (e, 0)` names, the word read signed and clamped into `[0, N − 1]`. -/
theorem gather_rows_apply {α : Type} {N D E w : ℕ} (hN : 0 < N)
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D) :
    Host.gather d x idx (ix2 e c)
      = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  exact gather_rowDims_apply hN wf x idx e c

/-- The row gather at a start word already in `[0, N)`: the clamp does nothing, the row is the word read signed. -/
theorem gather_rows_apply_of_inRange {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toInt.toNat, by omega⟩ c) := by
  rw [gather_rows_apply (by omega) d h1 h2 h3 h4 h5 h6 h7 x idx e c]
  congr 2
  refine Fin.ext ?_
  show min (idx (ix2 e 0)).toInt.toNat (N - 1) = (idx (ix2 e 0)).toInt.toNat
  omega

/-- A word whose signed reading is not negative reads the same signed and unsigned. -/
theorem toInt_eq_toNat_of_nonneg {w : ℕ} (b : BitVec w) (h0 : 0 ≤ b.toInt) : b.toInt = (b.toNat : ℤ) := by
  rw [BitVec.toInt_eq_toNat_cond] at h0 ⊢
  by_cases h : 2 * b.toNat < 2 ^ w
  · rw [if_pos h]
  · rw [if_neg h] at h0
    have := b.isLt
    omega

/-- The row gather at a start word in `[0, N)`, the row written as the word read UNSIGNED (which is its signed
    reading there). -/
theorem gather_rows_apply_toNat {α : Type} {N D E w : ℕ}
    (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (c : Fin D)
    (h0 : 0 ≤ (idx (ix2 e 0)).toInt) (hlt : (idx (ix2 e 0)).toInt < (N : ℤ)) :
    Host.gather d x idx (ix2 e c)
      = x (ix2 ⟨(idx (ix2 e 0)).toNat, by
          have := toInt_eq_toNat_of_nonneg _ h0; omega⟩ c) := by
  rw [gather_rows_apply_of_inRange d h1 h2 h3 h4 h5 h6 h7 x idx e c h0 hlt]
  congr 2
  refine Fin.ext ?_
  show (idx (ix2 e 0)).toInt.toNat = (idx (ix2 e 0)).toNat
  have := toInt_eq_toNat_of_nonneg _ h0
  omega

/-! ## Rows scattered and added -/

/-- The dimension numbers of a scatter of whole rows: operand `[N, D]`, scatter indices `[E, 1]`, updates `[E, D]`;
    the updates' column axis is the one window axis, the operand's row axis is inserted and is the axis the
    one-component scatter index names. -/
abbrev rowScatterDims (N D E : ℕ)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (c : Fin D)

/-- On the row axis the window of update `(e, c)` starts at its start word `idx (e, 0)`, read signed. -/
theorem rowScatter_start_row :
    (rowScatterDims N D E wf).start (ix2 e c) idx 0 = (idx (ix2 e 0)).toInt := by
  unfold ScatterDims.start
  rw [dif_pos (show (0 : Fin 2) ∈ (rowScatterDims N D E wf).scatterDimsToOperandDims from
    List.mem_singleton.mpr rfl)]
  congr 2
  funext b
  refine Fin.ext ?_
  match b with
  | ⟨0, _⟩ => rfl
  | ⟨1, _⟩ => rfl

/-- On the column axis, which the scatter index does not name, the window starts at `0`. -/
theorem rowScatter_start_col : (rowScatterDims N D E wf).start (ix2 e c) idx 1 = 0 := by
  unfold ScatterDims.start
  rw [dif_neg]
  intro hmem
  exact absurd (List.mem_singleton.mp hmem) (show ¬ (1 : Fin 2) = 0 by decide)

/-- The operand's axes that are not inserted: the column axis alone. -/
theorem rowScatter_sKept : (rowScatterDims N D E wf).sKept = [1] :=
  (by decide : (List.finRange 2).filter (fun a : Fin 2 => decide (a ∉ ([0] : List (Fin 2)))) = [1])

/-- The inserted row axis has window coordinate `0`. -/
theorem rowScatter_window_row : (rowScatterDims N D E wf).window (ix2 e c) 0 = 0 := by
  unfold ScatterDims.window
  rw [dif_neg]
  intro hmem
  rw [rowScatter_sKept] at hmem
  exact absurd (List.mem_singleton.mp hmem) (show ¬ (0 : Fin 2) = 1 by decide)

/-- The column axis has the update's column as window coordinate. -/
theorem rowScatter_window_col : (rowScatterDims N D E wf).window (ix2 e c) 1 = c.val := by
  unfold ScatterDims.window
  rw [dif_pos (show (1 : Fin 2) ∈ (rowScatterDims N D E wf).sKept by
    rw [rowScatter_sKept]; exact List.mem_singleton.mpr rfl)]
  rfl

/-- Update `(e, c)` of a row scatter lands at `(n, c')` exactly when its start word, read signed, is `n` and the
    columns agree; a start word outside `[0, N)` lands nowhere. -/
theorem resultIdx?_rowDims_eq_some_iff (n : Fin N) (c' : Fin D) :
    (rowScatterDims N D E wf).resultIdx? (ix2 e c) idx = some (ix2 n c')
      ↔ (idx (ix2 e 0)).toInt = (n.val : ℤ) ∧ c = c' := by
  have hs0 := rowScatter_start_row wf idx e c
  have hs1 := rowScatter_start_col wf idx e c
  have hw0 := rowScatter_window_row wf e c
  have hw1 := rowScatter_window_col wf e c
  have hc := c.isLt
  have hn := n.isLt
  unfold ScatterDims.resultIdx?
  by_cases hin : 0 ≤ (idx (ix2 e 0)).toInt ∧ (idx (ix2 e 0)).toInt < (N : ℤ)
  · rw [dif_pos (by
      intro a
      match a with
      | ⟨0, _⟩ =>
        show 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ)
        rw [hs0, hw0]
        omega
      | ⟨1, _⟩ =>
        show 0 ≤ (rowScatterDims N D E wf).start (ix2 e c) idx 1
            + (((rowScatterDims N D E wf).window (ix2 e c) 1 : ℕ) : ℤ)
          ∧ (rowScatterDims N D E wf).start (ix2 e c) idx 1
            + (((rowScatterDims N D E wf).window (ix2 e c) 1 : ℕ) : ℤ) < (D : ℤ)
        rw [hs1, hw1]
        omega)]
    rw [Option.some_inj]
    constructor
    · intro hf
      have h0 : ((rowScatterDims N D E wf).start (ix2 e c) idx 0
          + (((rowScatterDims N D E wf).window (ix2 e c) 0 : ℕ) : ℤ)).toNat = n.val :=
        congrArg (fun f => (f 0).val) hf
      have h1 : ((rowScatterDims N D E wf).start (ix2 e c) idx 1
          + (((rowScatterDims N D E wf).window (ix2 e c) 1 : ℕ) : ℤ)).toNat = c'.val :=
        congrArg (fun f => (f 1).val) hf
      rw [hs0, hw0] at h0
      rw [hs1, hw1] at h1
      exact ⟨by omega, Fin.ext (by omega)⟩
    · rintro ⟨ht, rfl⟩
      funext a
      apply Fin.ext
      match a with
      | ⟨0, _⟩ =>
        show ((rowScatterDims N D E wf).start (ix2 e c) idx 0
          + (((rowScatterDims N D E wf).window (ix2 e c) 0 : ℕ) : ℤ)).toNat = n.val
        rw [hs0, hw0]
        omega
      | ⟨1, _⟩ =>
        show ((rowScatterDims N D E wf).start (ix2 e c) idx 1
          + (((rowScatterDims N D E wf).window (ix2 e c) 1 : ℕ) : ℤ)).toNat = c.val
        rw [hs1, hw1]
        omega
  · rw [dif_neg (by
      intro hall
      apply hin
      have h := hall 0
      have h' : 0 ≤ (rowScatterDims N D E wf).start (ix2 e c) idx 0
            + (((rowScatterDims N D E wf).window (ix2 e c) 0 : ℕ) : ℤ)
          ∧ (rowScatterDims N D E wf).start (ix2 e c) idx 0
            + (((rowScatterDims N D E wf).window (ix2 e c) 0 : ℕ) : ℤ) < (N : ℤ) := h
      rw [hs0, hw0] at h'
      omega)]
    constructor
    · intro hf
      cases hf
    · rintro ⟨ht, -⟩
      exfalso
      apply hin
      omega

end RowScatter

/-- WHERE A ROW UPDATE LANDS, for any record with those dimension numbers: update `(e, c)` lands at `(n, c')` exactly
    when its start word `idx (e, 0)`, read signed and not clamped, is `n`, and `c = c'`. -/
theorem resultIdx?_rows_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin D) (n : Fin N) (c' : Fin D) :
    d.resultIdx? (ix2 e c) idx = some (ix2 n c') ↔ (idx (ix2 e 0)).toInt = (n.val : ℤ) ∧ c = c' := by
  obtain ⟨uw, iw, sd, iv, wf⟩ := d
  simp only at h1 h2 h3 h4
  subst h1 h2 h3 h4
  exact resultIdx?_rowDims_eq_some_iff wf idx e c n c'

/-- THE ROW SCATTER-ADD READ AT `(n, c)`: the operand's element plus, over the update rows `e` whose start word read
    signed is `n`, the update's element in column `c`. -/
theorem scatterAdd_rows_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd d x idx upd (ix2 n c)
      = x (ix2 n c) + ∑ e : Fin E, if (idx (ix2 e 0)).toInt = (n.val : ℤ) then upd (ix2 e c) else 0 := by
  unfold Ideal.hostScatterAdd
  congr 1
  rw [Finset.sum_filter, sum_idx2]
  refine Finset.sum_congr rfl (fun e _ => ?_)
  simp only [resultIdx?_rows_eq_some_iff d h1 h2 h3 h4 idx e _ n c]
  by_cases ht : (idx (ix2 e 0)).toInt = (n.val : ℤ)
  · simp [ht]
  · simp [ht]

end Cert.Lib.RowGS
-- ==== Proof.RefProp.lean ====
/-
  One propagation step of the reference, read as a value: gather the source rows, scale every gathered row by its
  edge's weight, and add the rows up by destination. With every edge-list word a node number the gather reads row
  `src e` itself (no clamping) and the row lands in segment `dst e`, so the result's entry `(i, d)` is
  `0 + ∑ over the edges e into i of t (src e, d) · w e`: the sparse step `smm`.
-/
import proofs.«420550_j3083786518792_3_alg».proof.Proof.Spec
import proofs.«420550_j3083786518792_3_alg».proof.Proof.Graph
import proofs.«420550_j3083786518792_3_alg».proof.Proof.LibRowGatherScatter
import Idealize.ShloMosaic.PureOps.Ideal
import Idealize.ShloMosaic.Lib.ValueIdx

noncomputable section

namespace Cert.Cheb

open Idealize.ShloMosaic Idealize.ShloMosaic.ValueIdx Cert.Lib.RowGS Cert.AggAlgebra

/-- Gather rows at the sources, scale by the edge weights, segment-sum by the destinations: the sparse step.
    `J` / `I` are the start-index columns of the gather / the scatter (the edge list's two rows), `Wb` the weights
    broadcast along the feature axis, `z` the zero operand. -/
theorem prop_apply
    (gd : GatherDims ⟨2, ![10000, 256]⟩ ⟨2, ![320000, 1]⟩ ⟨2, ![320000, 256]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, 256])
    (sd : ScatterDims ⟨2, ![10000, 256]⟩ ⟨2, ![320000, 1]⟩ ⟨2, ![320000, 256]⟩)
    (s1 : sd.updateWindowDims = [1]) (s2 : sd.insertedWindowDims = [0]) (s3 : sd.scatterDimsToOperandDims = [0])
    (s4 : sd.indexVectorDim = 1)
    (edge : IVec ⟨2, ![2, 320000]⟩ 32) (hr : InRange edge)
    (z t : (⟨2, ![10000, 256]⟩ : Shape).Idx → EReal) (hz : ∀ i, z i = 0)
    (J I : IVec ⟨2, ![320000, 1]⟩ 32)
    (hJ : ∀ e : Fin 320000, J (ix2 e 0) = edge (ix2 0 e)) (hI : ∀ e : Fin 320000, I (ix2 e 0) = edge (ix2 1 e))
    (Wb : (⟨2, ![320000, 256]⟩ : Shape).Idx → EReal) (w : Fin 320000 → EReal)
    (hW : ∀ (e : Fin 320000) (d : Fin 256), Wb (ix2 e d) = w e) :
    Ideal.hostScatterAdd sd z I (fun i => Host.gather gd t J i * Wb i)
      = ofFn2 (smm (nodeOf edge 0) (nodeOf edge 1) w (toFn2 t)) := by
  funext i
  obtain ⟨n, c, rfl⟩ : ∃ (n : Fin 10000) (c : Fin 256), i = ix2 n c := ⟨i 0, i 1, eq_ix2 i⟩
  rw [scatterAdd_rows_apply sd s1 s2 s3 s4 z I _ n c, hz, ofFn2_apply]
  unfold smm
  refine congrArg (fun s => (0 : EReal) + s) (Finset.sum_congr rfl (fun e _ => ?_))
  -- the destination word read signed is `n` exactly when the destination node is `n`
  have hdst : ((I (ix2 e 0)).toInt = (n.val : ℤ)) ↔ (nodeOf edge 1 e = n) := by
    rw [hI e, toInt_eq_nodeOf hr 1 e, Fin.ext_iff]
    exact Nat.cast_inj
  by_cases hn : nodeOf edge 1 e = n
  · rw [if_pos (hdst.mpr hn), if_pos hn]
    -- the source word is in range, so the gather reads row `src e` itself
    have hsrc : (J (ix2 e 0)).toInt = ((nodeOf edge 0 e).val : ℤ) := by
      rw [hJ e]; exact toInt_eq_nodeOf hr 0 e
    have h0 : 0 ≤ (J (ix2 e 0)).toInt := by rw [hsrc]; exact Int.natCast_nonneg _
    have hlt : (J (ix2 e 0)).toInt < ((10000 : ℕ) : ℤ) := by
      rw [hsrc]; exact Int.ofNat_lt.mpr (nodeOf edge 0 e).isLt
    have hrow : (⟨(J (ix2 e 0)).toInt.toNat, by omega⟩ : Fin 10000) = nodeOf edge 0 e :=
      Fin.ext (by
        show (J (ix2 e 0)).toInt.toNat = (nodeOf edge 0 e).val
        rw [hsrc, Int.toNat_natCast])
    show Host.gather gd t J (ix2 e c) * Wb (ix2 e c) = _
    rw [gather_rows_apply_of_inRange gd g1 g2 g3 g4 g5 g6 g7 t J e c h0 hlt, hW e c]
    exact congrArg (fun r => t (ix2 r c) * w e) hrow
  · rw [if_neg (fun h => hn (hdst.mp h)), if_neg hn]

end Cert.Cheb

end
-- ==== Proof.RefGraph.lean ====
/-
  The reference's sparse propagation step, named. The reference computes the per-edge weights once (`%29`, a function
  of the edge list alone) and propagates with them four times; `P x1` is that step as a function on node features.
-/
import proofs.«420550_j3083786518792_3_alg».proof.Proof.RefRead
import proofs.«420550_j3083786518792_3_alg».proof.Proof.RefProp
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.ReferenceIdeal.HandRef

open Cert.ReferenceIdeal Cert.ReferenceIdeal.ReadP Cert.Cheb

/-- The literal 2.0 of the Chebyshev recursion. -/
abbrev two : EReal := Ideal.ofBits .f32 0x40000000#32
/-- The literal 0.0 the first layer's output is cut off at. -/
abbrev zero : EReal := Ideal.ofBits .f32 0x00000000#32

/-- The reference's propagation step over its own per-edge weights. -/
def P (x1 : IVec S2x320000 32) : (Fin 10000 → Fin 256 → EReal) → Fin 10000 → Fin 256 → EReal :=
  smm (nodeOf x1 0) (nodeOf x1 1) (toFn1 (val_main_v29 (F := Ideal) x1 : S320000.Idx → EReal))

end Cert.ReferenceIdeal.HandRef

end
-- ==== Proof.RefLayer1.lean ====
/-
  The reference's first layer, read as a value: its two propagation steps are the sparse step `P`, its three
  `dot_general`s are plain sums over the 256 input features, added in order with the bias, then `max (·) 0`.
-/
import proofs.«420550_j3083786518792_3_alg».proof.Proof.RefRead
import proofs.«420550_j3083786518792_3_alg».proof.Proof.RefProp
import proofs.«420550_j3083786518792_3_alg».proof.Proof.RefGraph
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.ReferenceIdeal.HandRef

open Cert.ReferenceIdeal Cert.ReferenceIdeal.ReadP Cert.Cheb

variable (x0 : FVec Ideal S10000x256 .f32) (x1 : IVec S2x320000 32) (x2 : FVec Ideal S3x256x256 .f32) (x3 : FVec Ideal S256 .f32)

/-! ## The operands of a propagation step

The source column is `select (src < 0) (src + 10000) src` spread to `[E, 1]`, the destination column is `dst` spread
to `[E, 1]`, the weights are the per-edge weights spread along the feature axis, and the operand added into is zero. -/

/-- A node number is not negative read signed, so the wrap-around `select (w < 0) (w + 10000) w` keeps the word. -/
theorem wrap_eq (w alt : BitVec 32) (h : w.toNat < 10000) :
    Scalar.select (IntOp.cmpi .slt w 0#32) alt w = w := by
  have hc : IntOp.cmpi .slt w 0#32 = 0#1 := by
    refine eq_zero_of_ne_one fun h1 => ?_
    have h2 := (StableHlo.Predicate.slt_iff_toNat (a := w) (b := 0#32) (by omega) (by decide)).mp h1
    exact Nat.not_lt_zero _ h2
  rw [hc, select_zero]

/-- Row `e` of the source column reads word `(0, e)` of the edge list. -/
theorem src_idx (e : Fin 320000) : idx_main_v0 (idx_main_v1 (idx_main_v38 (ix2 e 0))) = ix2 0 e :=
  funext fun a => Fin.ext (by
    match a with
    | ⟨0, _⟩ => rfl
    | ⟨1, _⟩ => exact Nat.mod_eq_of_lt e.isLt)

/-- Row `e` of the destination column reads word `(1, e)` of the edge list. -/
theorem dst_idx (e : Fin 320000) : idx_main_v2 (idx_main_v3 (idx_main_v44 (ix2 e 0))) = ix2 1 e :=
  funext fun a => Fin.ext (by
    match a with
    | ⟨0, _⟩ => rfl
    | ⟨1, _⟩ => exact Nat.mod_eq_of_lt e.isLt)

/-- Entry `(e, d)` of the spread weights reads weight `e`. -/
theorem wgt_idx (e : Fin 320000) (d : Fin 256) : idx_main_v40 (idx_main_v41 (ix2 e d)) = ix1 e :=
  funext fun a => by
    match a with
    | ⟨0, _⟩ => rfl

/-- The source column is the edge list's row 0: in range nothing wraps around. -/
theorem srcCol (hr : InRange x1) (e : Fin 320000) : val_main_v38 (F := Ideal) x1 (ix2 e 0) = x1 (ix2 0 e) := by
  rw [val_main_v38_apply, val_main_v37_apply, val_main_v34_apply, val_main_v33_apply, val_main_c_7_apply,
    val_main_v1_apply, val_main_v0_apply, src_idx]
  exact wrap_eq _ _ (hr 0 e)

/-- The destination column is the edge list's row 1. -/
theorem dstCol (e : Fin 320000) : val_main_v44 (F := Ideal) x1 (ix2 e 0) = x1 (ix2 1 e) := by
  rw [val_main_v44_apply, val_main_v3_apply, val_main_v2_apply, dst_idx]

/-- The spread weights are the per-edge weights, the same along the feature axis. -/
theorem wgtCol (e : Fin 320000) (d : Fin 256) :
    (val_main_v41 (F := Ideal) x1 : S320000x256.Idx → EReal) (ix2 e d)
      = toFn1 (val_main_v29 (F := Ideal) x1 : S320000.Idx → EReal) e := by
  unfold toFn1
  rw [val_main_v41_apply, val_main_v40_apply, wgt_idx]

/-- The operand added into is zero. -/
theorem zeros43 (i : S10000x256.Idx) : (val_main_v43 (F := Ideal) : S10000x256.Idx → EReal) i = 0 := by
  rw [val_main_v43_apply, val_main_cst_9_apply, Ideal.ofBits_def, Ideal.ofBits_zero_f32]

/-- One propagation step of the reference over node features `t`: gather the source rows, scale by the weights,
    add up by destination. With every edge-list word a node number this is the sparse step. -/
theorem prop_step (hr : InRange x1) (t : S10000x256.Idx → EReal) :
    Ideal.hostScatterAdd scatter_S10000x256_S320000x1_S320000x256_1_0_0_1 (val_main_v43 (F := Ideal)) (val_main_v44 (F := Ideal) x1)
        (fun i => Host.gather gather_S10000x256_S320000x1_S320000x256_1_0_n_n_0_1_1256 t (val_main_v38 (F := Ideal) x1) i
          * (val_main_v41 (F := Ideal) x1 : S320000x256.Idx → EReal) i)
      = ofFn2 (P x1 (toFn2 t)) := by
  unfold P
  exact prop_apply gather_S10000x256_S320000x1_S320000x256_1_0_n_n_0_1_1256 rfl rfl rfl rfl rfl rfl rfl
    scatter_S10000x256_S320000x1_S320000x256_1_0_0_1 rfl rfl rfl rfl x1 hr
    (val_main_v43 (F := Ideal)) t zeros43 (val_main_v38 (F := Ideal) x1) (val_main_v44 (F := Ideal) x1)
    (srcCol x1 hr) (dstCol x1) (val_main_v41 (F := Ideal) x1) _ (wgtCol x1)

/-- The first propagation of layer one is the sparse step of the input features. -/
theorem v45_eq (hr : InRange x1) :
    (val_main_v45 (F := Ideal) x0 x1 : S10000x256.Idx → EReal) = ofFn2 (P x1 (toFn2 x0)) := by
  unfold val_main_v45 Host.scatterAdd
  rw [Ideal.hostScatterAdd_def]
  exact prop_step x1 hr x0

/-- The second propagation of layer one is the sparse step of the first: its index, weight and zero operands are
    computed again by the same operations, and its features are the first propagation's result. -/
theorem v62_eq (hr : InRange x1) :
    (val_main_v62 (F := Ideal) x0 x1 : S10000x256.Idx → EReal) = ofFn2 (P x1 (P x1 (toFn2 x0))) := by
  unfold val_main_v62 Host.scatterAdd
  rw [Ideal.hostScatterAdd_def]
  refine (prop_step x1 hr (val_main_v45 (F := Ideal) x0 x1)).trans ?_
  rw [v45_eq x0 x1 hr, toFn2_ofFn2]

/-! ## The three projections and the bias -/

/-- Slice `j` of the weights, reshaped to a matrix, reads `W j`. -/
theorem w0_at (k o : Fin 256) : val_main_v31 (F := Ideal) x2 (ix2 k o) = toFn3 x2 0 k o := by
  unfold toFn3
  rw [val_main_v31_apply, val_main_v30_apply]
  have hk := k.isLt
  have ho := o.isLt
  exact congrArg x2 (funext fun a => Fin.ext (by
    match a with
    | ⟨0, _⟩ => rfl
    | ⟨1, _⟩ => show (k.val * 256 + o.val) / 256 % 256 = k.val; omega
    | ⟨2, _⟩ => show (k.val * 256 + o.val) % 256 = o.val; omega))

theorem w1_at (k o : Fin 256) : val_main_v47 (F := Ideal) x2 (ix2 k o) = toFn3 x2 1 k o := by
  unfold toFn3
  rw [val_main_v47_apply, val_main_v46_apply]
  have hk := k.isLt
  have ho := o.isLt
  exact congrArg x2 (funext fun a => Fin.ext (by
    match a with
    | ⟨0, _⟩ => rfl
    | ⟨1, _⟩ => show (k.val * 256 + o.val) / 256 % 256 = k.val; omega
    | ⟨2, _⟩ => show (k.val * 256 + o.val) % 256 = o.val; omega))

theorem w2_at (k o : Fin 256) : val_main_v67 (F := Ideal) x2 (ix2 k o) = toFn3 x2 2 k o := by
  unfold toFn3
  rw [val_main_v67_apply, val_main_v66_apply]
  have hk := k.isLt
  have ho := o.isLt
  exact congrArg x2 (funext fun a => Fin.ext (by
    match a with
    | ⟨0, _⟩ => rfl
    | ⟨1, _⟩ => show (k.val * 256 + o.val) / 256 % 256 = k.val; omega
    | ⟨2, _⟩ => show (k.val * 256 + o.val) % 256 = o.val; omega))

/-- A `[10000, 256] · [256, 256]` product read at `(p, q)`: row `p` of the left against column `q` of the right. -/
theorem dot_at (l : S10000x256.Idx → EReal) (r : S256x256.Idx → EReal) (W : Fin 256 → Fin 256 → EReal)
    (hW : ∀ k o, r (ix2 k o) = W k o) (p : Fin 10000) (q : Fin 256) :
    (∑ k : Fin 256, l (lidx_main_v32 (ix2 p q) k) * r (ridx_main_v32 (ix2 p q) k))
      = ∑ k : Fin 256, toFn2 l p k * W k q := by
  refine Finset.sum_congr rfl fun k _ => ?_
  have el : lidx_main_v32 (ix2 p q) k = ix2 p k := funext fun a => by
    match a with
    | ⟨0, _⟩ => rfl
    | ⟨1, _⟩ => rfl
  have er : ridx_main_v32 (ix2 p q) k = ix2 k q := funext fun a => by
    match a with
    | ⟨0, _⟩ => rfl
    | ⟨1, _⟩ => rfl
  rw [el, er, hW]
  rfl

/-- The first projection: the input features against `W 0`. -/
theorem v32_at (p : Fin 10000) (q : Fin 256) :
    val_main_v32 (F := Ideal) x0 x2 (ix2 p q) = ∑ k : Fin 256, toFn2 x0 p k * toFn3 x2 0 k q :=
  (val_main_v32_apply x0 x2 (ix2 p q)).trans (dot_at x0 (val_main_v31 (F := Ideal) x2) _ (w0_at x2) p q)

/-- The second projection: the propagated features against `W 1`. -/
theorem v48_at (hr : InRange x1) (p : Fin 10000) (q : Fin 256) :
    val_main_v48 (F := Ideal) x0 x1 x2 (ix2 p q) = ∑ k : Fin 256, P x1 (toFn2 x0) p k * toFn3 x2 1 k q := by
  refine (val_main_v48_apply x0 x1 x2 (ix2 p q)).trans ?_
  refine (dot_at (val_main_v45 (F := Ideal) x0 x1) (val_main_v47 (F := Ideal) x2) _ (w1_at x2) p q).trans ?_
  rw [v45_eq x0 x1 hr, toFn2_ofFn2]

/-- The second Chebyshev term: twice the second propagation less the input. -/
theorem v65_at (hr : InRange x1) (p : Fin 10000) (k : Fin 256) :
    val_main_v65 (F := Ideal) x0 x1 (ix2 p k) = comb two (P x1 (P x1 (toFn2 x0))) (toFn2 x0) p k := by
  rw [val_main_v65_apply, val_main_v64_apply, val_main_v63_apply, val_main_cst_13_apply, Ideal.subf_def,
    Ideal.mulf_def, Ideal.ofBits_def, v62_eq x0 x1 hr, ofFn2_apply]
  rfl

/-- The third projection: the second Chebyshev term against `W 2`. -/
theorem v68_at (hr : InRange x1) (p : Fin 10000) (q : Fin 256) :
    val_main_v68 (F := Ideal) x0 x1 x2 (ix2 p q)
      = ∑ k : Fin 256, comb two (P x1 (P x1 (toFn2 x0))) (toFn2 x0) p k * toFn3 x2 2 k q := by
  refine (val_main_v68_apply x0 x1 x2 (ix2 p q)).trans ?_
  refine (dot_at (val_main_v65 (F := Ideal) x0 x1) (val_main_v67 (F := Ideal) x2) _ (w2_at x2) p q).trans ?_
  refine Finset.sum_congr rfl fun k _ => ?_
  exact congrArg (fun s => s * toFn3 x2 2 k q) (v65_at x0 x1 hr p k)

/-- The bias spread over the nodes. -/
theorem v71_at (p : Fin 10000) (q : Fin 256) : val_main_v71 (F := Ideal) x3 (ix2 p q) = toFn1 x3 q := by
  unfold toFn1
  rw [val_main_v71_apply, val_main_v70_apply]
  exact congrArg x3 (funext fun a => by
    match a with
    | ⟨0, _⟩ => rfl)

/-- Before the cut-off the layer is the Chebyshev layer over the sparse step. -/
theorem v72_at (hr : InRange x1) (p : Fin 10000) (q : Fin 256) :
    val_main_v72 (F := Ideal) x0 x1 x2 x3 (ix2 p q) = cheb (P x1) two (toFn2 x0) (toFn3 x2) (toFn1 x3) p q := by
  rw [val_main_v72_apply, val_main_v69_apply, val_main_v49_apply, Ideal.addf_def, Ideal.addf_def, Ideal.addf_def,
    v32_at, v48_at x0 x1 x2 hr, v68_at x0 x1 x2 hr, v71_at]
  unfold cheb proj
  rfl

/-- The first layer's output: the Chebyshev layer over the sparse step, cut off below at zero. -/
theorem v73_eq (hr : InRange x1) :
    (val_main_v73 (F := Ideal) x0 x1 x2 x3 : S10000x256.Idx → EReal)
      = ofFn2 (fun i k => max (cheb (P x1) two (toFn2 x0) (toFn3 x2) (toFn1 x3) i k) zero) := by
  funext i
  obtain ⟨p, q, rfl⟩ : ∃ (p : Fin 10000) (q : Fin 256), i = ix2 p q := ⟨i 0, i 1, eq_ix2 i⟩
  rw [ofFn2_apply, val_main_v73_apply, val_main_call1_v0_apply, val_main_call1_cst_apply, Ideal.maximumf_def,
    Ideal.ofBits_def]
  exact congrArg (fun s => max s zero) (v72_at x0 x1 x2 x3 hr p q)

end Cert.ReferenceIdeal.HandRef

end
-- ==== Proof.RefLayer2.lean ====
/-
  The reference's second layer, read as a value over the first layer's output `h` (`%73`): its two propagation steps
  are the sparse step `P` of `h`, its three `dot_general`s are plain sums over the 256 hidden features, added in order
  with the bias.
-/
import proofs.«420550_j3083786518792_3_alg».proof.Proof.RefRead
import proofs.«420550_j3083786518792_3_alg».proof.Proof.RefProp
import proofs.«420550_j3083786518792_3_alg».proof.Proof.RefGraph
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.ReferenceIdeal.HandRef

open Cert.ReferenceIdeal Cert.ReferenceIdeal.ReadP Cert.Cheb

variable (x0 : FVec Ideal S10000x256 .f32) (x1 : IVec S2x320000 32) (x2 : FVec Ideal S3x256x256 .f32) (x3 : FVec Ideal S256 .f32)
  (x4 : FVec Ideal S3x256x128 .f32) (x5 : FVec Ideal S128 .f32)

/-! ## The edge list's two rows, one word at a time -/

/-- Row 0 of the edge list, flattened: entry `e` is the source word of edge `e`. -/
theorem src_word (e : Fin 320000) : val_main_v1 (F := Ideal) x1 (ix1 e) = x1 (ix2 0 e) := by
  rw [val_main_v1_apply, val_main_v0_apply]
  refine congrArg x1 (funext fun a => Fin.ext ?_)
  match a with
  | ⟨0, _⟩ => rfl
  | ⟨1, _⟩ => exact Nat.mod_eq_of_lt e.isLt

/-- Row 1 of the edge list, flattened: entry `e` is the destination word of edge `e`. -/
theorem dst_word (e : Fin 320000) : val_main_v3 (F := Ideal) x1 (ix1 e) = x1 (ix2 1 e) := by
  rw [val_main_v3_apply, val_main_v2_apply]
  refine congrArg x1 (funext fun a => Fin.ext ?_)
  match a with
  | ⟨0, _⟩ => rfl
  | ⟨1, _⟩ => exact Nat.mod_eq_of_lt e.isLt

/-- A node number is not negative read signed, so `select (w < 0) (w + 10000) w` keeps it. -/
theorem select_slt_zero (w a : BitVec 32) (hw : w.toNat < 10000) :
    Scalar.select (IntOp.cmpi .slt w 0#32) a w = w := by
  have hc : IntOp.cmpi .slt w 0#32 = 0#1 := eq_zero_of_ne_one fun h1 => by
    have h2 := (StableHlo.Predicate.slt_iff_toNat (a := w) (b := 0#32) (by omega) (by decide)).mp h1
    simp at h2
  rw [hc, select_zero]

/-! ## The operands of the two propagation stages -/

/-- The start-index column of the first gather is the source row. -/
theorem srcCol82 (hr : InRange x1) (e : Fin 320000) : val_main_v82 (F := Ideal) x1 (ix2 e 0) = x1 (ix2 0 e) := by
  rw [val_main_v82_apply, val_main_v81_apply, val_main_v78_apply, val_main_v77_apply, val_main_c_14_apply,
    show idx_main_v82 (ix2 e (0 : Fin 1)) = ix1 e from funext fun a => match a with | ⟨0, _⟩ => rfl, src_word]
  exact select_slt_zero _ _ (hr 0 e)

/-- The start-index column of the second gather is the source row. -/
theorem srcCol99 (hr : InRange x1) (e : Fin 320000) : val_main_v99 (F := Ideal) x1 (ix2 e 0) = x1 (ix2 0 e) := by
  rw [val_main_v99_apply, val_main_v98_apply, val_main_v95_apply, val_main_v94_apply, val_main_c_17_apply,
    show idx_main_v99 (ix2 e (0 : Fin 1)) = ix1 e from funext fun a => match a with | ⟨0, _⟩ => rfl, src_word]
  exact select_slt_zero _ _ (hr 0 e)

/-- The scatter-index column of the first segment sum is the destination row. -/
theorem dstCol88 (e : Fin 320000) : val_main_v88 (F := Ideal) x1 (ix2 e 0) = x1 (ix2 1 e) := by
  rw [val_main_v88_apply, show idx_main_v88 (ix2 e (0 : Fin 1)) = ix1 e from funext fun a => match a with | ⟨0, _⟩ => rfl,
    dst_word]

/-- The scatter-index column of the second segment sum is the destination row. -/
theorem dstCol105 (e : Fin 320000) : val_main_v105 (F := Ideal) x1 (ix2 e 0) = x1 (ix2 1 e) := by
  rw [val_main_v105_apply, show idx_main_v105 (ix2 e (0 : Fin 1)) = ix1 e from funext fun a => match a with | ⟨0, _⟩ => rfl,
    dst_word]

/-- The edge weights broadcast along the feature axis, first stage: row `e` is constantly the weight of edge `e`. -/
theorem wCol85 (e : Fin 320000) (d : Fin 256) :
    val_main_v85 (F := Ideal) x1 (ix2 e d) = toFn1 (val_main_v29 (F := Ideal) x1 : S320000.Idx → EReal) e := by
  rw [val_main_v85_apply, val_main_v84_apply]
  generalize val_main_v29 (F := Ideal) x1 = w
  have hi : idx_main_v84 (idx_main_v85 (ix2 e d)) = ix1 e := funext fun a => match a with | ⟨0, _⟩ => rfl
  rw [hi]
  rfl

/-- The edge weights broadcast along the feature axis, second stage. -/
theorem wCol102 (e : Fin 320000) (d : Fin 256) :
    val_main_v102 (F := Ideal) x1 (ix2 e d) = toFn1 (val_main_v29 (F := Ideal) x1 : S320000.Idx → EReal) e := by
  rw [val_main_v102_apply, val_main_v101_apply]
  generalize val_main_v29 (F := Ideal) x1 = w
  have hi : idx_main_v101 (idx_main_v102 (ix2 e d)) = ix1 e := funext fun a => match a with | ⟨0, _⟩ => rfl
  rw [hi]
  rfl

/-- The first segment sum starts from zeros. -/
theorem zero87 (i : S10000x256.Idx) : (val_main_v87 (F := Ideal) i : EReal) = 0 := by
  rw [val_main_v87_apply, val_main_cst_16_apply]
  exact Ideal.ofBits_zero_f32

/-- The second segment sum starts from zeros. -/
theorem zero104 (i : S10000x256.Idx) : (val_main_v104 (F := Ideal) i : EReal) = 0 := by
  rw [val_main_v104_apply, val_main_cst_19_apply]
  exact Ideal.ofBits_zero_f32

/-! ## One propagation stage -/

/-- Gather the rows of `t` at the sources, scale each by its edge's weight, add them up by destination: the sparse
    step of `t`, whatever arrays carry the two index columns, the broadcast weights and the zeros. -/
theorem prop_stage (hr : InRange x1) (t z : S10000x256.Idx → EReal) (J I : IVec S320000x1 32)
    (Wb : S320000x256.Idx → EReal) (hz : ∀ i, z i = 0)
    (hJ : ∀ e : Fin 320000, J (ix2 e 0) = x1 (ix2 0 e)) (hI : ∀ e : Fin 320000, I (ix2 e 0) = x1 (ix2 1 e))
    (hW : ∀ (e : Fin 320000) (d : Fin 256), Wb (ix2 e d) = toFn1 (val_main_v29 (F := Ideal) x1 : S320000.Idx → EReal) e) :
    Host.scatterAdd (F := Ideal) (φ := .f32) scatter_S10000x256_S320000x1_S320000x256_1_0_0_1 z I
        (mulf (F := Ideal) (φ := .f32) (Host.gather gather_S10000x256_S320000x1_S320000x256_1_0_n_n_0_1_1256 t J) Wb)
      = ofFn2 (P x1 (toFn2 t)) := by
  unfold Host.scatterAdd P
  rw [Ideal.hostScatterAdd_def]
  exact prop_apply gather_S10000x256_S320000x1_S320000x256_1_0_n_n_0_1_1256 rfl rfl rfl rfl rfl rfl rfl
    scatter_S10000x256_S320000x1_S320000x256_1_0_0_1 rfl rfl rfl rfl x1 hr z t hz J I hJ hI Wb
    (toFn1 (val_main_v29 (F := Ideal) x1 : S320000.Idx → EReal)) hW

/-- The first propagation of layer two is the sparse step of the hidden features. -/
theorem v89_eq (hr : InRange x1) :
    (val_main_v89 (F := Ideal) x0 x1 x2 x3 : S10000x256.Idx → EReal)
      = ofFn2 (P x1 (toFn2 (val_main_v73 (F := Ideal) x0 x1 x2 x3 : S10000x256.Idx → EReal))) := by
  unfold val_main_v89 val_main_v86 val_main_v83
  exact prop_stage x1 hr _ _ _ _ _ zero87 (srcCol82 x1 hr) (dstCol88 x1) (wCol85 x1)

/-- The second propagation of layer two is the sparse step of the first. -/
theorem v106_eq (hr : InRange x1) :
    (val_main_v106 (F := Ideal) x0 x1 x2 x3 : S10000x256.Idx → EReal)
      = ofFn2 (P x1 (P x1 (toFn2 (val_main_v73 (F := Ideal) x0 x1 x2 x3 : S10000x256.Idx → EReal)))) := by
  unfold val_main_v106 val_main_v103 val_main_v100
  refine (prop_stage x1 hr _ _ _ _ _ zero104 (srcCol99 x1 hr) (dstCol105 x1) (wCol102 x1)).trans ?_
  rw [v89_eq x0 x1 x2 x3 hr, toFn2_ofFn2]

/-! ## The three weight slices, one entry at a time -/

/-- `W2[0]` at `(k, q)`. -/
theorem w0_apply (k : Fin 256) (q : Fin 128) : val_main_v75 (F := Ideal) x4 (ix2 k q) = x4 (ix3 0 k q) := by
  rw [val_main_v75_apply, val_main_v74_apply]
  refine congrArg x4 (funext fun a => Fin.ext ?_)
  have hk := k.isLt
  have hq := q.isLt
  match a with
  | ⟨0, _⟩ => rfl
  | ⟨1, _⟩ => show (k.val * 128 + q.val) / 128 % 256 = k.val; omega
  | ⟨2, _⟩ => show (k.val * 128 + q.val) % 128 = q.val; omega

/-- `W2[1]` at `(k, q)`. -/
theorem w1_apply (k : Fin 256) (q : Fin 128) : val_main_v91 (F := Ideal) x4 (ix2 k q) = x4 (ix3 1 k q) := by
  rw [val_main_v91_apply, val_main_v90_apply]
  refine congrArg x4 (funext fun a => Fin.ext ?_)
  have hk := k.isLt
  have hq := q.isLt
  match a with
  | ⟨0, _⟩ => rfl
  | ⟨1, _⟩ => show (k.val * 128 + q.val) / 128 % 256 = k.val; omega
  | ⟨2, _⟩ => show (k.val * 128 + q.val) % 128 = q.val; omega

/-- `W2[2]` at `(k, q)`. -/
theorem w2_apply (k : Fin 256) (q : Fin 128) : val_main_v111 (F := Ideal) x4 (ix2 k q) = x4 (ix3 2 k q) := by
  rw [val_main_v111_apply, val_main_v110_apply]
  refine congrArg x4 (funext fun a => Fin.ext ?_)
  have hk := k.isLt
  have hq := q.isLt
  match a with
  | ⟨0, _⟩ => rfl
  | ⟨1, _⟩ => show (k.val * 128 + q.val) / 128 % 256 = k.val; omega
  | ⟨2, _⟩ => show (k.val * 128 + q.val) % 128 = q.val; omega

/-! ## The three products and the bias at an output entry -/

theorem lidx76_eq (p : Fin 10000) (q : Fin 128) (k : Fin 256) : lidx_main_v76 (ix2 p q) k = ix2 p k :=
  funext fun a => match a with | ⟨0, _⟩ => rfl | ⟨1, _⟩ => rfl
theorem ridx76_eq (p : Fin 10000) (q : Fin 128) (k : Fin 256) : ridx_main_v76 (ix2 p q) k = ix2 k q :=
  funext fun a => match a with | ⟨0, _⟩ => rfl | ⟨1, _⟩ => rfl
theorem lidx92_eq (p : Fin 10000) (q : Fin 128) (k : Fin 256) : lidx_main_v92 (ix2 p q) k = ix2 p k :=
  funext fun a => match a with | ⟨0, _⟩ => rfl | ⟨1, _⟩ => rfl
theorem ridx92_eq (p : Fin 10000) (q : Fin 128) (k : Fin 256) : ridx_main_v92 (ix2 p q) k = ix2 k q :=
  funext fun a => match a with | ⟨0, _⟩ => rfl | ⟨1, _⟩ => rfl
theorem lidx112_eq (p : Fin 10000) (q : Fin 128) (k : Fin 256) : lidx_main_v112 (ix2 p q) k = ix2 p k :=
  funext fun a => match a with | ⟨0, _⟩ => rfl | ⟨1, _⟩ => rfl
theorem ridx112_eq (p : Fin 10000) (q : Fin 128) (k : Fin 256) : ridx_main_v112 (ix2 p q) k = ix2 k q :=
  funext fun a => match a with | ⟨0, _⟩ => rfl | ⟨1, _⟩ => rfl

/-- The hidden features times `W2[0]`. -/
theorem dot0_apply (p : Fin 10000) (q : Fin 128) :
    val_main_v76 (F := Ideal) x0 x1 x2 x3 x4 (ix2 p q)
      = ∑ k : Fin 256, toFn2 (val_main_v73 (F := Ideal) x0 x1 x2 x3 : S10000x256.Idx → EReal) p k * toFn3 x4 0 k q := by
  rw [val_main_v76_apply]
  refine Finset.sum_congr rfl fun k _ => ?_
  rw [lidx76_eq, ridx76_eq, w0_apply]
  generalize val_main_v73 (F := Ideal) x0 x1 x2 x3 = h
  rfl

/-- The first propagated term times `W2[1]`. -/
theorem dot1_apply (hr : InRange x1) (p : Fin 10000) (q : Fin 128) :
    val_main_v92 (F := Ideal) x0 x1 x2 x3 x4 (ix2 p q)
      = ∑ k : Fin 256, P x1 (toFn2 (val_main_v73 (F := Ideal) x0 x1 x2 x3 : S10000x256.Idx → EReal)) p k * toFn3 x4 1 k q := by
  rw [val_main_v92_apply]
  refine Finset.sum_congr rfl fun k _ => ?_
  rw [lidx92_eq, ridx92_eq, w1_apply, v89_eq x0 x1 x2 x3 hr, ofFn2_apply]
  rfl

/-- The second Chebyshev term, twice the second propagation less the hidden features, times `W2[2]`. -/
theorem dot2_apply (hr : InRange x1) (p : Fin 10000) (q : Fin 128) :
    val_main_v112 (F := Ideal) x0 x1 x2 x3 x4 (ix2 p q)
      = ∑ k : Fin 256, comb two (P x1 (P x1 (toFn2 (val_main_v73 (F := Ideal) x0 x1 x2 x3 : S10000x256.Idx → EReal))))
          (toFn2 (val_main_v73 (F := Ideal) x0 x1 x2 x3 : S10000x256.Idx → EReal)) p k * toFn3 x4 2 k q := by
  rw [val_main_v112_apply]
  refine Finset.sum_congr rfl fun k _ => ?_
  rw [lidx112_eq, ridx112_eq, w2_apply, val_main_v109_apply, val_main_v108_apply, val_main_v107_apply,
    val_main_cst_20_apply, v106_eq x0 x1 x2 x3 hr, ofFn2_apply, Ideal.subf_def, Ideal.mulf_def, Ideal.ofBits_def]
  generalize val_main_v73 (F := Ideal) x0 x1 x2 x3 = h
  rfl

/-- The bias, broadcast over the nodes. -/
theorem bias_apply (p : Fin 10000) (q : Fin 128) : val_main_v115 (F := Ideal) x5 (ix2 p q) = toFn1 x5 q := by
  rw [val_main_v115_apply, val_main_v114_apply]
  have hi : idx_main_v114 (idx_main_v115 (ix2 p q)) = ix1 q := funext fun a => match a with | ⟨0, _⟩ => rfl
  rw [hi]
  rfl

/-- The result: the Chebyshev layer over the sparse step, of the first layer's output. -/
theorem v116_layer (hr : InRange x1) :
    (val_main_v116 (F := Ideal) x0 x1 x2 x3 x4 x5 : S10000x128.Idx → EReal)
      = ofFn2 (cheb (P x1) two (toFn2 (val_main_v73 (F := Ideal) x0 x1 x2 x3 : S10000x256.Idx → EReal)) (toFn3 x4) (toFn1 x5)) := by
  funext i
  obtain ⟨p, q, rfl⟩ : ∃ (p : Fin 10000) (q : Fin 128), i = ix2 p q := ⟨i 0, i 1, eq_ix2 i⟩
  rw [ofFn2_apply, val_main_v116_apply, val_main_v113_apply, val_main_v93_apply, dot0_apply, dot1_apply x0 x1 x2 x3 x4 hr,
    dot2_apply x0 x1 x2 x3 x4 hr, bias_apply, Ideal.addf_def, Ideal.addf_def, Ideal.addf_def]
  unfold cheb proj
  rfl

end Cert.ReferenceIdeal.HandRef

end
-- ==== Proof.PreDecode.lean ====
/-
  What the precondition says of the arguments. The precondition is printed as a function of the six argument arrays
  returning one bit: the conjunction of "every entry of x, W1, b1, W2, b2 is smaller in absolute value than +∞" and
  "every word of the edge list is at least 0 and below 10000, read signed". Read back: the float arguments hold real
  numbers, and every edge-list word is a node number (read unsigned it is below 10000).
-/
import proofs.«420550_j3083786518792_3_alg».proof.Pre_finite_inputs
import proofs.«420550_j3083786518792_3_alg».proof.Proof.LibAggAlgebra
import proofs.«420550_j3083786518792_3_alg».proof.Proof.Consts
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs Cert.AggAlgebra

/-- The result of a reduction over every axis has one index. -/
instance : Subsingleton S_.Idx := ⟨fun a b => funext fun d => d.elim0⟩

/-- The word 0x7F800000 (sign 0, exponent all ones, significand 0) denotes +∞. -/
theorem inf_word : Ideal.ofBits .f32 0x7F800000#32 = (⊤ : EReal) := Cert.Consts.ofBits_inf

/-- An extended real whose absolute value max x (-x) is strictly below +∞ is neither infinity: it is a real number. -/
theorem isReal_of_abs_lt (x : EReal)
    (h : FloatOps.cmpf (F := Ideal) .olt (FloatOps.hostAbsf x) (FloatOps.ofBits .f32 0x7F800000#32) = 1#1) :
    IsReal x := by
  have h' : Ideal.cmp .olt (max x (-x)) (Ideal.ofBits .f32 0x7F800000#32) = 1#1 := h
  rw [inf_word] at h'
  unfold Ideal.cmp at h'
  rw [StableHlo.Predicate.ofBool_eq_one_iff] at h'
  simp only [decide_eq_true_eq] at h'
  induction x using EReal.rec with
  | bot => simp at h'
  | coe r => exact ⟨r, rfl⟩
  | top => simp at h'

/-- A 32-bit word in [0, 10000) read signed is below 10000 read unsigned: a word with its top bit set reads negative. -/
theorem word_lt (w : BitVec 32) (h0 : IntOp.cmpi .sge w 0#32 = 1#1) (h1 : IntOp.cmpi .slt w 10000#32 = 1#1) :
    w.toNat < 10000 := by
  unfold IntOp.cmpi at h0 h1
  rw [StableHlo.Predicate.ofBool_eq_one_iff] at h0 h1
  simp only [BitVec.slt, BitVec.sle, decide_eq_true_eq] at h0 h1
  have h32 := w.isLt
  have e := BitVec.toInt_eq_toNat_cond w
  have z : (0#32 : BitVec 32).toInt = 0 := by decide
  have t : (10000#32 : BitVec 32).toInt = 10000 := by decide
  rw [z] at h0
  rw [t] at h1
  split at e <;> omega

/-- From the printed precondition: x, W1 and b1 hold real numbers and every edge-list word is below 10000. -/
theorem pre_decode [Cert.Pre_finite_inputs.Facts] (a0 : FVec Ideal S10000x256 .f32) (a1 : IVec S2x320000 32)
    (a2 : FVec Ideal S3x256x256 .f32) (a3 : FVec Ideal S256 .f32) (a4 : FVec Ideal S3x256x128 .f32) (a5 : FVec Ideal S128 .f32)
    (h : Cert.Pre_finite_inputs.fn (F := Ideal) a0 a1 a2 a3 a4 a5 = fun _ => 1#1) :
    (∀ i, IsReal (a0 i)) ∧ (∀ (r : Fin 2) (e : Fin 320000), (a1 (ix2 r e)).toNat < 10000)
      ∧ (∀ i, IsReal (a2 i)) ∧ (∀ i, IsReal (a3 i)) := by
  -- the one bit is a conjunction of six "all entries" reductions; split it, then read each reduction at an element
  have e := congrFun h ix0
  dsimp only [Cert.Pre_finite_inputs.fn, Cert.Pre_finite_inputs.fn_part1] at e
  simp only [andi, IntOp.andi_eq_one] at e
  obtain ⟨⟨⟨⟨⟨h0, h2⟩, h3⟩, h4⟩, h5⟩, h1⟩ := e
  refine ⟨fun i => ?_, fun r c => ?_, fun i => ?_, fun i => ?_⟩
  · exact isReal_of_abs_lt _ (Host.reduce_andi_all _ _ _ _ _ h0 i)
  · have hw := Host.reduce_andi_all _ _ _ _ _ h1 (ix2 r c)
    obtain ⟨hge, hlt⟩ := IntOp.andi_eq_one.1 hw
    exact word_lt _ hge hlt
  · exact isReal_of_abs_lt _ (Host.reduce_andi_all _ _ _ _ _ h2 i)
  · exact isReal_of_abs_lt _ (Host.reduce_andi_all _ _ _ _ _ h3 i)

end Cert.Pre_finite_inputs.Decode

end
-- ==== Proof.Bridge.lean ====
/-
  The two programs compute one function. The kernel's result array, after its six calls, is the two-layer Chebyshev
  network through the DENSE normalised adjacency `A` (entry `(i, j)` = the sum of the weights of the edges `j → i`),
  each propagation a matrix product `A · T`; the reference's result is the same network with each propagation done
  SPARSELY, edge by edge: gather the source rows, scale by the edge weight, add up by destination. Both programs compute
  the edge weights by the same operations of the edge list, so they are one function `w` of it, and every weight is a
  real number. With every edge-list word a node number (the precondition) the dense adjacency is `adj src dst w`; with
  the features, the first layer's weights and bias real (the precondition), `A · T = ∑ over edges` for every feature
  matrix the network meets (distributivity of the product over the sum of the weights of parallel edges, which holds
  on the reals and not at the infinities), so the two results agree entry by entry.
-/
import proofs.«420550_j3083786518792_3_alg».proof.Defs
import proofs.«420550_j3083786518792_3_alg».proof.Proof.Gen.Pre_finite_inputs
import proofs.«420550_j3083786518792_3_alg».proof.Proof.KRun
import proofs.«420550_j3083786518792_3_alg».proof.Proof.KFold
import proofs.«420550_j3083786518792_3_alg».proof.Proof.KHost
import proofs.«420550_j3083786518792_3_alg».proof.Proof.KRegion0
import proofs.«420550_j3083786518792_3_alg».proof.Proof.KRegion1
import proofs.«420550_j3083786518792_3_alg».proof.Proof.KRegion2
import proofs.«420550_j3083786518792_3_alg».proof.Proof.KRegion3
import proofs.«420550_j3083786518792_3_alg».proof.Proof.KRegion4
import proofs.«420550_j3083786518792_3_alg».proof.Proof.KRegion5
import proofs.«420550_j3083786518792_3_alg».proof.Proof.RefRead
import proofs.«420550_j3083786518792_3_alg».proof.Proof.RefGraph
import proofs.«420550_j3083786518792_3_alg».proof.Proof.RefLayer1
import proofs.«420550_j3083786518792_3_alg».proof.Proof.RefLayer2
import proofs.«420550_j3083786518792_3_alg».proof.Proof.PreDecode
import proofs.«420550_j3083786518792_3_alg».proof.Proof.Spec
import proofs.«420550_j3083786518792_3_alg».proof.Proof.Graph
import proofs.«420550_j3083786518792_3_alg».proof.Proof.Consts

set_option maxRecDepth 16384

noncomputable section

open Idealize.ShloMosaic Idealize.ShloMosaic.TcCoe Idealize.SL.Sem Idealize.ShloMosaic.ValueIdx

namespace Cert.Proof.Hand

open Cert.Cheb Cert.AggAlgebra

/-- Both programs compute the per-edge weights by the same operations of the edge list. -/
theorem weights_eq (x1 : IVec Cert.KernelIdeal.S2x320000 32) :
    Cert.KernelIdeal.HandHost.normTerm x1 = Cert.ReferenceIdeal.ReadP.val_main_v29 (F := Ideal) x1 := by
  rfl

/-- The reference's result is the network over the sparse step. -/
theorem ref_value (x0 : FVec Ideal Cert.ReferenceIdeal.S10000x256 .f32) (x1 : IVec Cert.ReferenceIdeal.S2x320000 32)
    (x2 : FVec Ideal Cert.ReferenceIdeal.S3x256x256 .f32) (x3 : FVec Ideal Cert.ReferenceIdeal.S256 .f32)
    (x4 : FVec Ideal Cert.ReferenceIdeal.S3x256x128 .f32) (x5 : FVec Ideal Cert.ReferenceIdeal.S128 .f32) (hr : InRange x1) :
    (Cert.ReferenceIdeal.ReadP.val_main_v116 (F := Ideal) x0 x1 x2 x3 x4 x5 : Cert.ReferenceIdeal.S10000x128.Idx → EReal)
      = ofFn2 (net (Cert.ReferenceIdeal.HandRef.P x1) Cert.ReferenceIdeal.HandRef.two Cert.ReferenceIdeal.HandRef.zero
          (toFn2 x0) (toFn3 x2) (toFn1 x3) (toFn3 x4) (toFn1 x5)) := by
  rw [Cert.ReferenceIdeal.HandRef.v116_layer x0 x1 x2 x3 x4 x5 hr, Cert.ReferenceIdeal.HandRef.v73_eq x0 x1 x2 x3 hr]
  rfl

/-- The kernel's result is the network over the dense adjacency of the edge list, on edge lists of node numbers. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hr : InRange (m ((c.tc : Thread Cert.KernelIdeal.nD Cert.KernelIdeal.τ).loc Cert.KernelIdeal.main_arg1))) :
    (Cert.KernelIdeal.Gen.W12 (F := Ideal) m ρ c (Proc.devRef .tc Cert.KernelIdeal.main_v49) : Cert.KernelIdeal.S10000x128.Idx → EReal)
      = ofFn2 (net (dmm (adj (nodeOf (m ((c.tc : Thread Cert.KernelIdeal.nD Cert.KernelIdeal.τ).loc Cert.KernelIdeal.main_arg1)) 0)
            (nodeOf (m ((c.tc : Thread Cert.KernelIdeal.nD Cert.KernelIdeal.τ).loc Cert.KernelIdeal.main_arg1)) 1)
            (toFn1 (Cert.ReferenceIdeal.ReadP.val_main_v29 (F := Ideal) (m ((c.tc : Thread Cert.KernelIdeal.nD Cert.KernelIdeal.τ).loc Cert.KernelIdeal.main_arg1))))))
          Cert.KernelIdeal.HandFold.two Cert.KernelIdeal.HandFold.zero
          (toFn2 (m ((c.tc : Thread Cert.KernelIdeal.nD Cert.KernelIdeal.τ).loc Cert.KernelIdeal.main_arg0) : Cert.KernelIdeal.S10000x256.Idx → EReal))
          (toFn3 (m ((c.tc : Thread Cert.KernelIdeal.nD Cert.KernelIdeal.τ).loc Cert.KernelIdeal.main_arg2) : Cert.KernelIdeal.S3x256x256.Idx → EReal))
          (toFn1 (m ((c.tc : Thread Cert.KernelIdeal.nD Cert.KernelIdeal.τ).loc Cert.KernelIdeal.main_arg3) : Cert.KernelIdeal.S256.Idx → EReal))
          (toFn3 (m ((c.tc : Thread Cert.KernelIdeal.nD Cert.KernelIdeal.τ).loc Cert.KernelIdeal.main_arg4) : Cert.KernelIdeal.S3x256x128.Idx → EReal))
          (toFn1 (m ((c.tc : Thread Cert.KernelIdeal.nD Cert.KernelIdeal.τ).loc Cert.KernelIdeal.main_arg5) : Cert.KernelIdeal.S128.Idx → EReal))) := by
  rw [Cert.KernelIdeal.HandFold.kernel_value m ρ
    (fun V c => Cert.KernelIdeal.Hand0.prop0_bf16 V c) (fun V c => Cert.KernelIdeal.Hand1.comb1_bf16 V c)
    (fun V c => Cert.KernelIdeal.Hand2.proj2 V c) (fun V c => Cert.KernelIdeal.Hand3.prop3_bf16 V c)
    (fun V c => Cert.KernelIdeal.Hand4.comb4_bf16 V c) (fun V c => Cert.KernelIdeal.Hand5.proj5 V c) c
    (Cert.KernelIdeal.HandHost.W3_v39 m ρ c) (Cert.KernelIdeal.HandHost.W3_v38 m ρ c),
    Cert.KernelIdeal.HandHost.W3_adj m ρ c hr, Cert.KernelIdeal.HandHost.normK_eq m ρ c, weights_eq]

/-- The literal 2.0 is a real number. -/
theorem isReal_two : IsReal (Ideal.ofBits .f32 0x40000000#32) := ⟨2, Cert.Consts.ofBits_two⟩
/-- The literal 0.0 is a real number. -/
theorem isReal_zero' : IsReal (Ideal.ofBits .f32 0x00000000#32) := ⟨0, Cert.Consts.ofBits_zero⟩

/-- At the ideal values, under the precondition, the kernel and the reference end with equal results. -/
theorem algebraic : Cert.algebraic_KernelIdeal_ReferenceIdeal := by
  intro m ρ m' ρ' hpre hagree
  refine ⟨fun c => Cert.KernelIdeal.Gen.W12 (F := Ideal) m ρ c (Proc.devRef .tc Cert.KernelIdeal.main_v49),
    Cert.KernelIdeal.Gen.run_result (F := Ideal) m ρ, ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5⟩ := hagree c
  obtain ⟨hx, hrange, hW1, hb1⟩ := Cert.Pre_finite_inputs.Decode.pre_decode _ _ _ _ _ _ (hpre c)
  have hr : InRange (m ((c.tc : Thread Cert.KernelIdeal.nD Cert.KernelIdeal.τ).loc Cert.KernelIdeal.main_arg1)) := hrange
  rw [Cert.ReferenceIdeal.ReadP.val_main_v116_eq, e0, e1, e2, e3, e4, e5, ref_value _ _ _ _ _ _ hr]
  refine Eq.trans ?_ (kernel_value m ρ c hr).symm
  unfold Cert.ReferenceIdeal.HandRef.P
  exact congrArg ofFn2 (net_dense_eq_sparse _ _ _
    (fun e => (weights_eq _ ▸ Cert.KernelIdeal.HandHost.normTerm_real _ e : IsReal _))
    _ _ isReal_two isReal_zero' _ (fun i k => hx (ix2 i k)) _ (fun j k o => hW1 (ix3 j k o)) _ (fun o => hb1 (ix1 o)) _ _).symm

end Cert.Proof.Hand

end
-- ==== Proof.lean ====
/-
  The certificate of a two-layer Chebyshev graph convolution (order three) whose kernel replaces the four sparse
  propagation steps by products with a dense normalised adjacency built once.

  Claimed, under the precondition (finite float inputs; every edge-list word a node number in [0, 10000)):
  * the three frames: the word-level kernel and its idealization by the generated frame of its six calls, the host-only
    reference by its generated run with the result dropped;
  * `preserves`: the ideal pass rewrote nothing, the conjunct is `True`;
  * `algebraic`: at the ideal values both programs end with the same result array (Proof/Bridge.lean): the kernel's
    is the network through the dense adjacency (its six calls read as values and composed through @main's segments), the
    reference's the network through the edge list (its 144 host operations read stage by stage), and on real features
    and real edge weights a product with the dense adjacency is the sum over the edges.
-/
import proofs.«420550_j3083786518792_3_alg».proof.Defs
import proofs.«420550_j3083786518792_3_alg».proof.Proof.Gen.Kernel
import proofs.«420550_j3083786518792_3_alg».proof.Proof.Gen.Kernel.Frame
import proofs.«420550_j3083786518792_3_alg».proof.Proof.Gen.KernelIdeal
import proofs.«420550_j3083786518792_3_alg».proof.Proof.Gen.KernelIdeal.Frame
import proofs.«420550_j3083786518792_3_alg».proof.Proof.Gen.ReferenceIdeal
import proofs.«420550_j3083786518792_3_alg».proof.Proof.Gen.Pre_finite_inputs
import proofs.«420550_j3083786518792_3_alg».proof.Proof.RefRun
import proofs.«420550_j3083786518792_3_alg».proof.Proof.Bridge
import Idealize.ShloMosaic.Adequacy
import Idealize.ShloMosaic.Init

noncomputable section

namespace Cert.Proof

open Idealize.ShloMosaic Idealize.SL.Sem

/-- The word-level kernel runs to its end and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs to its end and leaves its arguments as launched: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Hand.algebraic⟩

end Cert.Proof

end
